-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 32 := constantI S_ 32 50000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  main_v40

def fn_part1 {F : FTy → Type} [FloatOps F] (main_arg1 : IVec S2x800000 32) (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S1x3200 : Shape := ⟨2, ![1, 3200]⟩
abbrev S3200x64 : Shape := ⟨2, ![3200, 64]⟩
abbrev S2000x1 : Shape := ⟨2, ![2000, 1]⟩
abbrev S2000x64 : Shape := ⟨2, ![2000, 64]⟩
abbrev S2000x3200 : Shape := ⟨2, ![2000, 3200]⟩

abbrev nBuf : Space → Nat
  | .hbm => 58
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S1x800000, .i32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S1x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S1x64, .f32⟩
  | .hbm, ⟨57, _⟩ => ⟨S50000x64, .f32⟩
  | .local _ .vmem, ⟨0, _⟩ => ⟨S1x3200, .i32⟩
  | .local _ .vmem, ⟨1, _⟩ => ⟨S1x3200, .i32⟩
  | .local _ .vmem, ⟨2, _⟩ => ⟨S3200x64, .f32⟩
  | .local _ .vmem, ⟨3, _⟩ => ⟨S3200x64, .f32⟩
  | .local _ .vmem, ⟨4, _⟩ => ⟨S2000x1, .f32⟩
  | .local _ .vmem, ⟨5, _⟩ => ⟨S2000x1, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S1x3200, .i32⟩
  | .local _ .vmem, ⟨15, _⟩ => ⟨S1x3200, .i32⟩
  | .local _ .vmem, ⟨16, _⟩ => ⟨S3200x64, .f32⟩
  | .local _ .vmem, ⟨17, _⟩ => ⟨S3200x64, .f32⟩
  | .local _ .vmem, ⟨18, _⟩ => ⟨S2000x1, .f32⟩
  | .local _ .vmem, ⟨19, _⟩ => ⟨S2000x1, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_c_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_v21 : Ref sig .tc := ⟨.hbm, 48, rfl⟩
abbrev main_v22 : Ref sig .tc := ⟨.hbm, 49, rfl⟩
abbrev main_c_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![25, 250], ![false, false]⟩

def k0_cond2 (i : grid0.Coords) : BitVec 1 :=
  let arg1 : BitVec 32 := BitVec.ofNat 32 (i 1).val
  let c249_i32 : BitVec 32 := 249#32
  let v24 : BitVec 1 := Scalar.cmpi .eq arg1 c249_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![25, 250], ![false, false]⟩

def k1_cond2 (i : grid1.Coords) : BitVec 1 :=
  let arg1 : BitVec 32 := BitVec.ofNat 32 (i 1).val
  let c249_i32 : BitVec 32 := 249#32
  let v24 : BitVec 1 := Scalar.cmpi .eq arg1 c249_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  shapeCasts_S800000_S1x800000 : S800000.ShapeCasts S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  iota_S2000x1_d0_w32 : S2000x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S2000x1_S2000x3200 : S2000x1.Broadcasts S2000x3200
  broadcasts_S1x3200_S2000x3200 : S1x3200.Broadcasts S2000x3200
  natLt_1_32 : 1 < 32
  bitsLt_bf16_f32 : FTy.bits .bf16 < FTy.bits .f32
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S2000x3200_S3200x64_S2000x64_1_0_0_1_n_n_wf : DotDims.WF S2000x3200 S3200x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x800000.size a
  hwx0_0 : ∀ i : grid0.Coords, EltTy.bits .i32 = 32 ∨ (Rect.block (s := S1x800000) S1x3200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x800000.size a
  hwx1_0 : ∀ i : grid1.Coords, EltTy.bits .i32 = 32 ∨ (Rect.block (s := S1x800000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x3200_S3200x64_S2000x64_1_0_0_1_n_n : DotDims S2000x3200 S3200x64 S2000x64 where
  lhsContracting := [1]
  rhsContracting := [0]
  lhsNonContracting := [0]
  rhsNonContracting := [1]
  lhsBatch := []
  rhsBatch := []
  wf := dot_S2000x3200_S3200x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v6) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v6) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.FrameBits.Scoped0.lean ====
/-
  Region 0: the scoped buffers that are no staging buffer of this launch, with the launch's own scratch accumulator
  split off. The class's invariant of the launch (the scoped rest and the generator register) is the accumulator owned
  at some contents, beside the other launch's scoped buffers (which this launch's body never opens), beside the
  generator register.
-/
import proofs.«402184_j37915971289911_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The scratch accumulator: a whole scoped buffer of the kernel's own. -/
abbrev scMR0 : Memref sig .tc .vmem S2000x64 .f32 := Memref.whole cc0_scratch0
/-- The same as a view: what it holds is stated through it. -/
abbrev VSR0 : View sig .tc .vmem S2000x64 .f32 := scMR0.view

/-- The other launch's scoped buffers, each whole at some contents. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The launch's invariant before the first point: the scratch accumulator at some contents, the other launch's scoped
    buffers, the generator register at some state. -/
theorem PhiAR0_eq (c : Dev nD) :
    (Pipeline.ΦA spec0 c : sProp 𝕄)
      = iprop(iprop((∃ d, owns (c : Thread nD τ) scMR0 fullShare d) ∗ restR0 c) ∗ (∃ r, prngReg c r)) := by
  unfold Pipeline.ΦA restR0; rw [scopedRest0_eq]; simp only [scMR0, owns_whole]; try rfl

end Cert.Kernel.Hand

end
-- ==== Proof.FrameBits.Shared0.lean ====
/-
  Region 0 (the first layer's kernel launch, grid 25 × 250): what its three control cases share.

  The kernel body branches twice on the second grid coordinate `k`: at `k = 0` it first clears the scratch
  accumulator, and at `k = 249` it finishes the node block (mean, the two products, bias, activation) and stores the
  output block. So a point is in one of three cases: first edge block (`k = 0`), a middle one, the last (`k = 249`).
  Here: the two conditions in closed form over the linear point number, where the output window is idle, the staging
  and scratch memrefs as the pipeline passes them, each input window's block read off the array the region finds, and
  the fact that an input's staging buffer holds that block at every point.
-/
import proofs.«402184_j37915971289911_2_alg».proof.Proof.FrameBits.Scoped0
import proofs.«402184_j37915971289911_2_alg».proof.Proof.Gen.Kernel.Skeleton
import proofs.«402184_j37915971289911_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (clear the accumulator): the second grid coordinate is `0`. -/
abbrev condR0_0 (i : grid0.Coords) : Prop := (Scalar.cmpi .ne (Scalar.extui (Scalar.cmpi .eq (BitVec.ofNat 32 (i 1).val) 0#32)) 0#32) = 1#1
/-- It holds at the points that are multiples of 250. -/
theorem hcondR0_0 : ∀ t : Fin cfg0.N, condR0_0 (grid0.coords t) ↔ t.val % 250 = 0 :=
  (by decide +kernel : ∀ t : Fin grid0.N, condR0_0 (grid0.coords t) ↔ t.val % 250 = 0)

/-- The second branch (finish the node block): the second grid coordinate is `249`. -/
abbrev condR0_1 (i : grid0.Coords) : Prop := k0_cond2 i = 1#1
/-- It holds at the points that are 249 modulo 250. -/
theorem hcondR0_1 : ∀ t : Fin cfg0.N, condR0_1 (grid0.coords t) ↔ t.val % 250 = 249 :=
  (by decide +kernel : ∀ t : Fin grid0.N, condR0_1 (grid0.coords t) ↔ t.val % 250 = 249)

/-! ## Where the output window is idle -/

/-- Off the last edge block the output window is idle: the body stores nothing into it. -/
theorem idleAtR0_7 : ∀ t : Fin cfg0.N, ¬condR0_1 (grid0.coords t) → cfg0.idle 7 (grid0.coords t) = true := by decide +kernel
/-- And the pipeline does not write it back there. -/
theorem noFlushR0_7 : ∀ t : Fin cfg0.N, ¬condR0_1 (grid0.coords t) → (cfg0.win 7).flush t = false := by decide +kernel
/-- At the last edge block it is live. -/
theorem liveAtR0_7 : ∀ t : Fin cfg0.N, condR0_1 (grid0.coords t) → cfg0.idle 7 (grid0.coords t) = false := by decide +kernel

/-! ## The memrefs the body is called with -/

/-- One staging buffer of the output window, through which its contents are stated. -/
abbrev VOR0_7 : View sig .tc .vmem S2000x64 .f32 := (Memref.whole cc0_stg7_0 : Memref sig .tc .vmem S2000x64 .f32).view
abbrev msR0_0 (t : Fin cfg0.N) : Memref sig .tc .vmem S1x3200 .i32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S3200x64 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S2000x1 .f32 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S2000x64 .f32 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S64x64 .f32 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1x64 .f32 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S64x64 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S2000x64 .f32 := win0_7.stage (cfg0.slots t 7)
abbrev hsR0_7 (t : Fin cfg0.N) : (msR0_7 t).IsWhole := hstage0_7 ((cfg0.slots t 7).cast nbuf0_7)
/-! ## The windows' blocks -/

section Blocks
variable (V : (c : Dev nD) → (b : Ref sig .tc) → Buf (Elt F) ((c : Thread nD τ).loc b))

/-- Window `w`'s block at point `t`, read off its array as the region finds it (`V`). -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or not. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or not. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or not. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- Input window 4's current staging buffer holds its block at every point, fetched there or not. -/
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)

/-- Input window 5's current staging buffer holds its block at every point, fetched there or not. -/
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)

/-- Input window 6's current staging buffer holds its block at every point, fetched there or not. -/
theorem beforeR0_6_of {c : Dev nD} (dat : Dat τ (Elt F) Unit ℕ (UR sig nD τ) ℕ cfg0 c) (hA : dat.A 6 = V c (Pipeline.arrRef spec0 6))
    (hafter : ∀ t, dat.after 6 t = iblkR0 V c 6 t) (t : Fin cfg0.N) (d) : dat.before 6 t d = iblkR0 V c 6 t :=
  (dat.before_in_eq_fetched 6 rfl (fun _ => rfl) (fun _ _ _ => rfl) (fun t => by rw [hafter]; unfold Dat.blockOf iblkR0; rw [hA]; try rfl) t d).trans
    (by unfold Dat.fetched Dat.blockOf iblkR0; rw [hA]; try rfl)

end Blocks

end Cert.Kernel.Hand

end
-- ==== Proof.FrameBits.Run0A.lean ====
/-
  Region 0, the kernel body run at a point of the first edge block of a node block (the accumulator is cleared, then the block's contribution added): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Shared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_A (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : condR0_0 i) (hc1 : ¬condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.FrameBits.Run0B.lean ====
/-
  Region 0, the kernel body run at a point of a middle edge block (the block's contribution is added to the accumulator): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_B (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR0_0 i) (hc1 : ¬condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.FrameBits.Run0C.lean ====
/-
  Region 0, the kernel body run at a point of the last edge block (the contribution is added, then the node block is finished and stored): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_C (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR0_0 i) (hc1 : condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨?_, ?_, fun E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Hand

end
-- ==== Proof.FrameBits.Body0.lean ====
/-
  Region 0: from the three case runs to the launch's proof data and its body obligation.

  After the body at point number `n` the scratch accumulator holds what that point's case leaves in it, computed from
  the point's input blocks and — off the first edge block of a node block — from what the point before left
  (`outsAtR0`, by recursion on `n`); the output window's staging buffer is named only at the last edge block of a node
  block, where the body stores it. The launch's invariant carries the accumulator at exactly these contents from one
  point to the next (`PhiSR0`). The proof data `datR0` says so, and `body_obligationR0` is the body's run at every
  point: a case split on the two closed-form conditions, each leaf that case's run.
-/
import proofs.«402184_j37915971289911_2_alg».proof.Proof.FrameBits.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## The case runs at a point's own memrefs -/

/-- The first-edge-block run at point `t`. -/
abbrev runAtR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :=
  kernelRunR0_A (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6
/-- The middle-edge-block run at point `t`, the accumulator found at `xs`. -/
abbrev runAtR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR0_B (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6 xs
/-- The last-edge-block run at point `t`, the accumulator found at `xs`. -/
abbrev runAtR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR0_C (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6 xs

/-! ## What each case leaves: the pieces cover the buffer, so they read back as one array -/

theorem scoverR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (y : S2000x64.Idx) :
    ∃ pc ∈ (runAtR0_A c t hc0 hc1 x0 x1 x2 x3 x4 x5 x6).2.1, y ∈ pc.1.set :=
  View.cover_of_tiledL (runAtR0_A c t hc0 hc1 x0 x1 x2 x3 x4 x5 x6).2.1 S2000x64.size (by sl_kernel_rfl) y
/-- The accumulator after a first edge block. -/
def soutR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) : Vec F S2000x64 .f32 :=
  VSR0.read (Elt F) (VSR0.writes (Elt F) VSR0.junk (runAtR0_A c t hc0 hc1 x0 x1 x2 x3 x4 x5 x6).2.1)

theorem scoverR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_B c t hc0 hc1 x0 x1 x2 x3 x4 x5 x6 xs).2.1, y ∈ pc.1.set :=
  View.cover_of_tiledL (runAtR0_B c t hc0 hc1 x0 x1 x2 x3 x4 x5 x6 xs).2.1 S2000x64.size (by sl_kernel_rfl) y
/-- The accumulator after a middle edge block. -/
def soutR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR0.read (Elt F) (VSR0.writes (Elt F) VSR0.junk (runAtR0_B c t hc0 hc1 x0 x1 x2 x3 x4 x5 x6 xs).2.1)

theorem scoverR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_C c t hc0 hc1 x0 x1 x2 x3 x4 x5 x6 xs).2.1, y ∈ pc.1.set :=
  View.cover_of_tiledL (runAtR0_C c t hc0 hc1 x0 x1 x2 x3 x4 x5 x6 xs).2.1 S2000x64.size (by sl_kernel_rfl) y
/-- The accumulator after a last edge block. -/
def soutR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR0.read (Elt F) (VSR0.writes (Elt F) VSR0.junk (runAtR0_C c t hc0 hc1 x0 x1 x2 x3 x4 x5 x6 xs).2.1)
theorem coverR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_C c t hc0 hc1 x0 x1 x2 x3 x4 x5 x6 xs).1, y ∈ pc.1.set :=
  View.cover_of_tiledL (runAtR0_C c t hc0 hc1 x0 x1 x2 x3 x4 x5 x6 xs).1 S2000x64.size (by sl_kernel_rfl) y
/-- The output block a last edge block stores. -/
def outR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VOR0_7.read (Elt F) (VOR0_7.writes (Elt F) VOR0_7.junk (runAtR0_C c t hc0 hc1 x0 x1 x2 x3 x4 x5 x6 xs).1)
/-- Where the body stores no output block the window's contents are not named: a placeholder nothing consults. -/
def outIdleR0 : Vec F S2000x64 .f32 := VOR0_7.read (Elt F) VOR0_7.junk

/-! ## Point by point -/

theorem not249_of_0 {n : ℕ} (h : n % 250 = 0) : ¬n % 250 = 249 := by omega

/-- What the output window's buffer and the scratch accumulator hold after the body at point number `n`. -/
def outsAtR0 (c : Dev nD) : (n : ℕ) → n < cfg0.N → Vec F S2000x64 .f32 × Vec F S2000x64 .f32
  | 0, hn => (outIdleR0, soutR0_A c ⟨0, hn⟩ ((hcondR0_0 ⟨0, hn⟩).mpr (Nat.zero_mod _)) (fun h => not249_of_0 (Nat.zero_mod 250) ((hcondR0_1 ⟨0, hn⟩).mp h)) (iblkR0 V c 0 ⟨0, hn⟩) (iblkR0 V c 1 ⟨0, hn⟩) (iblkR0 V c 2 ⟨0, hn⟩) (iblkR0 V c 3 ⟨0, hn⟩) (iblkR0 V c 4 ⟨0, hn⟩) (iblkR0 V c 5 ⟨0, hn⟩) (iblkR0 V c 6 ⟨0, hn⟩))
  | n + 1, hn =>
    if h0 : (n + 1) % 250 = 0 then
      (outIdleR0, soutR0_A c ⟨n + 1, hn⟩ ((hcondR0_0 ⟨n + 1, hn⟩).mpr h0) (fun h => not249_of_0 h0 ((hcondR0_1 ⟨n + 1, hn⟩).mp h)) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩))
    else
      if h1 : (n + 1) % 250 = 249 then
        (outR0_C c ⟨n + 1, hn⟩ (fun h => h0 ((hcondR0_0 ⟨n + 1, hn⟩).mp h)) ((hcondR0_1 ⟨n + 1, hn⟩).mpr h1) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2,
         soutR0_C c ⟨n + 1, hn⟩ (fun h => h0 ((hcondR0_0 ⟨n + 1, hn⟩).mp h)) ((hcondR0_1 ⟨n + 1, hn⟩).mpr h1) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2)
      else
        (outIdleR0, soutR0_B c ⟨n + 1, hn⟩ (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2)

/-- At a first edge block. -/
theorem outsAtR0_A (c : Dev nD) (t : Fin cfg0.N) (h0 : t.val % 250 = 0) :
    outsAtR0 V c t.val t.isLt = (outIdleR0, soutR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)) := by
  obtain ⟨n, hn⟩ := t
  cases n with
  | zero => exact rfl
  | succ n => exact (dif_pos h0).trans rfl

/-- At a middle edge block, over what the point before left. -/
theorem outsAtR0_B (c : Dev nD) (t : Fin cfg0.N) (h0 : ¬t.val % 250 = 0) (h1 : ¬t.val % 250 = 249) :
    outsAtR0 V c t.val t.isLt = (outIdleR0, soutR0_B c t (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last edge block, over what the point before left. -/
theorem outsAtR0_C (c : Dev nD) (t : Fin cfg0.N) (h0 : ¬t.val % 250 = 0) (h1 : t.val % 250 = 249) :
    outsAtR0 V c t.val t.isLt = (outR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2,
      soutR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before point number `n`: at the launch's start the class's invariant; afterwards the scratch accumulator at what
    the point before left, the other launch's scoped buffers, the generator register at some state. -/
def PhiSR0 (c : Dev nD) : (n : ℕ) → n ≤ cfg0.N → sProp 𝕄
  | 0, _ => Pipeline.ΦA spec0 c
  | n + 1, hn => iprop(iprop(owns (c : Thread nD τ) scMR0 fullShare ((outsAtR0 V c n hn).2) ∗ restR0 c) ∗ (∃ r, prngReg c r))

theorem PhiSR0_zero (c : Dev nD) (n : ℕ) (h : n ≤ cfg0.N) (hz : n = 0) : PhiSR0 V c n h = Pipeline.ΦA spec0 c := by
  subst hz; rfl

theorem PhiSR0_succ (c : Dev nD) (n : ℕ) (hn : n < cfg0.N) :
    PhiSR0 V c (n + 1) hn = iprop(iprop(owns (c : Thread nD τ) scMR0 fullShare ((outsAtR0 V c n hn).2) ∗ restR0 c) ∗ (∃ r, prngReg c r)) := rfl

theorem PhiSR0_pos (c : Dev nD) (n : ℕ) (h : n ≤ cfg0.N) (hz : n ≠ 0) :
    PhiSR0 V c n h = iprop(iprop(owns (c : Thread nD τ) scMR0 fullShare ((outsAtR0 V c (n - 1) (by omega)).2) ∗ restR0 c) ∗ (∃ r, prngReg c r)) := by
  cases n with
  | zero => exact absurd rfl hz
  | succ n => rfl

/-! ## The proof data -/

/-- The launch's proof data on core `c`: the arrays as the region finds them; after the body each input's buffer at
    its block, the output's at `outsAtR0`'s first component; the invariant `PhiSR0`; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => iblkR0 V c 6 t
    | ⟨7, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = iblkR0 V c 6 t := by dsimp only [datR0]
theorem afterR0_7 (c : Dev nD) (t : Fin cfg0.N) : (datR0 V c).after 7 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d
theorem beforeR0_6 (c : Dev nD) (t : Fin cfg0.N) (d) : (datR0 V c).before 6 t d = iblkR0 V c 6 t :=
  beforeR0_6_of V (datR0 V c) (A_eqR0 V c 6) (afterR0_6 V c) t d

/-! ## The body obligation -/

/-- What the body is called with at point `t`. -/
def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

/-- What it returns. -/
def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t
    ∗ (datR0 V c).leavesExact 5 t
    ∗ (datR0 V c).leavesExact 6 t
    ∗ (datR0 V c).leavesExact 7 t)

theorem leavesR0_0 (c : Dev nD) (t : Fin cfg0.N) : (datR0 V c).leavesExact 0 t = owns (c : Thread nD τ) (msR0_0 t) fullShare (iblkR0 V c 0 t) := by
  unfold Dat.leavesExact; rw [show cfg0.idle 0 (cfg0.grid.coords t) = false from rfl, afterR0_0]; try rfl
theorem leavesR0_1 (c : Dev nD) (t : Fin cfg0.N) : (datR0 V c).leavesExact 1 t = owns (c : Thread nD τ) (msR0_1 t) fullShare (iblkR0 V c 1 t) := by
  unfold Dat.leavesExact; rw [show cfg0.idle 1 (cfg0.grid.coords t) = false from rfl, afterR0_1]; try rfl
theorem leavesR0_2 (c : Dev nD) (t : Fin cfg0.N) : (datR0 V c).leavesExact 2 t = owns (c : Thread nD τ) (msR0_2 t) fullShare (iblkR0 V c 2 t) := by
  unfold Dat.leavesExact; rw [show cfg0.idle 2 (cfg0.grid.coords t) = false from rfl, afterR0_2]; try rfl
theorem leavesR0_3 (c : Dev nD) (t : Fin cfg0.N) : (datR0 V c).leavesExact 3 t = owns (c : Thread nD τ) (msR0_3 t) fullShare (iblkR0 V c 3 t) := by
  unfold Dat.leavesExact; rw [show cfg0.idle 3 (cfg0.grid.coords t) = false from rfl, afterR0_3]; try rfl
theorem leavesR0_4 (c : Dev nD) (t : Fin cfg0.N) : (datR0 V c).leavesExact 4 t = owns (c : Thread nD τ) (msR0_4 t) fullShare (iblkR0 V c 4 t) := by
  unfold Dat.leavesExact; rw [show cfg0.idle 4 (cfg0.grid.coords t) = false from rfl, afterR0_4]; try rfl
theorem leavesR0_5 (c : Dev nD) (t : Fin cfg0.N) : (datR0 V c).leavesExact 5 t = owns (c : Thread nD τ) (msR0_5 t) fullShare (iblkR0 V c 5 t) := by
  unfold Dat.leavesExact; rw [show cfg0.idle 5 (cfg0.grid.coords t) = false from rfl, afterR0_5]; try rfl
theorem leavesR0_6 (c : Dev nD) (t : Fin cfg0.N) : (datR0 V c).leavesExact 6 t = owns (c : Thread nD τ) (msR0_6 t) fullShare (iblkR0 V c 6 t) := by
  unfold Dat.leavesExact; rw [show cfg0.idle 6 (cfg0.grid.coords t) = false from rfl, afterR0_6]; try rfl

/-! ## The body at any point -/

set_option maxHeartbeats 8000000 in
/-- The inputs' memrefs hold their blocks; the closed forms say which case the point is in; the invariant hands the body
    the accumulator at what the point before left (at anything before the first point) and takes it back at this
    point's contents; off the last edge block the output window's buffer passes through untouched. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3, beforeR0_4, beforeR0_5, beforeR0_6]
  rw [show (datR0 V c).owesAt () t.succ = (datR0 V c).owesAt () t.castSucc from rfl]
  rw [show (datR0 V c).Φ t.succ = PhiSR0 V c (t.val + 1) t.isLt from rfl, PhiSR0_succ]
  rw [leavesR0_0, leavesR0_1, leavesR0_2, leavesR0_3, leavesR0_4, leavesR0_5, leavesR0_6]
  have hN : t.val < 6250 := lt_of_lt_of_eq t.isLt (show cfg0.N = 6250 from N_0)
  by_cases h0 : t.val % 250 = 0
  · have h1 : ¬t.val % 250 = 249 := not249_of_0 h0
    rw [Dat.leavesExact_idle (datR0 V c) 7 t (idleAtR0_7 t (fun h => h1 ((hcondR0_1 t).mp h))) (noFlushR0_7 t (fun h => h1 ((hcondR0_1 t).mp h)))]
    rw [outsAtR0_A V c t h0]
    unfold soutR0_A; (try dsimp only)
    by_cases hz : t.val = 0
    · rw [PhiSR0_castSucc V c t, PhiSR0_zero V c _ _ hz, PhiAR0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 250 = 249
    · rw [show (datR0 V c).leavesExact 7 t = owns (c : Thread nD τ) (msR0_7 t) fullShare ((datR0 V c).after 7 t) from by
        unfold Dat.leavesExact; rw [liveAtR0_7 t ((hcondR0_1 t).mpr h1)], afterR0_7]
      rw [outsAtR0_C V c t h0 h1]
      unfold outR0_C soutR0_C; (try dsimp only)
      rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_C c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverR0_C c t _ _ _ _ _ _ _ _ _ _)
    · rw [Dat.leavesExact_idle (datR0 V c) 7 t (idleAtR0_7 t (fun h => h1 ((hcondR0_1 t).mp h))) (noFlushR0_7 t (fun h => h1 ((hcondR0_1 t).mp h)))]
      rw [outsAtR0_B V c t h0 h1]
      unfold soutR0_B; (try dsimp only)
      rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_B c t (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) (iblkR0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_B c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := by
  rw [show (datR0 V c).Φ 0 = PhiSR0 V c 0 (Nat.zero_le _) from rfl, PhiSR0_zero V c 0 _ rfl]
  try exact Idealize.SL.BI.Entails.refl _

/-- After the last point the invariant gives the class's back: the accumulator's contents are forgotten. -/
theorem houtR0 (c : Dev nD) : (datR0 V c).Φ (Fin.last cfg0.N) ⊢ Pipeline.ΦA spec0 c := by
  have ht : (Fin.last cfg0.N).val ≠ 0 := by rw [Fin.val_last]; have : cfg0.N = 6250 := N_0; omega
  rw [show (datR0 V c).Φ (Fin.last cfg0.N) = PhiSR0 V c (Fin.last cfg0.N).val (Nat.le_of_lt_succ (Fin.last cfg0.N).isLt) from rfl,
    PhiSR0_pos V c _ _ ht, PhiAR0_eq]
  iintro ⟨⟨HS, Hrest⟩, Hg⟩
  isplitl [HS Hrest]
  · isplitl [HS]
    · iexists _; iexact HS
    iexact Hrest
  iexact Hg

end Body

end Cert.Kernel.Hand

end
-- ==== Proof.FrameBits.Scoped1.lean ====
/-
  Region 1: the scoped buffers that are no staging buffer of this launch, with the launch's own scratch accumulator
  split off. The class's invariant of the launch (the scoped rest and the generator register) is the accumulator owned
  at some contents, beside the other launch's scoped buffers (which this launch's body never opens), beside the
  generator register.
  Here the accumulator is the last buffer of the launch's list, so it is brought to the front by commuting `∗`.
-/
import proofs.«402184_j37915971289911_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The scratch accumulator: a whole scoped buffer of the kernel's own. -/
abbrev scMR1 : Memref sig .tc .vmem S2000x64 .f32 := Memref.whole cc1_scratch0
/-- The same as a view: what it holds is stated through it. -/
abbrev VSR1 : View sig .tc .vmem S2000x64 .f32 := scMR1.view

/-- The other launch's scoped buffers, each whole at some contents. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The launch's invariant before the first point: the scratch accumulator at some contents, the other launch's scoped
    buffers, the generator register at some state. -/
theorem PhiAR1_eq (c : Dev nD) :
    (Pipeline.ΦA spec1 c : sProp 𝕄)
      = iprop(iprop((∃ d, owns (c : Thread nD τ) scMR1 fullShare d) ∗ restR1 c) ∗ (∃ r, prngReg c r)) := by
  unfold Pipeline.ΦA restR1; rw [scopedRest1_eq]; simp only [scMR1, owns_whole]
  refine BI.Entails.antisymm ?_ ?_
  · show (_ : sProp 𝕄) ⊢ _
    iintro ⟨⟨H0, H1, H2, H3, H4, H5, H6, H7, H8, H9, H10, H11, H12, H13, HS⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iexact Hg
  · show (_ : sProp 𝕄) ⊢ _
    iintro ⟨⟨HS, ⟨H0, H1, H2, H3, H4, H5, H6, H7, H8, H9, H10, H11, H12, H13⟩⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    · iexact Hg

end Cert.Kernel.Hand

end
-- ==== Proof.FrameBits.Shared1.lean ====
/-
  Region 1 (the first layer's kernel launch, grid 25 × 250): what its three control cases share.

  The kernel body branches twice on the second grid coordinate `k`: at `k = 0` it first clears the scratch
  accumulator, and at `k = 249` it finishes the node block (mean, the two products, bias, activation) and stores the
  output block. So a point is in one of three cases: first edge block (`k = 0`), a middle one, the last (`k = 249`).
  Here: the two conditions in closed form over the linear point number, where the output window is idle, the staging
  and scratch memrefs as the pipeline passes them, each input window's block read off the array the region finds, and
  the fact that an input's staging buffer holds that block at every point.
-/
import proofs.«402184_j37915971289911_2_alg».proof.Proof.FrameBits.Scoped1
import proofs.«402184_j37915971289911_2_alg».proof.Proof.Gen.Kernel.Skeleton
import proofs.«402184_j37915971289911_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (clear the accumulator): the second grid coordinate is `0`. -/
abbrev condR1_0 (i : grid1.Coords) : Prop := (Scalar.cmpi .ne (Scalar.extui (Scalar.cmpi .eq (BitVec.ofNat 32 (i 1).val) 0#32)) 0#32) = 1#1
/-- It holds at the points that are multiples of 250. -/
theorem hcondR1_0 : ∀ t : Fin cfg1.N, condR1_0 (grid1.coords t) ↔ t.val % 250 = 0 :=
  (by decide +kernel : ∀ t : Fin grid1.N, condR1_0 (grid1.coords t) ↔ t.val % 250 = 0)

/-- The second branch (finish the node block): the second grid coordinate is `249`. -/
abbrev condR1_1 (i : grid1.Coords) : Prop := k1_cond2 i = 1#1
/-- It holds at the points that are 249 modulo 250. -/
theorem hcondR1_1 : ∀ t : Fin cfg1.N, condR1_1 (grid1.coords t) ↔ t.val % 250 = 249 :=
  (by decide +kernel : ∀ t : Fin grid1.N, condR1_1 (grid1.coords t) ↔ t.val % 250 = 249)

/-! ## Where the output window is idle -/

/-- Off the last edge block the output window is idle: the body stores nothing into it. -/
theorem idleAtR1_7 : ∀ t : Fin cfg1.N, ¬condR1_1 (grid1.coords t) → cfg1.idle 7 (grid1.coords t) = true := by decide +kernel
/-- And the pipeline does not write it back there. -/
theorem noFlushR1_7 : ∀ t : Fin cfg1.N, ¬condR1_1 (grid1.coords t) → (cfg1.win 7).flush t = false := by decide +kernel
/-- At the last edge block it is live. -/
theorem liveAtR1_7 : ∀ t : Fin cfg1.N, condR1_1 (grid1.coords t) → cfg1.idle 7 (grid1.coords t) = false := by decide +kernel

/-! ## The memrefs the body is called with -/

/-- One staging buffer of the output window, through which its contents are stated. -/
abbrev VOR1_7 : View sig .tc .vmem S2000x64 .f32 := (Memref.whole cc1_stg7_0 : Memref sig .tc .vmem S2000x64 .f32).view
abbrev msR1_0 (t : Fin cfg1.N) : Memref sig .tc .vmem S1x3200 .i32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S3200x64 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S2000x1 .f32 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S2000x64 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S64x64 .f32 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1x64 .f32 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S64x64 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S2000x64 .f32 := win1_7.stage (cfg1.slots t 7)
abbrev hsR1_7 (t : Fin cfg1.N) : (msR1_7 t).IsWhole := hstage1_7 ((cfg1.slots t 7).cast nbuf1_7)
/-! ## The windows' blocks -/

section Blocks
variable (V : (c : Dev nD) → (b : Ref sig .tc) → Buf (Elt F) ((c : Thread nD τ).loc b))

/-- Window `w`'s block at point `t`, read off its array as the region finds it (`V`). -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or not. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or not. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or not. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- Input window 4's current staging buffer holds its block at every point, fetched there or not. -/
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)

/-- Input window 5's current staging buffer holds its block at every point, fetched there or not. -/
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)

/-- Input window 6's current staging buffer holds its block at every point, fetched there or not. -/
theorem beforeR1_6_of {c : Dev nD} (dat : Dat τ (Elt F) Unit ℕ (UR sig nD τ) ℕ cfg1 c) (hA : dat.A 6 = V c (Pipeline.arrRef spec1 6))
    (hafter : ∀ t, dat.after 6 t = iblkR1 V c 6 t) (t : Fin cfg1.N) (d) : dat.before 6 t d = iblkR1 V c 6 t :=
  (dat.before_in_eq_fetched 6 rfl (fun _ => rfl) (fun _ _ _ => rfl) (fun t => by rw [hafter]; unfold Dat.blockOf iblkR1; rw [hA]; try rfl) t d).trans
    (by unfold Dat.fetched Dat.blockOf iblkR1; rw [hA]; try rfl)

end Blocks

end Cert.Kernel.Hand

end
-- ==== Proof.FrameBits.Run1A.lean ====
/-
  Region 1, the kernel body run at a point of the first edge block of a node block (the accumulator is cleared, then the block's contribution added): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_A (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : condR1_0 i) (hc1 : ¬condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.FrameBits.Run1B.lean ====
/-
  Region 1, the kernel body run at a point of a middle edge block (the block's contribution is added to the accumulator): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_B (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR1_0 i) (hc1 : ¬condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Hand

end
-- ==== Proof.FrameBits.Run1C.lean ====
/-
  Region 1, the kernel body run at a point of the last edge block (the contribution is added, then the node block is finished and stored): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameBits.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_C (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR1_0 i) (hc1 : condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨?_, ?_, fun E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Hand

end
-- ==== Proof.FrameBits.Body1.lean ====
/-
  Region 1: from the three case runs to the launch's proof data and its body obligation.

  After the body at point number `n` the scratch accumulator holds what that point's case leaves in it, computed from
  the point's input blocks and — off the first edge block of a node block — from what the point before left
  (`outsAtR1`, by recursion on `n`); the output window's staging buffer is named only at the last edge block of a node
  block, where the body stores it. The launch's invariant carries the accumulator at exactly these contents from one
  point to the next (`PhiSR1`). The proof data `datR1` says so, and `body_obligationR1` is the body's run at every
  point: a case split on the two closed-form conditions, each leaf that case's run.
-/
import proofs.«402184_j37915971289911_2_alg».proof.Proof.FrameBits.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## The case runs at a point's own memrefs -/

/-- The first-edge-block run at point `t`. -/
abbrev runAtR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :=
  kernelRunR1_A (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6
/-- The middle-edge-block run at point `t`, the accumulator found at `xs`. -/
abbrev runAtR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR1_B (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6 xs
/-- The last-edge-block run at point `t`, the accumulator found at `xs`. -/
abbrev runAtR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR1_C (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6 xs

/-! ## What each case leaves: the pieces cover the buffer, so they read back as one array -/

theorem scoverR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (y : S2000x64.Idx) :
    ∃ pc ∈ (runAtR1_A c t hc0 hc1 x0 x1 x2 x3 x4 x5 x6).2.1, y ∈ pc.1.set :=
  View.cover_of_tiledL (runAtR1_A c t hc0 hc1 x0 x1 x2 x3 x4 x5 x6).2.1 S2000x64.size (by sl_kernel_rfl) y
/-- The accumulator after a first edge block. -/
def soutR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) : Vec F S2000x64 .f32 :=
  VSR1.read (Elt F) (VSR1.writes (Elt F) VSR1.junk (runAtR1_A c t hc0 hc1 x0 x1 x2 x3 x4 x5 x6).2.1)

theorem scoverR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_B c t hc0 hc1 x0 x1 x2 x3 x4 x5 x6 xs).2.1, y ∈ pc.1.set :=
  View.cover_of_tiledL (runAtR1_B c t hc0 hc1 x0 x1 x2 x3 x4 x5 x6 xs).2.1 S2000x64.size (by sl_kernel_rfl) y
/-- The accumulator after a middle edge block. -/
def soutR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR1.read (Elt F) (VSR1.writes (Elt F) VSR1.junk (runAtR1_B c t hc0 hc1 x0 x1 x2 x3 x4 x5 x6 xs).2.1)

theorem scoverR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_C c t hc0 hc1 x0 x1 x2 x3 x4 x5 x6 xs).2.1, y ∈ pc.1.set :=
  View.cover_of_tiledL (runAtR1_C c t hc0 hc1 x0 x1 x2 x3 x4 x5 x6 xs).2.1 S2000x64.size (by sl_kernel_rfl) y
/-- The accumulator after a last edge block. -/
def soutR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR1.read (Elt F) (VSR1.writes (Elt F) VSR1.junk (runAtR1_C c t hc0 hc1 x0 x1 x2 x3 x4 x5 x6 xs).2.1)
theorem coverR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_C c t hc0 hc1 x0 x1 x2 x3 x4 x5 x6 xs).1, y ∈ pc.1.set :=
  View.cover_of_tiledL (runAtR1_C c t hc0 hc1 x0 x1 x2 x3 x4 x5 x6 xs).1 S2000x64.size (by sl_kernel_rfl) y
/-- The output block a last edge block stores. -/
def outR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VOR1_7.read (Elt F) (VOR1_7.writes (Elt F) VOR1_7.junk (runAtR1_C c t hc0 hc1 x0 x1 x2 x3 x4 x5 x6 xs).1)
/-- Where the body stores no output block the window's contents are not named: a placeholder nothing consults. -/
def outIdleR1 : Vec F S2000x64 .f32 := VOR1_7.read (Elt F) VOR1_7.junk

/-! ## Point by point -/

theorem not249_of_0 {n : ℕ} (h : n % 250 = 0) : ¬n % 250 = 249 := by omega

/-- What the output window's buffer and the scratch accumulator hold after the body at point number `n`. -/
def outsAtR1 (c : Dev nD) : (n : ℕ) → n < cfg1.N → Vec F S2000x64 .f32 × Vec F S2000x64 .f32
  | 0, hn => (outIdleR1, soutR1_A c ⟨0, hn⟩ ((hcondR1_0 ⟨0, hn⟩).mpr (Nat.zero_mod _)) (fun h => not249_of_0 (Nat.zero_mod 250) ((hcondR1_1 ⟨0, hn⟩).mp h)) (iblkR1 V c 0 ⟨0, hn⟩) (iblkR1 V c 1 ⟨0, hn⟩) (iblkR1 V c 2 ⟨0, hn⟩) (iblkR1 V c 3 ⟨0, hn⟩) (iblkR1 V c 4 ⟨0, hn⟩) (iblkR1 V c 5 ⟨0, hn⟩) (iblkR1 V c 6 ⟨0, hn⟩))
  | n + 1, hn =>
    if h0 : (n + 1) % 250 = 0 then
      (outIdleR1, soutR1_A c ⟨n + 1, hn⟩ ((hcondR1_0 ⟨n + 1, hn⟩).mpr h0) (fun h => not249_of_0 h0 ((hcondR1_1 ⟨n + 1, hn⟩).mp h)) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩))
    else
      if h1 : (n + 1) % 250 = 249 then
        (outR1_C c ⟨n + 1, hn⟩ (fun h => h0 ((hcondR1_0 ⟨n + 1, hn⟩).mp h)) ((hcondR1_1 ⟨n + 1, hn⟩).mpr h1) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2,
         soutR1_C c ⟨n + 1, hn⟩ (fun h => h0 ((hcondR1_0 ⟨n + 1, hn⟩).mp h)) ((hcondR1_1 ⟨n + 1, hn⟩).mpr h1) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2)
      else
        (outIdleR1, soutR1_B c ⟨n + 1, hn⟩ (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2)

/-- At a first edge block. -/
theorem outsAtR1_A (c : Dev nD) (t : Fin cfg1.N) (h0 : t.val % 250 = 0) :
    outsAtR1 V c t.val t.isLt = (outIdleR1, soutR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)) := by
  obtain ⟨n, hn⟩ := t
  cases n with
  | zero => exact rfl
  | succ n => exact (dif_pos h0).trans rfl

/-- At a middle edge block, over what the point before left. -/
theorem outsAtR1_B (c : Dev nD) (t : Fin cfg1.N) (h0 : ¬t.val % 250 = 0) (h1 : ¬t.val % 250 = 249) :
    outsAtR1 V c t.val t.isLt = (outIdleR1, soutR1_B c t (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last edge block, over what the point before left. -/
theorem outsAtR1_C (c : Dev nD) (t : Fin cfg1.N) (h0 : ¬t.val % 250 = 0) (h1 : t.val % 250 = 249) :
    outsAtR1 V c t.val t.isLt = (outR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2,
      soutR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before point number `n`: at the launch's start the class's invariant; afterwards the scratch accumulator at what
    the point before left, the other launch's scoped buffers, the generator register at some state. -/
def PhiSR1 (c : Dev nD) : (n : ℕ) → n ≤ cfg1.N → sProp 𝕄
  | 0, _ => Pipeline.ΦA spec1 c
  | n + 1, hn => iprop(iprop(owns (c : Thread nD τ) scMR1 fullShare ((outsAtR1 V c n hn).2) ∗ restR1 c) ∗ (∃ r, prngReg c r))

theorem PhiSR1_zero (c : Dev nD) (n : ℕ) (h : n ≤ cfg1.N) (hz : n = 0) : PhiSR1 V c n h = Pipeline.ΦA spec1 c := by
  subst hz; rfl

theorem PhiSR1_succ (c : Dev nD) (n : ℕ) (hn : n < cfg1.N) :
    PhiSR1 V c (n + 1) hn = iprop(iprop(owns (c : Thread nD τ) scMR1 fullShare ((outsAtR1 V c n hn).2) ∗ restR1 c) ∗ (∃ r, prngReg c r)) := rfl

theorem PhiSR1_pos (c : Dev nD) (n : ℕ) (h : n ≤ cfg1.N) (hz : n ≠ 0) :
    PhiSR1 V c n h = iprop(iprop(owns (c : Thread nD τ) scMR1 fullShare ((outsAtR1 V c (n - 1) (by omega)).2) ∗ restR1 c) ∗ (∃ r, prngReg c r)) := by
  cases n with
  | zero => exact absurd rfl hz
  | succ n => rfl

/-! ## The proof data -/

/-- The launch's proof data on core `c`: the arrays as the region finds them; after the body each input's buffer at
    its block, the output's at `outsAtR1`'s first component; the invariant `PhiSR1`; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => iblkR1 V c 6 t
    | ⟨7, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = iblkR1 V c 6 t := by dsimp only [datR1]
theorem afterR1_7 (c : Dev nD) (t : Fin cfg1.N) : (datR1 V c).after 7 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d
theorem beforeR1_6 (c : Dev nD) (t : Fin cfg1.N) (d) : (datR1 V c).before 6 t d = iblkR1 V c 6 t :=
  beforeR1_6_of V (datR1 V c) (A_eqR1 V c 6) (afterR1_6 V c) t d

/-! ## The body obligation -/

/-- What the body is called with at point `t`. -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

/-- What it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t
    ∗ (datR1 V c).leavesExact 5 t
    ∗ (datR1 V c).leavesExact 6 t
    ∗ (datR1 V c).leavesExact 7 t)

theorem leavesR1_0 (c : Dev nD) (t : Fin cfg1.N) : (datR1 V c).leavesExact 0 t = owns (c : Thread nD τ) (msR1_0 t) fullShare (iblkR1 V c 0 t) := by
  unfold Dat.leavesExact; rw [show cfg1.idle 0 (cfg1.grid.coords t) = false from rfl, afterR1_0]; try rfl
theorem leavesR1_1 (c : Dev nD) (t : Fin cfg1.N) : (datR1 V c).leavesExact 1 t = owns (c : Thread nD τ) (msR1_1 t) fullShare (iblkR1 V c 1 t) := by
  unfold Dat.leavesExact; rw [show cfg1.idle 1 (cfg1.grid.coords t) = false from rfl, afterR1_1]; try rfl
theorem leavesR1_2 (c : Dev nD) (t : Fin cfg1.N) : (datR1 V c).leavesExact 2 t = owns (c : Thread nD τ) (msR1_2 t) fullShare (iblkR1 V c 2 t) := by
  unfold Dat.leavesExact; rw [show cfg1.idle 2 (cfg1.grid.coords t) = false from rfl, afterR1_2]; try rfl
theorem leavesR1_3 (c : Dev nD) (t : Fin cfg1.N) : (datR1 V c).leavesExact 3 t = owns (c : Thread nD τ) (msR1_3 t) fullShare (iblkR1 V c 3 t) := by
  unfold Dat.leavesExact; rw [show cfg1.idle 3 (cfg1.grid.coords t) = false from rfl, afterR1_3]; try rfl
theorem leavesR1_4 (c : Dev nD) (t : Fin cfg1.N) : (datR1 V c).leavesExact 4 t = owns (c : Thread nD τ) (msR1_4 t) fullShare (iblkR1 V c 4 t) := by
  unfold Dat.leavesExact; rw [show cfg1.idle 4 (cfg1.grid.coords t) = false from rfl, afterR1_4]; try rfl
theorem leavesR1_5 (c : Dev nD) (t : Fin cfg1.N) : (datR1 V c).leavesExact 5 t = owns (c : Thread nD τ) (msR1_5 t) fullShare (iblkR1 V c 5 t) := by
  unfold Dat.leavesExact; rw [show cfg1.idle 5 (cfg1.grid.coords t) = false from rfl, afterR1_5]; try rfl
theorem leavesR1_6 (c : Dev nD) (t : Fin cfg1.N) : (datR1 V c).leavesExact 6 t = owns (c : Thread nD τ) (msR1_6 t) fullShare (iblkR1 V c 6 t) := by
  unfold Dat.leavesExact; rw [show cfg1.idle 6 (cfg1.grid.coords t) = false from rfl, afterR1_6]; try rfl

/-! ## The body at any point -/

set_option maxHeartbeats 8000000 in
/-- The inputs' memrefs hold their blocks; the closed forms say which case the point is in; the invariant hands the body
    the accumulator at what the point before left (at anything before the first point) and takes it back at this
    point's contents; off the last edge block the output window's buffer passes through untouched. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3, beforeR1_4, beforeR1_5, beforeR1_6]
  rw [show (datR1 V c).owesAt () t.succ = (datR1 V c).owesAt () t.castSucc from rfl]
  rw [show (datR1 V c).Φ t.succ = PhiSR1 V c (t.val + 1) t.isLt from rfl, PhiSR1_succ]
  rw [leavesR1_0, leavesR1_1, leavesR1_2, leavesR1_3, leavesR1_4, leavesR1_5, leavesR1_6]
  have hN : t.val < 6250 := lt_of_lt_of_eq t.isLt (show cfg1.N = 6250 from N_1)
  by_cases h0 : t.val % 250 = 0
  · have h1 : ¬t.val % 250 = 249 := not249_of_0 h0
    rw [Dat.leavesExact_idle (datR1 V c) 7 t (idleAtR1_7 t (fun h => h1 ((hcondR1_1 t).mp h))) (noFlushR1_7 t (fun h => h1 ((hcondR1_1 t).mp h)))]
    rw [outsAtR1_A V c t h0]
    unfold soutR1_A; (try dsimp only)
    by_cases hz : t.val = 0
    · rw [PhiSR1_castSucc V c t, PhiSR1_zero V c _ _ hz, PhiAR1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 250 = 249
    · rw [show (datR1 V c).leavesExact 7 t = owns (c : Thread nD τ) (msR1_7 t) fullShare ((datR1 V c).after 7 t) from by
        unfold Dat.leavesExact; rw [liveAtR1_7 t ((hcondR1_1 t).mpr h1)], afterR1_7]
      rw [outsAtR1_C V c t h0 h1]
      unfold outR1_C soutR1_C; (try dsimp only)
      rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_C c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverR1_C c t _ _ _ _ _ _ _ _ _ _)
    · rw [Dat.leavesExact_idle (datR1 V c) 7 t (idleAtR1_7 t (fun h => h1 ((hcondR1_1 t).mp h))) (noFlushR1_7 t (fun h => h1 ((hcondR1_1 t).mp h)))]
      rw [outsAtR1_B V c t h0 h1]
      unfold soutR1_B; (try dsimp only)
      rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_B c t (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) (iblkR1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_B c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After the last point the invariant gives the class's back: the accumulator's contents are forgotten. -/
theorem houtR1 (c : Dev nD) : (datR1 V c).Φ (Fin.last cfg1.N) ⊢ Pipeline.ΦA spec1 c := by
  have ht : (Fin.last cfg1.N).val ≠ 0 := by rw [Fin.val_last]; have : cfg1.N = 6250 := N_1; omega
  rw [show (datR1 V c).Φ (Fin.last cfg1.N) = PhiSR1 V c (Fin.last cfg1.N).val (Nat.le_of_lt_succ (Fin.last cfg1.N).isLt) from rfl,
    PhiSR1_pos V c _ _ ht, PhiAR1_eq]
  iintro ⟨⟨HS, Hrest⟩, Hg⟩
  isplitl [HS Hrest]
  · isplitl [HS]
    · iexists _; iexact HS
    iexact Hrest
  iexact Hg

end Body

end Cert.Kernel.Hand

end
-- ==== Proof.FrameBits.Launch.lean ====
/-
  The run of the whole program: eight items in order — five stretches of host operations, the first launch, one more
  stretch, the second launch.

  The contents of a core's unscoped buffers at each of the nine boundaries are a fold from the launch memory
  (`W0` … `W8`): a stretch takes a boundary's contents to `StableHlo.after` of its operations; a launch leaves its
  windows' arrays at what its write-backs fold to (`Dat.arrAt … N`) and every other buffer as entered. Each launch's
  proof data are taken at the contents its region is entered with. No stretch writes an argument and no launch
  writes back into one (an argument is an input window's array or is bypassed), so the fold at an argument walks
  back to the launch memory; the fold at the second launch's output array is that launch's last write-back fold.

  Each item is a segment over the thread state "every unscoped buffer at the boundary's contents, the generator
  register at some state, nothing owed"; the launch theorem over the eight segments reads the last boundary's
  contents off every final state (`run_all`). The frame and the value statement follow by reading single buffers.
-/
import proofs.«402184_j37915971289911_2_alg».proof.Proof.FrameBits.Body0
import proofs.«402184_j37915971289911_2_alg».proof.Proof.FrameBits.Body1
import proofs.«402184_j37915971289911_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 (ρ : Dev nD → PrngReg) : Dev nD → Valuation τ sig (Elt F) := fun c b => m (c, b)
/-- After the first stretch. -/
abbrev W1 : Dev nD → Valuation τ sig (Elt F) := fun c => StableHlo.after hostOps0 (W0 m ρ c)
/-- After the second stretch (the first clamp). -/
abbrev W2 : Dev nD → Valuation τ sig (Elt F) := fun c => StableHlo.after hostOps0_1 (W1 m ρ c)
/-- After the third stretch. -/
abbrev W3 : Dev nD → Valuation τ sig (Elt F) := fun c => StableHlo.after hostOps0_2 (W2 m ρ c)
/-- After the fourth stretch (the second clamp). -/
abbrev W4 : Dev nD → Valuation τ sig (Elt F) := fun c => StableHlo.after hostOps0_3 (W3 m ρ c)
/-- After the fifth stretch: what the first launch is entered with. -/
abbrev W5 : Dev nD → Valuation τ sig (Elt F) := fun c => StableHlo.after hostOps0_4 (W4 m ρ c)
/-- The same read at the TensorCore's references (what the first launch's proof data take). -/
abbrev E5 : (c : Dev nD) → (b : Ref sig .tc) → Buf (Elt F) ((c : Thread nD τ).loc b) := fun c b => W5 m ρ c b
/-- At the first launch's exit: its windows' arrays at what the write-backs fold to (an input's array as entered),
    every other buffer as entered. -/
def W6 (c : Dev nD) : Valuation τ sig (Elt F) :=
  Pipeline.withArrays spec0 c (W5 m ρ c) fun w => (datR0 (E5 m ρ) c).arrAt w cfg0.N
theorem W6_arr (c : Dev nD) (w : Fin cfg0.W) :
    W6 m ρ c (Proc.devRef .tc (Pipeline.arrRef spec0 w)) = (datR0 (E5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the first launch's exit contents). -/
abbrev E6 : (c : Dev nD) → (b : Ref sig .tc) → Buf (Elt F) ((c : Thread nD τ).loc b) := fun c b => W6 m ρ c b
/-- At the first launch's exit each of its arrays holds its write-back fold, -/
theorem hF0 (c : Dev nD) (w : Fin cfg0.W) : (datR0 (E5 m ρ) c).arrAt w cfg0.N = E6 m ρ c (Pipeline.arrRef spec0 w) :=
  (W6_arr m ρ c w).symm
/-- and every other buffer what it held at entry. -/
theorem hrest0 (c : Dev nD) : ∀ b, b ∉ Finset.univ.image (Pipeline.arrRef spec0) → E6 m ρ c b = E5 m ρ c b :=
  fun b hb => W6_of_ne m ρ c b fun w e => hb (Finset.mem_image.mpr ⟨w, Finset.mem_univ _, e⟩)

/-- After the sixth stretch: what the second launch is entered with. -/
abbrev W7 : Dev nD → Valuation τ sig (Elt F) := fun c => StableHlo.after hostOps1 (W6 m ρ c)
/-- The same read at the TensorCore's references (what the second launch's proof data take). -/
abbrev E7 : (c : Dev nD) → (b : Ref sig .tc) → Buf (Elt F) ((c : Thread nD τ).loc b) := fun c b => W7 m ρ c b
theorem E7_eq (c : Dev nD) (b : Ref sig .tc) : E7 m ρ c b = W7 m ρ c (Proc.devRef .tc b) := rfl
theorem E5_eq (c : Dev nD) (b : Ref sig .tc) : E5 m ρ c b = W5 m ρ c (Proc.devRef .tc b) := rfl
/-- At the second launch's exit: its windows' arrays at what the write-backs fold to, every other buffer as entered. -/
def W8 (c : Dev nD) : Valuation τ sig (Elt F) :=
  Pipeline.withArrays spec1 c (W7 m ρ c) fun w => (datR1 (E7 m ρ) c).arrAt w cfg1.N
theorem W8_arr (c : Dev nD) (w : Fin cfg1.W) :
    W8 m ρ c (Proc.devRef .tc (Pipeline.arrRef spec1 w)) = (datR1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (the second launch's exit contents). -/
abbrev E8 : (c : Dev nD) → (b : Ref sig .tc) → Buf (Elt F) ((c : Thread nD τ).loc b) := fun c b => W8 m ρ c b
theorem hF1 (c : Dev nD) (w : Fin cfg1.W) : (datR1 (E7 m ρ) c).arrAt w cfg1.N = E8 m ρ c (Pipeline.arrRef spec1 w) :=
  (W8_arr m ρ c w).symm
theorem hrest1 (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

/-! ### The output arrays: each launch's last write-back fold -/

theorem W6_main_v20 (c : Dev nD) : W6 m ρ c (Proc.devRef .tc main_v20) = (datR0 (E5 m ρ) c).arrAt 7 cfg0.N :=
  W6_arr m ρ c 7
theorem W8_main_v29 (c : Dev nD) : W8 m ρ c (Proc.devRef .tc main_v29) = (datR1 (E7 m ρ) c).arrAt 7 cfg1.N :=
  W8_arr m ρ c 7

/-! ### The arguments end as launched

No stretch writes an argument; a launch reads one through an input window, whose array its write-back fold leaves as
entered, or bypasses it. So the fold at an argument's buffer walks back to the launch memory. -/

/-- A buffer none of the first five stretches writes holds its launch contents when the first launch is entered. -/
theorem W5_of (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  calc W5 m ρ c (Proc.devRef .tc r)
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl
/-- A buffer the sixth stretch does not write is as the first launch left it when the second is entered. -/
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- The first launch leaves the array of an input window as entered. -/
theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((datR0 (E5 m ρ) c).arrAt_in w hin _).trans (A_eqR0 (E5 m ρ) c w))
/-- The second launch leaves the array of an input window as entered. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((datR1 (E7 m ρ) c).arrAt_in w hin _).trans (A_eqR1 (E7 m ρ) c w))

/-- `main_arg0` is the array of the first launch's input window 3 and no array of the second's. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_in m ρ c 3 rfl
    _ = m ((c : Thread nD τ).loc main_arg0) := W5_of m ρ c main_arg0 (by decide) (by decide) (by decide) (by decide) (by decide)
/-- `main_arg1` is no window's array. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = m ((c : Thread nD τ).loc main_arg1) := W5_of m ρ c main_arg1 (by decide) (by decide) (by decide) (by decide) (by decide)
/-- `main_arg2` is the array of the first launch's input window 4 and no array of the second's. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_in m ρ c 4 rfl
    _ = m ((c : Thread nD τ).loc main_arg2) := W5_of m ρ c main_arg2 (by decide) (by decide) (by decide) (by decide) (by decide)
/-- `main_arg3` is no window's array. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = m ((c : Thread nD τ).loc main_arg3) := W5_of m ρ c main_arg3 (by decide) (by decide) (by decide) (by decide) (by decide)
/-- `main_arg4` is the array of the first launch's input window 6 and no array of the second's. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_in m ρ c 6 rfl
    _ = m ((c : Thread nD τ).loc main_arg4) := W5_of m ρ c main_arg4 (by decide) (by decide) (by decide) (by decide) (by decide)
/-- `main_arg5` is the array of the second launch's input window 4 and no array of the first's. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_in m ρ c 4 rfl
    _ = W6 m ρ c (Proc.devRef .tc main_arg5) := W7_of m ρ c main_arg5 (by decide)
    _ = W5 m ρ c (Proc.devRef .tc main_arg5) := W6_of_ne m ρ c main_arg5 (by decide)
    _ = m ((c : Thread nD τ).loc main_arg5) := W5_of m ρ c main_arg5 (by decide) (by decide) (by decide) (by decide) (by decide)
/-- `main_arg6` is no window's array. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = m ((c : Thread nD τ).loc main_arg6) := W5_of m ρ c main_arg6 (by decide) (by decide) (by decide) (by decide) (by decide)
/-- `main_arg7` is the array of the second launch's input window 6 and no array of the first's. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_in m ρ c 6 rfl
    _ = W6 m ρ c (Proc.devRef .tc main_arg7) := W7_of m ρ c main_arg7 (by decide)
    _ = W5 m ρ c (Proc.devRef .tc main_arg7) := W6_of_ne m ρ c main_arg7 (by decide)
    _ = m ((c : Thread nD τ).loc main_arg7) := W5_of m ρ c main_arg7 (by decide) (by decide) (by decide) (by decide) (by decide)

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => datR0 (E5 m ρ) c
  | ⟨1, _⟩ => fun c => datR1 (E7 m ρ) c
/-- No counted-loop variant is in force. -/
abbrev runV : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state (a launch's
    invariant takes it in and gives it back) and the record that the core owes nothing. -/
abbrev rideR (c : Dev nD) : sProp 𝕄 := iprop((∃ r, prngReg c r) ∗ ∃ W, owes (c : Thread nD τ) (0 : CellTallies nD τ sig Unit) W)
/-- A stretch of host operations as a segment: over the unscoped references from the contents `W`, `rideR` riding
    along; it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runV runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideR

/-- An unscoped TensorCore reference is among those the thread state holds. -/
theorem mem_ucRefs_tc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the last boundary's
    contents `W8`, the generator register at some state. -/
abbrev lastT (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- THE FIRST LAUNCH over the thread state: entered from every unscoped buffer at `W5`, left at `W6`. Its arrays
    are split out of the unscoped buffers and put back at the exit contents; the generator register goes into the
    launch's invariant and comes back; nothing is owed; the kernel has no semaphore of its own. -/
def reg0 : Pipeline.RegionSeg (pcfgs (F := F)) adm (pdats m ρ) () defs₀ runV runL runLv 0 where
  win := launch0.win.to₀
  block_pos := launch0.block_pos
  stage_whole := launch0.stage_whole
  K := PEmpty
  osem k := k.elim
  ho := Pipeline.OwnSemFacts.none _
  hbody c := (body_obligationR0 (E5 m ρ) c).loose
  hwaits := Pipeline.hwaits_of_owed_zero _ _ _ _ runL runLv 0 fun _ _ => rfl
  pre c := iprop(StableHlo.held (c : Thread nD τ) (Pipeline.ucRefs τ sig) (W5 m ρ c) ∗ rideR c)
  post c := iprop(StableHlo.held (c : Thread nD τ) (Pipeline.ucRefs τ sig) (W6 m ρ c) ∗ rideR c)
  X c := iprop(∃ r, prngReg c r)
  Y c := iprop(∃ r, prngReg c r)
  Z c := Pipeline.unscopedRest (Ix := Unit) (Name := ℕ) (U := UR sig nD τ) (Lvl := ℕ) spec0 c (E5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (E5 m ρ) c)
    unfold Pipeline.ΦA
    iintro ⟨Hp, -, Hr⟩
    isplitl [Hr]; · iexact Hr
    iexact Hp
  hout c := by
    rw [Pipeline.ownSems0_none]
    refine BIBase.Entails.trans (houtR0 (E5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `W7`, left at `W8` (what the
    final state is read against), in the same way. -/
def reg1 : Pipeline.RegionSeg (pcfgs (F := F)) adm (pdats m ρ) () defs₀ runV runL runLv 1 where
  win := launch1.win.to₀
  block_pos := launch1.block_pos
  stage_whole := launch1.stage_whole
  K := PEmpty
  osem k := k.elim
  ho := Pipeline.OwnSemFacts.none _
  hbody c := (body_obligationR1 (E7 m ρ) c).loose
  hwaits := Pipeline.hwaits_of_owed_zero _ _ _ _ runL runLv 1 fun _ _ => rfl
  pre c := iprop(StableHlo.held (c : Thread nD τ) (Pipeline.ucRefs τ sig) (W7 m ρ c) ∗ rideR c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (E7 m ρ) c)
    unfold Pipeline.ΦA
    iintro ⟨Hp, -, Hr⟩
    isplitl [Hr]; · iexact Hr
    iexact Hp
  hout c := by
    rw [Pipeline.ownSems0_none]
    refine BIBase.Entails.trans (houtR1 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E7 m ρ c) (E8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 8 segments in order: a host segment per stretch from its boundary's contents, a region per launch. -/
abbrev runSegs : List (Pipeline.Seg (pcfgs (F := F)) adm (pdats m ρ) () defs₀ runV runL runLv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]
/-- The program is the run of the segments: it is the chain of its items, and the segments' run is that chain. -/
theorem main_run (c : Dev nD) : main (F := F) c = Pipeline.Seg.run (runSegs m ρ) := (main_chain c).trans (by chain_rfl)

set_option backward.isDefEq.respectTransparency.types false in
/-- THE RUN: at the compiled mesh, from any memory with zero counters, every weakly fair execution of the program on
    the TensorCores terminates, nothing faulting, and every final state has every unscoped buffer of every core at the
    last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ runV runL runLv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rideR c)) (Tₙ := lastT m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! ## Single buffers read off the run -/

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs_tc main_arg0 (by decide))).trans (W8_main_arg0 m ρ c),
     (h c _ (mem_ucRefs_tc main_arg1 (by decide))).trans (W8_main_arg1 m ρ c),
     (h c _ (mem_ucRefs_tc main_arg2 (by decide))).trans (W8_main_arg2 m ρ c),
     (h c _ (mem_ucRefs_tc main_arg3 (by decide))).trans (W8_main_arg3 m ρ c),
     (h c _ (mem_ucRefs_tc main_arg4 (by decide))).trans (W8_main_arg4 m ρ c),
     (h c _ (mem_ucRefs_tc main_arg5 (by decide))).trans (W8_main_arg5 m ρ c),
     (h c _ (mem_ucRefs_tc main_arg6 (by decide))).trans (W8_main_arg6 m ρ c),
     (h c _ (mem_ucRefs_tc main_arg7 (by decide))).trans (W8_main_arg7 m ρ c)⟩) (run_all m ρ)

/-- THE VALUE RUN: the result array ends at the second launch's last write-back fold, every argument as launched. -/
theorem value_run : θ_run defs (onTc (τ := τ) (main (F := F))) ⟨m, fun _ => 0, ρ⟩ (fun r => ∀ c : Dev nD,
      r.2.mem ((c.tc : Thread nD τ).loc main_v29) = (datR1 (E7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs_tc main_v29 (by decide))).trans (W8_main_v29 m ρ c),
     (h c _ (mem_ucRefs_tc main_arg0 (by decide))).trans (W8_main_arg0 m ρ c),
     (h c _ (mem_ucRefs_tc main_arg1 (by decide))).trans (W8_main_arg1 m ρ c),
     (h c _ (mem_ucRefs_tc main_arg2 (by decide))).trans (W8_main_arg2 m ρ c),
     (h c _ (mem_ucRefs_tc main_arg3 (by decide))).trans (W8_main_arg3 m ρ c),
     (h c _ (mem_ucRefs_tc main_arg4 (by decide))).trans (W8_main_arg4 m ρ c),
     (h c _ (mem_ucRefs_tc main_arg5 (by decide))).trans (W8_main_arg5 m ρ c),
     (h c _ (mem_ucRefs_tc main_arg6 (by decide))).trans (W8_main_arg6 m ρ c),
     (h c _ (mem_ucRefs_tc main_arg7 (by decide))).trans (W8_main_arg7 m ρ c)⟩) (run_all m ρ)

end Cert.Kernel.Hand

end
-- ==== Proof.FrameIdeal.Scoped0.lean ====
/-
  Region 0: the scoped buffers that are no staging buffer of this launch, with the launch's own scratch accumulator
  split off. The class's invariant of the launch (the scoped rest and the generator register) is the accumulator owned
  at some contents, beside the other launch's scoped buffers (which this launch's body never opens), beside the
  generator register.
-/
import proofs.«402184_j37915971289911_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The scratch accumulator: a whole scoped buffer of the kernel's own. -/
abbrev scMR0 : Memref sig .tc .vmem S2000x64 .f32 := Memref.whole cc0_scratch0
/-- The same as a view: what it holds is stated through it. -/
abbrev VSR0 : View sig .tc .vmem S2000x64 .f32 := scMR0.view

/-- The other launch's scoped buffers, each whole at some contents. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The launch's invariant before the first point: the scratch accumulator at some contents, the other launch's scoped
    buffers, the generator register at some state. -/
theorem PhiAR0_eq (c : Dev nD) :
    (Pipeline.ΦA spec0 c : sProp 𝕄)
      = iprop(iprop((∃ d, owns (c : Thread nD τ) scMR0 fullShare d) ∗ restR0 c) ∗ (∃ r, prngReg c r)) := by
  unfold Pipeline.ΦA restR0; rw [scopedRest0_eq]; simp only [scMR0, owns_whole]; try rfl

end Cert.KernelIdeal.Hand

end
-- ==== Proof.FrameIdeal.Shared0.lean ====
/-
  Region 0 (the first layer's kernel launch, grid 25 × 250): what its three control cases share.

  The kernel body branches twice on the second grid coordinate `k`: at `k = 0` it first clears the scratch
  accumulator, and at `k = 249` it finishes the node block (mean, the two products, bias, activation) and stores the
  output block. So a point is in one of three cases: first edge block (`k = 0`), a middle one, the last (`k = 249`).
  Here: the two conditions in closed form over the linear point number, where the output window is idle, the staging
  and scratch memrefs as the pipeline passes them, each input window's block read off the array the region finds, and
  the fact that an input's staging buffer holds that block at every point.
-/
import proofs.«402184_j37915971289911_2_alg».proof.Proof.FrameIdeal.Scoped0
import proofs.«402184_j37915971289911_2_alg».proof.Proof.Gen.KernelIdeal.Skeleton
import proofs.«402184_j37915971289911_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (clear the accumulator): the second grid coordinate is `0`. -/
abbrev condR0_0 (i : grid0.Coords) : Prop := (Scalar.cmpi .ne (Scalar.extui (Scalar.cmpi .eq (BitVec.ofNat 32 (i 1).val) 0#32)) 0#32) = 1#1
/-- It holds at the points that are multiples of 250. -/
theorem hcondR0_0 : ∀ t : Fin cfg0.N, condR0_0 (grid0.coords t) ↔ t.val % 250 = 0 :=
  (by decide +kernel : ∀ t : Fin grid0.N, condR0_0 (grid0.coords t) ↔ t.val % 250 = 0)

/-- The second branch (finish the node block): the second grid coordinate is `249`. -/
abbrev condR0_1 (i : grid0.Coords) : Prop := k0_cond2 i = 1#1
/-- It holds at the points that are 249 modulo 250. -/
theorem hcondR0_1 : ∀ t : Fin cfg0.N, condR0_1 (grid0.coords t) ↔ t.val % 250 = 249 :=
  (by decide +kernel : ∀ t : Fin grid0.N, condR0_1 (grid0.coords t) ↔ t.val % 250 = 249)

/-! ## Where the output window is idle -/

/-- Off the last edge block the output window is idle: the body stores nothing into it. -/
theorem idleAtR0_7 : ∀ t : Fin cfg0.N, ¬condR0_1 (grid0.coords t) → cfg0.idle 7 (grid0.coords t) = true := by decide +kernel
/-- And the pipeline does not write it back there. -/
theorem noFlushR0_7 : ∀ t : Fin cfg0.N, ¬condR0_1 (grid0.coords t) → (cfg0.win 7).flush t = false := by decide +kernel
/-- At the last edge block it is live. -/
theorem liveAtR0_7 : ∀ t : Fin cfg0.N, condR0_1 (grid0.coords t) → cfg0.idle 7 (grid0.coords t) = false := by decide +kernel

/-! ## The memrefs the body is called with -/

/-- One staging buffer of the output window, through which its contents are stated. -/
abbrev VOR0_7 : View sig .tc .vmem S2000x64 .f32 := (Memref.whole cc0_stg7_0 : Memref sig .tc .vmem S2000x64 .f32).view
abbrev msR0_0 (t : Fin cfg0.N) : Memref sig .tc .vmem S1x3200 .i32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S3200x64 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S2000x1 .f32 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S2000x64 .f32 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S64x64 .f32 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1x64 .f32 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S64x64 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S2000x64 .f32 := win0_7.stage (cfg0.slots t 7)
abbrev hsR0_7 (t : Fin cfg0.N) : (msR0_7 t).IsWhole := hstage0_7 ((cfg0.slots t 7).cast nbuf0_7)
/-! ## The windows' blocks -/

section Blocks
variable (V : (c : Dev nD) → (b : Ref sig .tc) → Buf (Elt F) ((c : Thread nD τ).loc b))

/-- Window `w`'s block at point `t`, read off its array as the region finds it (`V`). -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or not. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or not. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or not. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- Input window 4's current staging buffer holds its block at every point, fetched there or not. -/
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)

/-- Input window 5's current staging buffer holds its block at every point, fetched there or not. -/
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)

/-- Input window 6's current staging buffer holds its block at every point, fetched there or not. -/
theorem beforeR0_6_of {c : Dev nD} (dat : Dat τ (Elt F) Unit ℕ (UR sig nD τ) ℕ cfg0 c) (hA : dat.A 6 = V c (Pipeline.arrRef spec0 6))
    (hafter : ∀ t, dat.after 6 t = iblkR0 V c 6 t) (t : Fin cfg0.N) (d) : dat.before 6 t d = iblkR0 V c 6 t :=
  (dat.before_in_eq_fetched 6 rfl (fun _ => rfl) (fun _ _ _ => rfl) (fun t => by rw [hafter]; unfold Dat.blockOf iblkR0; rw [hA]; try rfl) t d).trans
    (by unfold Dat.fetched Dat.blockOf iblkR0; rw [hA]; try rfl)

end Blocks

end Cert.KernelIdeal.Hand

end
-- ==== Proof.FrameIdeal.Run0A.lean ====
/-
  Region 0, the kernel body run at a point of the first edge block of a node block (the accumulator is cleared, then the block's contribution added): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_A (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : condR0_0 i) (hc1 : ¬condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.FrameIdeal.Run0B.lean ====
/-
  Region 0, the kernel body run at a point of a middle edge block (the block's contribution is added to the accumulator): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_B (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR0_0 i) (hc1 : ¬condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.FrameIdeal.Run0C.lean ====
/-
  Region 0, the kernel body run at a point of the last edge block (the contribution is added, then the node block is finished and stored): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR0_C (c : Dev nD) (i : grid0.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR0_0 i) (hc1 : condR0_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__sage_scatter_combine_kernel i arg2 harg2 arg3 harg3 arg4 harg4 arg5 harg5 arg6 harg6 arg7 harg7 arg8 harg8 arg9 harg9 arg10 harg10) K } := by
  refine ⟨?_, ?_, fun E K => ?run⟩
  case run =>
    simp only [cc0__sage_scatter_combine_kernel_eq_skeleton]; unfold cc0__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Hand

end
-- ==== Proof.FrameIdeal.Body0.lean ====
/-
  Region 0: from the three case runs to the launch's proof data and its body obligation.

  After the body at point number `n` the scratch accumulator holds what that point's case leaves in it, computed from
  the point's input blocks and — off the first edge block of a node block — from what the point before left
  (`outsAtR0`, by recursion on `n`); the output window's staging buffer is named only at the last edge block of a node
  block, where the body stores it. The launch's invariant carries the accumulator at exactly these contents from one
  point to the next (`PhiSR0`). The proof data `datR0` says so, and `body_obligationR0` is the body's run at every
  point: a case split on the two closed-form conditions, each leaf that case's run.
-/
import proofs.«402184_j37915971289911_2_alg».proof.Proof.FrameIdeal.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## The case runs at a point's own memrefs -/

/-- The first-edge-block run at point `t`. -/
abbrev runAtR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :=
  kernelRunR0_A (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6
/-- The middle-edge-block run at point `t`, the accumulator found at `xs`. -/
abbrev runAtR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR0_B (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6 xs
/-- The last-edge-block run at point `t`, the accumulator found at `xs`. -/
abbrev runAtR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR0_C (F := F) c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0 (Memref.isWhole_whole _) hc0 hc1 x0 x1 x2 x3 x4 x5 x6 xs

/-! ## What each case leaves: the pieces cover the buffer, so they read back as one array -/

theorem scoverR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (y : S2000x64.Idx) :
    ∃ pc ∈ (runAtR0_A c t hc0 hc1 x0 x1 x2 x3 x4 x5 x6).2.1, y ∈ pc.1.set :=
  View.cover_of_tiledL (runAtR0_A c t hc0 hc1 x0 x1 x2 x3 x4 x5 x6).2.1 S2000x64.size (by sl_kernel_rfl) y
/-- The accumulator after a first edge block. -/
def soutR0_A (c : Dev nD) (t : Fin cfg0.N) (hc0 : condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) : Vec F S2000x64 .f32 :=
  VSR0.read (Elt F) (VSR0.writes (Elt F) VSR0.junk (runAtR0_A c t hc0 hc1 x0 x1 x2 x3 x4 x5 x6).2.1)

theorem scoverR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_B c t hc0 hc1 x0 x1 x2 x3 x4 x5 x6 xs).2.1, y ∈ pc.1.set :=
  View.cover_of_tiledL (runAtR0_B c t hc0 hc1 x0 x1 x2 x3 x4 x5 x6 xs).2.1 S2000x64.size (by sl_kernel_rfl) y
/-- The accumulator after a middle edge block. -/
def soutR0_B (c : Dev nD) (t : Fin cfg0.N) (hc0 : ¬condR0_0 (grid0.coords t)) (hc1 : ¬condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR0.read (Elt F) (VSR0.writes (Elt F) VSR0.junk (runAtR0_B c t hc0 hc1 x0 x1 x2 x3 x4 x5 x6 xs).2.1)

theorem scoverR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_C c t hc0 hc1 x0 x1 x2 x3 x4 x5 x6 xs).2.1, y ∈ pc.1.set :=
  View.cover_of_tiledL (runAtR0_C c t hc0 hc1 x0 x1 x2 x3 x4 x5 x6 xs).2.1 S2000x64.size (by sl_kernel_rfl) y
/-- The accumulator after a last edge block. -/
def soutR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR0.read (Elt F) (VSR0.writes (Elt F) VSR0.junk (runAtR0_C c t hc0 hc1 x0 x1 x2 x3 x4 x5 x6 xs).2.1)
theorem coverR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR0_C c t hc0 hc1 x0 x1 x2 x3 x4 x5 x6 xs).1, y ∈ pc.1.set :=
  View.cover_of_tiledL (runAtR0_C c t hc0 hc1 x0 x1 x2 x3 x4 x5 x6 xs).1 S2000x64.size (by sl_kernel_rfl) y
/-- The output block a last edge block stores. -/
def outR0_C (c : Dev nD) (t : Fin cfg0.N) (hc0 : ¬condR0_0 (grid0.coords t)) (hc1 : condR0_1 (grid0.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VOR0_7.read (Elt F) (VOR0_7.writes (Elt F) VOR0_7.junk (runAtR0_C c t hc0 hc1 x0 x1 x2 x3 x4 x5 x6 xs).1)
/-- Where the body stores no output block the window's contents are not named: a placeholder nothing consults. -/
def outIdleR0 : Vec F S2000x64 .f32 := VOR0_7.read (Elt F) VOR0_7.junk

/-! ## Point by point -/

theorem not249_of_0 {n : ℕ} (h : n % 250 = 0) : ¬n % 250 = 249 := by omega

/-- What the output window's buffer and the scratch accumulator hold after the body at point number `n`. -/
def outsAtR0 (c : Dev nD) : (n : ℕ) → n < cfg0.N → Vec F S2000x64 .f32 × Vec F S2000x64 .f32
  | 0, hn => (outIdleR0, soutR0_A c ⟨0, hn⟩ ((hcondR0_0 ⟨0, hn⟩).mpr (Nat.zero_mod _)) (fun h => not249_of_0 (Nat.zero_mod 250) ((hcondR0_1 ⟨0, hn⟩).mp h)) (iblkR0 V c 0 ⟨0, hn⟩) (iblkR0 V c 1 ⟨0, hn⟩) (iblkR0 V c 2 ⟨0, hn⟩) (iblkR0 V c 3 ⟨0, hn⟩) (iblkR0 V c 4 ⟨0, hn⟩) (iblkR0 V c 5 ⟨0, hn⟩) (iblkR0 V c 6 ⟨0, hn⟩))
  | n + 1, hn =>
    if h0 : (n + 1) % 250 = 0 then
      (outIdleR0, soutR0_A c ⟨n + 1, hn⟩ ((hcondR0_0 ⟨n + 1, hn⟩).mpr h0) (fun h => not249_of_0 h0 ((hcondR0_1 ⟨n + 1, hn⟩).mp h)) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩))
    else
      if h1 : (n + 1) % 250 = 249 then
        (outR0_C c ⟨n + 1, hn⟩ (fun h => h0 ((hcondR0_0 ⟨n + 1, hn⟩).mp h)) ((hcondR0_1 ⟨n + 1, hn⟩).mpr h1) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2,
         soutR0_C c ⟨n + 1, hn⟩ (fun h => h0 ((hcondR0_0 ⟨n + 1, hn⟩).mp h)) ((hcondR0_1 ⟨n + 1, hn⟩).mpr h1) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2)
      else
        (outIdleR0, soutR0_B c ⟨n + 1, hn⟩ (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (iblkR0 V c 2 ⟨n + 1, hn⟩) (iblkR0 V c 3 ⟨n + 1, hn⟩) (iblkR0 V c 4 ⟨n + 1, hn⟩) (iblkR0 V c 5 ⟨n + 1, hn⟩) (iblkR0 V c 6 ⟨n + 1, hn⟩) (outsAtR0 c n (Nat.lt_of_succ_lt hn)).2)

/-- At a first edge block. -/
theorem outsAtR0_A (c : Dev nD) (t : Fin cfg0.N) (h0 : t.val % 250 = 0) :
    outsAtR0 V c t.val t.isLt = (outIdleR0, soutR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)) := by
  obtain ⟨n, hn⟩ := t
  cases n with
  | zero => exact rfl
  | succ n => exact (dif_pos h0).trans rfl

/-- At a middle edge block, over what the point before left. -/
theorem outsAtR0_B (c : Dev nD) (t : Fin cfg0.N) (h0 : ¬t.val % 250 = 0) (h1 : ¬t.val % 250 = 249) :
    outsAtR0 V c t.val t.isLt = (outIdleR0, soutR0_B c t (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last edge block, over what the point before left. -/
theorem outsAtR0_C (c : Dev nD) (t : Fin cfg0.N) (h0 : ¬t.val % 250 = 0) (h1 : t.val % 250 = 249) :
    outsAtR0 V c t.val t.isLt = (outR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2,
      soutR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before point number `n`: at the launch's start the class's invariant; afterwards the scratch accumulator at what
    the point before left, the other launch's scoped buffers, the generator register at some state. -/
def PhiSR0 (c : Dev nD) : (n : ℕ) → n ≤ cfg0.N → sProp 𝕄
  | 0, _ => Pipeline.ΦA spec0 c
  | n + 1, hn => iprop(iprop(owns (c : Thread nD τ) scMR0 fullShare ((outsAtR0 V c n hn).2) ∗ restR0 c) ∗ (∃ r, prngReg c r))

theorem PhiSR0_zero (c : Dev nD) (n : ℕ) (h : n ≤ cfg0.N) (hz : n = 0) : PhiSR0 V c n h = Pipeline.ΦA spec0 c := by
  subst hz; rfl

theorem PhiSR0_succ (c : Dev nD) (n : ℕ) (hn : n < cfg0.N) :
    PhiSR0 V c (n + 1) hn = iprop(iprop(owns (c : Thread nD τ) scMR0 fullShare ((outsAtR0 V c n hn).2) ∗ restR0 c) ∗ (∃ r, prngReg c r)) := rfl

theorem PhiSR0_pos (c : Dev nD) (n : ℕ) (h : n ≤ cfg0.N) (hz : n ≠ 0) :
    PhiSR0 V c n h = iprop(iprop(owns (c : Thread nD τ) scMR0 fullShare ((outsAtR0 V c (n - 1) (by omega)).2) ∗ restR0 c) ∗ (∃ r, prngReg c r)) := by
  cases n with
  | zero => exact absurd rfl hz
  | succ n => rfl

/-! ## The proof data -/

/-- The launch's proof data on core `c`: the arrays as the region finds them; after the body each input's buffer at
    its block, the output's at `outsAtR0`'s first component; the invariant `PhiSR0`; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => iblkR0 V c 6 t
    | ⟨7, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = iblkR0 V c 6 t := by dsimp only [datR0]
theorem afterR0_7 (c : Dev nD) (t : Fin cfg0.N) : (datR0 V c).after 7 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d
theorem beforeR0_6 (c : Dev nD) (t : Fin cfg0.N) (d) : (datR0 V c).before 6 t d = iblkR0 V c 6 t :=
  beforeR0_6_of V (datR0 V c) (A_eqR0 V c 6) (afterR0_6 V c) t d

/-! ## The body obligation -/

/-- What the body is called with at point `t`. -/
def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

/-- What it returns. -/
def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t
    ∗ (datR0 V c).leavesExact 5 t
    ∗ (datR0 V c).leavesExact 6 t
    ∗ (datR0 V c).leavesExact 7 t)

theorem leavesR0_0 (c : Dev nD) (t : Fin cfg0.N) : (datR0 V c).leavesExact 0 t = owns (c : Thread nD τ) (msR0_0 t) fullShare (iblkR0 V c 0 t) := by
  unfold Dat.leavesExact; rw [show cfg0.idle 0 (cfg0.grid.coords t) = false from rfl, afterR0_0]; try rfl
theorem leavesR0_1 (c : Dev nD) (t : Fin cfg0.N) : (datR0 V c).leavesExact 1 t = owns (c : Thread nD τ) (msR0_1 t) fullShare (iblkR0 V c 1 t) := by
  unfold Dat.leavesExact; rw [show cfg0.idle 1 (cfg0.grid.coords t) = false from rfl, afterR0_1]; try rfl
theorem leavesR0_2 (c : Dev nD) (t : Fin cfg0.N) : (datR0 V c).leavesExact 2 t = owns (c : Thread nD τ) (msR0_2 t) fullShare (iblkR0 V c 2 t) := by
  unfold Dat.leavesExact; rw [show cfg0.idle 2 (cfg0.grid.coords t) = false from rfl, afterR0_2]; try rfl
theorem leavesR0_3 (c : Dev nD) (t : Fin cfg0.N) : (datR0 V c).leavesExact 3 t = owns (c : Thread nD τ) (msR0_3 t) fullShare (iblkR0 V c 3 t) := by
  unfold Dat.leavesExact; rw [show cfg0.idle 3 (cfg0.grid.coords t) = false from rfl, afterR0_3]; try rfl
theorem leavesR0_4 (c : Dev nD) (t : Fin cfg0.N) : (datR0 V c).leavesExact 4 t = owns (c : Thread nD τ) (msR0_4 t) fullShare (iblkR0 V c 4 t) := by
  unfold Dat.leavesExact; rw [show cfg0.idle 4 (cfg0.grid.coords t) = false from rfl, afterR0_4]; try rfl
theorem leavesR0_5 (c : Dev nD) (t : Fin cfg0.N) : (datR0 V c).leavesExact 5 t = owns (c : Thread nD τ) (msR0_5 t) fullShare (iblkR0 V c 5 t) := by
  unfold Dat.leavesExact; rw [show cfg0.idle 5 (cfg0.grid.coords t) = false from rfl, afterR0_5]; try rfl
theorem leavesR0_6 (c : Dev nD) (t : Fin cfg0.N) : (datR0 V c).leavesExact 6 t = owns (c : Thread nD τ) (msR0_6 t) fullShare (iblkR0 V c 6 t) := by
  unfold Dat.leavesExact; rw [show cfg0.idle 6 (cfg0.grid.coords t) = false from rfl, afterR0_6]; try rfl

/-! ## The body at any point -/

set_option maxHeartbeats 8000000 in
/-- The inputs' memrefs hold their blocks; the closed forms say which case the point is in; the invariant hands the body
    the accumulator at what the point before left (at anything before the first point) and takes it back at this
    point's contents; off the last edge block the output window's buffer passes through untouched. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3, beforeR0_4, beforeR0_5, beforeR0_6]
  rw [show (datR0 V c).owesAt () t.succ = (datR0 V c).owesAt () t.castSucc from rfl]
  rw [show (datR0 V c).Φ t.succ = PhiSR0 V c (t.val + 1) t.isLt from rfl, PhiSR0_succ]
  rw [leavesR0_0, leavesR0_1, leavesR0_2, leavesR0_3, leavesR0_4, leavesR0_5, leavesR0_6]
  have hN : t.val < 6250 := lt_of_lt_of_eq t.isLt (show cfg0.N = 6250 from N_0)
  by_cases h0 : t.val % 250 = 0
  · have h1 : ¬t.val % 250 = 249 := not249_of_0 h0
    rw [Dat.leavesExact_idle (datR0 V c) 7 t (idleAtR0_7 t (fun h => h1 ((hcondR0_1 t).mp h))) (noFlushR0_7 t (fun h => h1 ((hcondR0_1 t).mp h)))]
    rw [outsAtR0_A V c t h0]
    unfold soutR0_A; (try dsimp only)
    by_cases hz : t.val = 0
    · rw [PhiSR0_castSucc V c t, PhiSR0_zero V c _ _ hz, PhiAR0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_A c t ((hcondR0_0 t).mpr h0) (fun h => not249_of_0 h0 ((hcondR0_1 t).mp h)) (iblkR0 V c 0 t) (iblkR0 V c 1 t) (iblkR0 V c 2 t) (iblkR0 V c 3 t) (iblkR0 V c 4 t) (iblkR0 V c 5 t) (iblkR0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 250 = 249
    · rw [show (datR0 V c).leavesExact 7 t = owns (c : Thread nD τ) (msR0_7 t) fullShare ((datR0 V c).after 7 t) from by
        unfold Dat.leavesExact; rw [liveAtR0_7 t ((hcondR0_1 t).mpr h1)], afterR0_7]
      rw [outsAtR0_C V c t h0 h1]
      unfold outR0_C soutR0_C; (try dsimp only)
      rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_C c t (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) (iblkR0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_C c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverR0_C c t _ _ _ _ _ _ _ _ _ _)
    · rw [Dat.leavesExact_idle (datR0 V c) 7 t (idleAtR0_7 t (fun h => h1 ((hcondR0_1 t).mp h))) (noFlushR0_7 t (fun h => h1 ((hcondR0_1 t).mp h)))]
      rw [outsAtR0_B V c t h0 h1]
      unfold soutR0_B; (try dsimp only)
      rw [PhiSR0_castSucc V c t, PhiSR0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR0_B c t (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) (iblkR0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR0_B c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := by
  rw [show (datR0 V c).Φ 0 = PhiSR0 V c 0 (Nat.zero_le _) from rfl, PhiSR0_zero V c 0 _ rfl]
  try exact Idealize.SL.BI.Entails.refl _

/-- After the last point the invariant gives the class's back: the accumulator's contents are forgotten. -/
theorem houtR0 (c : Dev nD) : (datR0 V c).Φ (Fin.last cfg0.N) ⊢ Pipeline.ΦA spec0 c := by
  have ht : (Fin.last cfg0.N).val ≠ 0 := by rw [Fin.val_last]; have : cfg0.N = 6250 := N_0; omega
  rw [show (datR0 V c).Φ (Fin.last cfg0.N) = PhiSR0 V c (Fin.last cfg0.N).val (Nat.le_of_lt_succ (Fin.last cfg0.N).isLt) from rfl,
    PhiSR0_pos V c _ _ ht, PhiAR0_eq]
  iintro ⟨⟨HS, Hrest⟩, Hg⟩
  isplitl [HS Hrest]
  · isplitl [HS]
    · iexists _; iexact HS
    iexact Hrest
  iexact Hg

end Body

end Cert.KernelIdeal.Hand

end
-- ==== Proof.FrameIdeal.Scoped1.lean ====
/-
  Region 1: the scoped buffers that are no staging buffer of this launch, with the launch's own scratch accumulator
  split off. The class's invariant of the launch (the scoped rest and the generator register) is the accumulator owned
  at some contents, beside the other launch's scoped buffers (which this launch's body never opens), beside the
  generator register.
  Here the accumulator is the last buffer of the launch's list, so it is brought to the front by commuting `∗`.
-/
import proofs.«402184_j37915971289911_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The scratch accumulator: a whole scoped buffer of the kernel's own. -/
abbrev scMR1 : Memref sig .tc .vmem S2000x64 .f32 := Memref.whole cc1_scratch0
/-- The same as a view: what it holds is stated through it. -/
abbrev VSR1 : View sig .tc .vmem S2000x64 .f32 := scMR1.view

/-- The other launch's scoped buffers, each whole at some contents. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The launch's invariant before the first point: the scratch accumulator at some contents, the other launch's scoped
    buffers, the generator register at some state. -/
theorem PhiAR1_eq (c : Dev nD) :
    (Pipeline.ΦA spec1 c : sProp 𝕄)
      = iprop(iprop((∃ d, owns (c : Thread nD τ) scMR1 fullShare d) ∗ restR1 c) ∗ (∃ r, prngReg c r)) := by
  unfold Pipeline.ΦA restR1; rw [scopedRest1_eq]; simp only [scMR1, owns_whole]
  refine BI.Entails.antisymm ?_ ?_
  · show (_ : sProp 𝕄) ⊢ _
    iintro ⟨⟨H0, H1, H2, H3, H4, H5, H6, H7, H8, H9, H10, H11, H12, H13, HS⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iexact Hg
  · show (_ : sProp 𝕄) ⊢ _
    iintro ⟨⟨HS, ⟨H0, H1, H2, H3, H4, H5, H6, H7, H8, H9, H10, H11, H12, H13⟩⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    · iexact Hg

end Cert.KernelIdeal.Hand

end
-- ==== Proof.FrameIdeal.Shared1.lean ====
/-
  Region 1 (the first layer's kernel launch, grid 25 × 250): what its three control cases share.

  The kernel body branches twice on the second grid coordinate `k`: at `k = 0` it first clears the scratch
  accumulator, and at `k = 249` it finishes the node block (mean, the two products, bias, activation) and stores the
  output block. So a point is in one of three cases: first edge block (`k = 0`), a middle one, the last (`k = 249`).
  Here: the two conditions in closed form over the linear point number, where the output window is idle, the staging
  and scratch memrefs as the pipeline passes them, each input window's block read off the array the region finds, and
  the fact that an input's staging buffer holds that block at every point.
-/
import proofs.«402184_j37915971289911_2_alg».proof.Proof.FrameIdeal.Scoped1
import proofs.«402184_j37915971289911_2_alg».proof.Proof.Gen.KernelIdeal.Skeleton
import proofs.«402184_j37915971289911_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (clear the accumulator): the second grid coordinate is `0`. -/
abbrev condR1_0 (i : grid1.Coords) : Prop := (Scalar.cmpi .ne (Scalar.extui (Scalar.cmpi .eq (BitVec.ofNat 32 (i 1).val) 0#32)) 0#32) = 1#1
/-- It holds at the points that are multiples of 250. -/
theorem hcondR1_0 : ∀ t : Fin cfg1.N, condR1_0 (grid1.coords t) ↔ t.val % 250 = 0 :=
  (by decide +kernel : ∀ t : Fin grid1.N, condR1_0 (grid1.coords t) ↔ t.val % 250 = 0)

/-- The second branch (finish the node block): the second grid coordinate is `249`. -/
abbrev condR1_1 (i : grid1.Coords) : Prop := k1_cond2 i = 1#1
/-- It holds at the points that are 249 modulo 250. -/
theorem hcondR1_1 : ∀ t : Fin cfg1.N, condR1_1 (grid1.coords t) ↔ t.val % 250 = 249 :=
  (by decide +kernel : ∀ t : Fin grid1.N, condR1_1 (grid1.coords t) ↔ t.val % 250 = 249)

/-! ## Where the output window is idle -/

/-- Off the last edge block the output window is idle: the body stores nothing into it. -/
theorem idleAtR1_7 : ∀ t : Fin cfg1.N, ¬condR1_1 (grid1.coords t) → cfg1.idle 7 (grid1.coords t) = true := by decide +kernel
/-- And the pipeline does not write it back there. -/
theorem noFlushR1_7 : ∀ t : Fin cfg1.N, ¬condR1_1 (grid1.coords t) → (cfg1.win 7).flush t = false := by decide +kernel
/-- At the last edge block it is live. -/
theorem liveAtR1_7 : ∀ t : Fin cfg1.N, condR1_1 (grid1.coords t) → cfg1.idle 7 (grid1.coords t) = false := by decide +kernel

/-! ## The memrefs the body is called with -/

/-- One staging buffer of the output window, through which its contents are stated. -/
abbrev VOR1_7 : View sig .tc .vmem S2000x64 .f32 := (Memref.whole cc1_stg7_0 : Memref sig .tc .vmem S2000x64 .f32).view
abbrev msR1_0 (t : Fin cfg1.N) : Memref sig .tc .vmem S1x3200 .i32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S3200x64 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S2000x1 .f32 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S2000x64 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S64x64 .f32 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1x64 .f32 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S64x64 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S2000x64 .f32 := win1_7.stage (cfg1.slots t 7)
abbrev hsR1_7 (t : Fin cfg1.N) : (msR1_7 t).IsWhole := hstage1_7 ((cfg1.slots t 7).cast nbuf1_7)
/-! ## The windows' blocks -/

section Blocks
variable (V : (c : Dev nD) → (b : Ref sig .tc) → Buf (Elt F) ((c : Thread nD τ).loc b))

/-- Window `w`'s block at point `t`, read off its array as the region finds it (`V`). -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or not. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or not. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or not. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- Input window 4's current staging buffer holds its block at every point, fetched there or not. -/
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)

/-- Input window 5's current staging buffer holds its block at every point, fetched there or not. -/
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)

/-- Input window 6's current staging buffer holds its block at every point, fetched there or not. -/
theorem beforeR1_6_of {c : Dev nD} (dat : Dat τ (Elt F) Unit ℕ (UR sig nD τ) ℕ cfg1 c) (hA : dat.A 6 = V c (Pipeline.arrRef spec1 6))
    (hafter : ∀ t, dat.after 6 t = iblkR1 V c 6 t) (t : Fin cfg1.N) (d) : dat.before 6 t d = iblkR1 V c 6 t :=
  (dat.before_in_eq_fetched 6 rfl (fun _ => rfl) (fun _ _ _ => rfl) (fun t => by rw [hafter]; unfold Dat.blockOf iblkR1; rw [hA]; try rfl) t d).trans
    (by unfold Dat.fetched Dat.blockOf iblkR1; rw [hA]; try rfl)

end Blocks

end Cert.KernelIdeal.Hand

end
-- ==== Proof.FrameIdeal.Run1A.lean ====
/-
  Region 1, the kernel body run at a point of the first edge block of a node block (the accumulator is cleared, then the block's contribution added): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_A (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : condR1_0 i) (hc1 : ¬condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.FrameIdeal.Run1B.lean ====
/-
  Region 1, the kernel body run at a point of a middle edge block (the block's contribution is added to the accumulator): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_B (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR1_0 i) (hc1 : ¬condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (xi7 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Hand

end
-- ==== Proof.FrameIdeal.Run1C.lean ====
/-
  Region 1, the kernel body run at a point of the last edge block (the contribution is added, then the node block is finished and stored): on whole staging
  memrefs holding the input blocks, the body runs to the end, the inputs' memrefs as they were, the scratch accumulator
  (and at the last edge block the output block) holding the pieces its stores wrote. The pieces are found by running
  the body symbolically; they are opened where the values are read.
-/
import proofs.«402184_j37915971289911_2_alg».proof.Proof.FrameIdeal.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as the witness. -/
noncomputable def kernelRunR1_C (c : Dev nD) (i : grid1.Coords) (arg2 : Memref sig .tc .vmem S1x3200 .i32) (harg2 : arg2.IsWhole) (arg3 : Memref sig .tc .vmem S3200x64 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S2000x64 .f32) (harg9 : arg9.IsWhole) (arg10 : Memref sig .tc .vmem S2000x64 .f32) (harg10 : arg10.IsWhole) (hc0 : ¬condR1_0 i) (hc1 : condR1_1 i)
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    Σ' (L7 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__sage_scatter_combine_kernel i arg2 harg2 arg3 harg3 arg4 harg4 arg5 harg5 arg6 harg6 arg7 harg7 arg8 harg8 arg9 harg9 arg10 harg10) K } := by
  refine ⟨?_, ?_, fun E K => ?run⟩
  case run =>
    simp only [cc1__sage_scatter_combine_kernel_eq_skeleton]; unfold cc1__sage_scatter_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Hand

end
-- ==== Proof.FrameIdeal.Body1.lean ====
/-
  Region 1: from the three case runs to the launch's proof data and its body obligation.

  After the body at point number `n` the scratch accumulator holds what that point's case leaves in it, computed from
  the point's input blocks and — off the first edge block of a node block — from what the point before left
  (`outsAtR1`, by recursion on `n`); the output window's staging buffer is named only at the last edge block of a node
  block, where the body stores it. The launch's invariant carries the accumulator at exactly these contents from one
  point to the next (`PhiSR1`). The proof data `datR1` says so, and `body_obligationR1` is the body's run at every
  point: a case split on the two closed-form conditions, each leaf that case's run.
-/
import proofs.«402184_j37915971289911_2_alg».proof.Proof.FrameIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## The case runs at a point's own memrefs -/

/-- The first-edge-block run at point `t`. -/
abbrev runAtR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :=
  kernelRunR1_A (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6
/-- The middle-edge-block run at point `t`, the accumulator found at `xs`. -/
abbrev runAtR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR1_B (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6 xs
/-- The last-edge-block run at point `t`, the accumulator found at `xs`. -/
abbrev runAtR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :=
  kernelRunR1_C (F := F) c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1 (Memref.isWhole_whole _) hc0 hc1 x0 x1 x2 x3 x4 x5 x6 xs

/-! ## What each case leaves: the pieces cover the buffer, so they read back as one array -/

theorem scoverR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (y : S2000x64.Idx) :
    ∃ pc ∈ (runAtR1_A c t hc0 hc1 x0 x1 x2 x3 x4 x5 x6).2.1, y ∈ pc.1.set :=
  View.cover_of_tiledL (runAtR1_A c t hc0 hc1 x0 x1 x2 x3 x4 x5 x6).2.1 S2000x64.size (by sl_kernel_rfl) y
/-- The accumulator after a first edge block. -/
def soutR1_A (c : Dev nD) (t : Fin cfg1.N) (hc0 : condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) : Vec F S2000x64 .f32 :=
  VSR1.read (Elt F) (VSR1.writes (Elt F) VSR1.junk (runAtR1_A c t hc0 hc1 x0 x1 x2 x3 x4 x5 x6).2.1)

theorem scoverR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_B c t hc0 hc1 x0 x1 x2 x3 x4 x5 x6 xs).2.1, y ∈ pc.1.set :=
  View.cover_of_tiledL (runAtR1_B c t hc0 hc1 x0 x1 x2 x3 x4 x5 x6 xs).2.1 S2000x64.size (by sl_kernel_rfl) y
/-- The accumulator after a middle edge block. -/
def soutR1_B (c : Dev nD) (t : Fin cfg1.N) (hc0 : ¬condR1_0 (grid1.coords t)) (hc1 : ¬condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR1.read (Elt F) (VSR1.writes (Elt F) VSR1.junk (runAtR1_B c t hc0 hc1 x0 x1 x2 x3 x4 x5 x6 xs).2.1)

theorem scoverR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_C c t hc0 hc1 x0 x1 x2 x3 x4 x5 x6 xs).2.1, y ∈ pc.1.set :=
  View.cover_of_tiledL (runAtR1_C c t hc0 hc1 x0 x1 x2 x3 x4 x5 x6 xs).2.1 S2000x64.size (by sl_kernel_rfl) y
/-- The accumulator after a last edge block. -/
def soutR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VSR1.read (Elt F) (VSR1.writes (Elt F) VSR1.junk (runAtR1_C c t hc0 hc1 x0 x1 x2 x3 x4 x5 x6 xs).2.1)
theorem coverR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) (y : S2000x64.Idx) :
    ∃ pc ∈ (runAtR1_C c t hc0 hc1 x0 x1 x2 x3 x4 x5 x6 xs).1, y ∈ pc.1.set :=
  View.cover_of_tiledL (runAtR1_C c t hc0 hc1 x0 x1 x2 x3 x4 x5 x6 xs).1 S2000x64.size (by sl_kernel_rfl) y
/-- The output block a last edge block stores. -/
def outR1_C (c : Dev nD) (t : Fin cfg1.N) (hc0 : ¬condR1_0 (grid1.coords t)) (hc1 : condR1_1 (grid1.coords t)) (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) : Vec F S2000x64 .f32 :=
  VOR1_7.read (Elt F) (VOR1_7.writes (Elt F) VOR1_7.junk (runAtR1_C c t hc0 hc1 x0 x1 x2 x3 x4 x5 x6 xs).1)
/-- Where the body stores no output block the window's contents are not named: a placeholder nothing consults. -/
def outIdleR1 : Vec F S2000x64 .f32 := VOR1_7.read (Elt F) VOR1_7.junk

/-! ## Point by point -/

theorem not249_of_0 {n : ℕ} (h : n % 250 = 0) : ¬n % 250 = 249 := by omega

/-- What the output window's buffer and the scratch accumulator hold after the body at point number `n`. -/
def outsAtR1 (c : Dev nD) : (n : ℕ) → n < cfg1.N → Vec F S2000x64 .f32 × Vec F S2000x64 .f32
  | 0, hn => (outIdleR1, soutR1_A c ⟨0, hn⟩ ((hcondR1_0 ⟨0, hn⟩).mpr (Nat.zero_mod _)) (fun h => not249_of_0 (Nat.zero_mod 250) ((hcondR1_1 ⟨0, hn⟩).mp h)) (iblkR1 V c 0 ⟨0, hn⟩) (iblkR1 V c 1 ⟨0, hn⟩) (iblkR1 V c 2 ⟨0, hn⟩) (iblkR1 V c 3 ⟨0, hn⟩) (iblkR1 V c 4 ⟨0, hn⟩) (iblkR1 V c 5 ⟨0, hn⟩) (iblkR1 V c 6 ⟨0, hn⟩))
  | n + 1, hn =>
    if h0 : (n + 1) % 250 = 0 then
      (outIdleR1, soutR1_A c ⟨n + 1, hn⟩ ((hcondR1_0 ⟨n + 1, hn⟩).mpr h0) (fun h => not249_of_0 h0 ((hcondR1_1 ⟨n + 1, hn⟩).mp h)) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩))
    else
      if h1 : (n + 1) % 250 = 249 then
        (outR1_C c ⟨n + 1, hn⟩ (fun h => h0 ((hcondR1_0 ⟨n + 1, hn⟩).mp h)) ((hcondR1_1 ⟨n + 1, hn⟩).mpr h1) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2,
         soutR1_C c ⟨n + 1, hn⟩ (fun h => h0 ((hcondR1_0 ⟨n + 1, hn⟩).mp h)) ((hcondR1_1 ⟨n + 1, hn⟩).mpr h1) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2)
      else
        (outIdleR1, soutR1_B c ⟨n + 1, hn⟩ (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (iblkR1 V c 2 ⟨n + 1, hn⟩) (iblkR1 V c 3 ⟨n + 1, hn⟩) (iblkR1 V c 4 ⟨n + 1, hn⟩) (iblkR1 V c 5 ⟨n + 1, hn⟩) (iblkR1 V c 6 ⟨n + 1, hn⟩) (outsAtR1 c n (Nat.lt_of_succ_lt hn)).2)

/-- At a first edge block. -/
theorem outsAtR1_A (c : Dev nD) (t : Fin cfg1.N) (h0 : t.val % 250 = 0) :
    outsAtR1 V c t.val t.isLt = (outIdleR1, soutR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)) := by
  obtain ⟨n, hn⟩ := t
  cases n with
  | zero => exact rfl
  | succ n => exact (dif_pos h0).trans rfl

/-- At a middle edge block, over what the point before left. -/
theorem outsAtR1_B (c : Dev nD) (t : Fin cfg1.N) (h0 : ¬t.val % 250 = 0) (h1 : ¬t.val % 250 = 249) :
    outsAtR1 V c t.val t.isLt = (outIdleR1, soutR1_B c t (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last edge block, over what the point before left. -/
theorem outsAtR1_C (c : Dev nD) (t : Fin cfg1.N) (h0 : ¬t.val % 250 = 0) (h1 : t.val % 250 = 249) :
    outsAtR1 V c t.val t.isLt = (outR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2,
      soutR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before point number `n`: at the launch's start the class's invariant; afterwards the scratch accumulator at what
    the point before left, the other launch's scoped buffers, the generator register at some state. -/
def PhiSR1 (c : Dev nD) : (n : ℕ) → n ≤ cfg1.N → sProp 𝕄
  | 0, _ => Pipeline.ΦA spec1 c
  | n + 1, hn => iprop(iprop(owns (c : Thread nD τ) scMR1 fullShare ((outsAtR1 V c n hn).2) ∗ restR1 c) ∗ (∃ r, prngReg c r))

theorem PhiSR1_zero (c : Dev nD) (n : ℕ) (h : n ≤ cfg1.N) (hz : n = 0) : PhiSR1 V c n h = Pipeline.ΦA spec1 c := by
  subst hz; rfl

theorem PhiSR1_succ (c : Dev nD) (n : ℕ) (hn : n < cfg1.N) :
    PhiSR1 V c (n + 1) hn = iprop(iprop(owns (c : Thread nD τ) scMR1 fullShare ((outsAtR1 V c n hn).2) ∗ restR1 c) ∗ (∃ r, prngReg c r)) := rfl

theorem PhiSR1_pos (c : Dev nD) (n : ℕ) (h : n ≤ cfg1.N) (hz : n ≠ 0) :
    PhiSR1 V c n h = iprop(iprop(owns (c : Thread nD τ) scMR1 fullShare ((outsAtR1 V c (n - 1) (by omega)).2) ∗ restR1 c) ∗ (∃ r, prngReg c r)) := by
  cases n with
  | zero => exact absurd rfl hz
  | succ n => rfl

/-! ## The proof data -/

/-- The launch's proof data on core `c`: the arrays as the region finds them; after the body each input's buffer at
    its block, the output's at `outsAtR1`'s first component; the invariant `PhiSR1`; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => iblkR1 V c 6 t
    | ⟨7, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = iblkR1 V c 6 t := by dsimp only [datR1]
theorem afterR1_7 (c : Dev nD) (t : Fin cfg1.N) : (datR1 V c).after 7 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d
theorem beforeR1_6 (c : Dev nD) (t : Fin cfg1.N) (d) : (datR1 V c).before 6 t d = iblkR1 V c 6 t :=
  beforeR1_6_of V (datR1 V c) (A_eqR1 V c 6) (afterR1_6 V c) t d

/-! ## The body obligation -/

/-- What the body is called with at point `t`. -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

/-- What it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t
    ∗ (datR1 V c).leavesExact 5 t
    ∗ (datR1 V c).leavesExact 6 t
    ∗ (datR1 V c).leavesExact 7 t)

theorem leavesR1_0 (c : Dev nD) (t : Fin cfg1.N) : (datR1 V c).leavesExact 0 t = owns (c : Thread nD τ) (msR1_0 t) fullShare (iblkR1 V c 0 t) := by
  unfold Dat.leavesExact; rw [show cfg1.idle 0 (cfg1.grid.coords t) = false from rfl, afterR1_0]; try rfl
theorem leavesR1_1 (c : Dev nD) (t : Fin cfg1.N) : (datR1 V c).leavesExact 1 t = owns (c : Thread nD τ) (msR1_1 t) fullShare (iblkR1 V c 1 t) := by
  unfold Dat.leavesExact; rw [show cfg1.idle 1 (cfg1.grid.coords t) = false from rfl, afterR1_1]; try rfl
theorem leavesR1_2 (c : Dev nD) (t : Fin cfg1.N) : (datR1 V c).leavesExact 2 t = owns (c : Thread nD τ) (msR1_2 t) fullShare (iblkR1 V c 2 t) := by
  unfold Dat.leavesExact; rw [show cfg1.idle 2 (cfg1.grid.coords t) = false from rfl, afterR1_2]; try rfl
theorem leavesR1_3 (c : Dev nD) (t : Fin cfg1.N) : (datR1 V c).leavesExact 3 t = owns (c : Thread nD τ) (msR1_3 t) fullShare (iblkR1 V c 3 t) := by
  unfold Dat.leavesExact; rw [show cfg1.idle 3 (cfg1.grid.coords t) = false from rfl, afterR1_3]; try rfl
theorem leavesR1_4 (c : Dev nD) (t : Fin cfg1.N) : (datR1 V c).leavesExact 4 t = owns (c : Thread nD τ) (msR1_4 t) fullShare (iblkR1 V c 4 t) := by
  unfold Dat.leavesExact; rw [show cfg1.idle 4 (cfg1.grid.coords t) = false from rfl, afterR1_4]; try rfl
theorem leavesR1_5 (c : Dev nD) (t : Fin cfg1.N) : (datR1 V c).leavesExact 5 t = owns (c : Thread nD τ) (msR1_5 t) fullShare (iblkR1 V c 5 t) := by
  unfold Dat.leavesExact; rw [show cfg1.idle 5 (cfg1.grid.coords t) = false from rfl, afterR1_5]; try rfl
theorem leavesR1_6 (c : Dev nD) (t : Fin cfg1.N) : (datR1 V c).leavesExact 6 t = owns (c : Thread nD τ) (msR1_6 t) fullShare (iblkR1 V c 6 t) := by
  unfold Dat.leavesExact; rw [show cfg1.idle 6 (cfg1.grid.coords t) = false from rfl, afterR1_6]; try rfl

/-! ## The body at any point -/

set_option maxHeartbeats 8000000 in
/-- The inputs' memrefs hold their blocks; the closed forms say which case the point is in; the invariant hands the body
    the accumulator at what the point before left (at anything before the first point) and takes it back at this
    point's contents; off the last edge block the output window's buffer passes through untouched. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3, beforeR1_4, beforeR1_5, beforeR1_6]
  rw [show (datR1 V c).owesAt () t.succ = (datR1 V c).owesAt () t.castSucc from rfl]
  rw [show (datR1 V c).Φ t.succ = PhiSR1 V c (t.val + 1) t.isLt from rfl, PhiSR1_succ]
  rw [leavesR1_0, leavesR1_1, leavesR1_2, leavesR1_3, leavesR1_4, leavesR1_5, leavesR1_6]
  have hN : t.val < 6250 := lt_of_lt_of_eq t.isLt (show cfg1.N = 6250 from N_1)
  by_cases h0 : t.val % 250 = 0
  · have h1 : ¬t.val % 250 = 249 := not249_of_0 h0
    rw [Dat.leavesExact_idle (datR1 V c) 7 t (idleAtR1_7 t (fun h => h1 ((hcondR1_1 t).mp h))) (noFlushR1_7 t (fun h => h1 ((hcondR1_1 t).mp h)))]
    rw [outsAtR1_A V c t h0]
    unfold soutR1_A; (try dsimp only)
    by_cases hz : t.val = 0
    · rw [PhiSR1_castSucc V c t, PhiSR1_zero V c _ _ hz, PhiAR1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_A c t ((hcondR1_0 t).mpr h0) (fun h => not249_of_0 h0 ((hcondR1_1 t).mp h)) (iblkR1 V c 0 t) (iblkR1 V c 1 t) (iblkR1 V c 2 t) (iblkR1 V c 3 t) (iblkR1 V c 4 t) (iblkR1 V c 5 t) (iblkR1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_A c t _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 250 = 249
    · rw [show (datR1 V c).leavesExact 7 t = owns (c : Thread nD τ) (msR1_7 t) fullShare ((datR1 V c).after 7 t) from by
        unfold Dat.leavesExact; rw [liveAtR1_7 t ((hcondR1_1 t).mpr h1)], afterR1_7]
      rw [outsAtR1_C V c t h0 h1]
      unfold outR1_C soutR1_C; (try dsimp only)
      rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_C c t (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) (iblkR1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_C c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverR1_C c t _ _ _ _ _ _ _ _ _ _)
    · rw [Dat.leavesExact_idle (datR1 V c) 7 t (idleAtR1_7 t (fun h => h1 ((hcondR1_1 t).mp h))) (noFlushR1_7 t (fun h => h1 ((hcondR1_1 t).mp h)))]
      rw [outsAtR1_B V c t h0 h1]
      unfold soutR1_B; (try dsimp only)
      rw [PhiSR1_castSucc V c t, PhiSR1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAtR1_B c t (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) (iblkR1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scoverR1_B c t _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After the last point the invariant gives the class's back: the accumulator's contents are forgotten. -/
theorem houtR1 (c : Dev nD) : (datR1 V c).Φ (Fin.last cfg1.N) ⊢ Pipeline.ΦA spec1 c := by
  have ht : (Fin.last cfg1.N).val ≠ 0 := by rw [Fin.val_last]; have : cfg1.N = 6250 := N_1; omega
  rw [show (datR1 V c).Φ (Fin.last cfg1.N) = PhiSR1 V c (Fin.last cfg1.N).val (Nat.le_of_lt_succ (Fin.last cfg1.N).isLt) from rfl,
    PhiSR1_pos V c _ _ ht, PhiAR1_eq]
  iintro ⟨⟨HS, Hrest⟩, Hg⟩
  isplitl [HS Hrest]
  · isplitl [HS]
    · iexists _; iexact HS
    iexact Hrest
  iexact Hg

end Body

end Cert.KernelIdeal.Hand

end
-- ==== Proof.FrameIdeal.Launch.lean ====
/-
  The run of the whole program: eight items in order — five stretches of host operations, the first launch, one more
  stretch, the second launch.

  The contents of a core's unscoped buffers at each of the nine boundaries are a fold from the launch memory
  (`W0` … `W8`): a stretch takes a boundary's contents to `StableHlo.after` of its operations; a launch leaves its
  windows' arrays at what its write-backs fold to (`Dat.arrAt … N`) and every other buffer as entered. Each launch's
  proof data are taken at the contents its region is entered with. No stretch writes an argument and no launch
  writes back into one (an argument is an input window's array or is bypassed), so the fold at an argument walks
  back to the launch memory; the fold at the second launch's output array is that launch's last write-back fold.

  Each item is a segment over the thread state "every unscoped buffer at the boundary's contents, the generator
  register at some state, nothing owed"; the launch theorem over the eight segments reads the last boundary's
  contents off every final state (`run_all`). The frame and the value statement follow by reading single buffers.
-/
import proofs.«402184_j37915971289911_2_alg».proof.Proof.FrameIdeal.Body0
import proofs.«402184_j37915971289911_2_alg».proof.Proof.FrameIdeal.Body1
import proofs.«402184_j37915971289911_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 (ρ : Dev nD → PrngReg) : Dev nD → Valuation τ sig (Elt F) := fun c b => m (c, b)
/-- After the first stretch. -/
abbrev W1 : Dev nD → Valuation τ sig (Elt F) := fun c => StableHlo.after hostOps0 (W0 m ρ c)
/-- After the second stretch (the first clamp). -/
abbrev W2 : Dev nD → Valuation τ sig (Elt F) := fun c => StableHlo.after hostOps0_1 (W1 m ρ c)
/-- After the third stretch. -/
abbrev W3 : Dev nD → Valuation τ sig (Elt F) := fun c => StableHlo.after hostOps0_2 (W2 m ρ c)
/-- After the fourth stretch (the second clamp). -/
abbrev W4 : Dev nD → Valuation τ sig (Elt F) := fun c => StableHlo.after hostOps0_3 (W3 m ρ c)
/-- After the fifth stretch: what the first launch is entered with. -/
abbrev W5 : Dev nD → Valuation τ sig (Elt F) := fun c => StableHlo.after hostOps0_4 (W4 m ρ c)
/-- The same read at the TensorCore's references (what the first launch's proof data take). -/
abbrev E5 : (c : Dev nD) → (b : Ref sig .tc) → Buf (Elt F) ((c : Thread nD τ).loc b) := fun c b => W5 m ρ c b
/-- At the first launch's exit: its windows' arrays at what the write-backs fold to (an input's array as entered),
    every other buffer as entered. -/
def W6 (c : Dev nD) : Valuation τ sig (Elt F) :=
  Pipeline.withArrays spec0 c (W5 m ρ c) fun w => (datR0 (E5 m ρ) c).arrAt w cfg0.N
theorem W6_arr (c : Dev nD) (w : Fin cfg0.W) :
    W6 m ρ c (Proc.devRef .tc (Pipeline.arrRef spec0 w)) = (datR0 (E5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the first launch's exit contents). -/
abbrev E6 : (c : Dev nD) → (b : Ref sig .tc) → Buf (Elt F) ((c : Thread nD τ).loc b) := fun c b => W6 m ρ c b
/-- At the first launch's exit each of its arrays holds its write-back fold, -/
theorem hF0 (c : Dev nD) (w : Fin cfg0.W) : (datR0 (E5 m ρ) c).arrAt w cfg0.N = E6 m ρ c (Pipeline.arrRef spec0 w) :=
  (W6_arr m ρ c w).symm
/-- and every other buffer what it held at entry. -/
theorem hrest0 (c : Dev nD) : ∀ b, b ∉ Finset.univ.image (Pipeline.arrRef spec0) → E6 m ρ c b = E5 m ρ c b :=
  fun b hb => W6_of_ne m ρ c b fun w e => hb (Finset.mem_image.mpr ⟨w, Finset.mem_univ _, e⟩)

/-- After the sixth stretch: what the second launch is entered with. -/
abbrev W7 : Dev nD → Valuation τ sig (Elt F) := fun c => StableHlo.after hostOps1 (W6 m ρ c)
/-- The same read at the TensorCore's references (what the second launch's proof data take). -/
abbrev E7 : (c : Dev nD) → (b : Ref sig .tc) → Buf (Elt F) ((c : Thread nD τ).loc b) := fun c b => W7 m ρ c b
theorem E7_eq (c : Dev nD) (b : Ref sig .tc) : E7 m ρ c b = W7 m ρ c (Proc.devRef .tc b) := rfl
theorem E5_eq (c : Dev nD) (b : Ref sig .tc) : E5 m ρ c b = W5 m ρ c (Proc.devRef .tc b) := rfl
/-- At the second launch's exit: its windows' arrays at what the write-backs fold to, every other buffer as entered. -/
def W8 (c : Dev nD) : Valuation τ sig (Elt F) :=
  Pipeline.withArrays spec1 c (W7 m ρ c) fun w => (datR1 (E7 m ρ) c).arrAt w cfg1.N
theorem W8_arr (c : Dev nD) (w : Fin cfg1.W) :
    W8 m ρ c (Proc.devRef .tc (Pipeline.arrRef spec1 w)) = (datR1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (the second launch's exit contents). -/
abbrev E8 : (c : Dev nD) → (b : Ref sig .tc) → Buf (Elt F) ((c : Thread nD τ).loc b) := fun c b => W8 m ρ c b
theorem hF1 (c : Dev nD) (w : Fin cfg1.W) : (datR1 (E7 m ρ) c).arrAt w cfg1.N = E8 m ρ c (Pipeline.arrRef spec1 w) :=
  (W8_arr m ρ c w).symm
theorem hrest1 (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

/-! ### The output arrays: each launch's last write-back fold -/

theorem W6_main_v20 (c : Dev nD) : W6 m ρ c (Proc.devRef .tc main_v20) = (datR0 (E5 m ρ) c).arrAt 7 cfg0.N :=
  W6_arr m ρ c 7
theorem W8_main_v29 (c : Dev nD) : W8 m ρ c (Proc.devRef .tc main_v29) = (datR1 (E7 m ρ) c).arrAt 7 cfg1.N :=
  W8_arr m ρ c 7

/-! ### The arguments end as launched

No stretch writes an argument; a launch reads one through an input window, whose array its write-back fold leaves as
entered, or bypasses it. So the fold at an argument's buffer walks back to the launch memory. -/

/-- A buffer none of the first five stretches writes holds its launch contents when the first launch is entered. -/
theorem W5_of (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  calc W5 m ρ c (Proc.devRef .tc r)
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl
/-- A buffer the sixth stretch does not write is as the first launch left it when the second is entered. -/
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- The first launch leaves the array of an input window as entered. -/
theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((datR0 (E5 m ρ) c).arrAt_in w hin _).trans (A_eqR0 (E5 m ρ) c w))
/-- The second launch leaves the array of an input window as entered. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((datR1 (E7 m ρ) c).arrAt_in w hin _).trans (A_eqR1 (E7 m ρ) c w))

/-- `main_arg0` is the array of the first launch's input window 3 and no array of the second's. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_in m ρ c 3 rfl
    _ = m ((c : Thread nD τ).loc main_arg0) := W5_of m ρ c main_arg0 (by decide) (by decide) (by decide) (by decide) (by decide)
/-- `main_arg1` is no window's array. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = m ((c : Thread nD τ).loc main_arg1) := W5_of m ρ c main_arg1 (by decide) (by decide) (by decide) (by decide) (by decide)
/-- `main_arg2` is the array of the first launch's input window 4 and no array of the second's. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_in m ρ c 4 rfl
    _ = m ((c : Thread nD τ).loc main_arg2) := W5_of m ρ c main_arg2 (by decide) (by decide) (by decide) (by decide) (by decide)
/-- `main_arg3` is no window's array. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = m ((c : Thread nD τ).loc main_arg3) := W5_of m ρ c main_arg3 (by decide) (by decide) (by decide) (by decide) (by decide)
/-- `main_arg4` is the array of the first launch's input window 6 and no array of the second's. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_in m ρ c 6 rfl
    _ = m ((c : Thread nD τ).loc main_arg4) := W5_of m ρ c main_arg4 (by decide) (by decide) (by decide) (by decide) (by decide)
/-- `main_arg5` is the array of the second launch's input window 4 and no array of the first's. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_in m ρ c 4 rfl
    _ = W6 m ρ c (Proc.devRef .tc main_arg5) := W7_of m ρ c main_arg5 (by decide)
    _ = W5 m ρ c (Proc.devRef .tc main_arg5) := W6_of_ne m ρ c main_arg5 (by decide)
    _ = m ((c : Thread nD τ).loc main_arg5) := W5_of m ρ c main_arg5 (by decide) (by decide) (by decide) (by decide) (by decide)
/-- `main_arg6` is no window's array. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = m ((c : Thread nD τ).loc main_arg6) := W5_of m ρ c main_arg6 (by decide) (by decide) (by decide) (by decide) (by decide)
/-- `main_arg7` is the array of the second launch's input window 6 and no array of the first's. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_in m ρ c 6 rfl
    _ = W6 m ρ c (Proc.devRef .tc main_arg7) := W7_of m ρ c main_arg7 (by decide)
    _ = W5 m ρ c (Proc.devRef .tc main_arg7) := W6_of_ne m ρ c main_arg7 (by decide)
    _ = m ((c : Thread nD τ).loc main_arg7) := W5_of m ρ c main_arg7 (by decide) (by decide) (by decide) (by decide) (by decide)

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => datR0 (E5 m ρ) c
  | ⟨1, _⟩ => fun c => datR1 (E7 m ρ) c
/-- No counted-loop variant is in force. -/
abbrev runV : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state (a launch's
    invariant takes it in and gives it back) and the record that the core owes nothing. -/
abbrev rideR (c : Dev nD) : sProp 𝕄 := iprop((∃ r, prngReg c r) ∗ ∃ W, owes (c : Thread nD τ) (0 : CellTallies nD τ sig Unit) W)
/-- A stretch of host operations as a segment: over the unscoped references from the contents `W`, `rideR` riding
    along; it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runV runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideR

/-- An unscoped TensorCore reference is among those the thread state holds. -/
theorem mem_ucRefs_tc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the last boundary's
    contents `W8`, the generator register at some state. -/
abbrev lastT (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- THE FIRST LAUNCH over the thread state: entered from every unscoped buffer at `W5`, left at `W6`. Its arrays
    are split out of the unscoped buffers and put back at the exit contents; the generator register goes into the
    launch's invariant and comes back; nothing is owed; the kernel has no semaphore of its own. -/
def reg0 : Pipeline.RegionSeg (pcfgs (F := F)) adm (pdats m ρ) () defs₀ runV runL runLv 0 where
  win := launch0.win.to₀
  block_pos := launch0.block_pos
  stage_whole := launch0.stage_whole
  K := PEmpty
  osem k := k.elim
  ho := Pipeline.OwnSemFacts.none _
  hbody c := (body_obligationR0 (E5 m ρ) c).loose
  hwaits := Pipeline.hwaits_of_owed_zero _ _ _ _ runL runLv 0 fun _ _ => rfl
  pre c := iprop(StableHlo.held (c : Thread nD τ) (Pipeline.ucRefs τ sig) (W5 m ρ c) ∗ rideR c)
  post c := iprop(StableHlo.held (c : Thread nD τ) (Pipeline.ucRefs τ sig) (W6 m ρ c) ∗ rideR c)
  X c := iprop(∃ r, prngReg c r)
  Y c := iprop(∃ r, prngReg c r)
  Z c := Pipeline.unscopedRest (Ix := Unit) (Name := ℕ) (U := UR sig nD τ) (Lvl := ℕ) spec0 c (E5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (E5 m ρ) c)
    unfold Pipeline.ΦA
    iintro ⟨Hp, -, Hr⟩
    isplitl [Hr]; · iexact Hr
    iexact Hp
  hout c := by
    rw [Pipeline.ownSems0_none]
    refine BIBase.Entails.trans (houtR0 (E5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `W7`, left at `W8` (what the
    final state is read against), in the same way. -/
def reg1 : Pipeline.RegionSeg (pcfgs (F := F)) adm (pdats m ρ) () defs₀ runV runL runLv 1 where
  win := launch1.win.to₀
  block_pos := launch1.block_pos
  stage_whole := launch1.stage_whole
  K := PEmpty
  osem k := k.elim
  ho := Pipeline.OwnSemFacts.none _
  hbody c := (body_obligationR1 (E7 m ρ) c).loose
  hwaits := Pipeline.hwaits_of_owed_zero _ _ _ _ runL runLv 1 fun _ _ => rfl
  pre c := iprop(StableHlo.held (c : Thread nD τ) (Pipeline.ucRefs τ sig) (W7 m ρ c) ∗ rideR c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (E7 m ρ) c)
    unfold Pipeline.ΦA
    iintro ⟨Hp, -, Hr⟩
    isplitl [Hr]; · iexact Hr
    iexact Hp
  hout c := by
    rw [Pipeline.ownSems0_none]
    refine BIBase.Entails.trans (houtR1 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E7 m ρ c) (E8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 8 segments in order: a host segment per stretch from its boundary's contents, a region per launch. -/
abbrev runSegs : List (Pipeline.Seg (pcfgs (F := F)) adm (pdats m ρ) () defs₀ runV runL runLv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ) ]
/-- The program is the run of the segments: it is the chain of its items, and the segments' run is that chain. -/
theorem main_run (c : Dev nD) : main (F := F) c = Pipeline.Seg.run (runSegs m ρ) := (main_chain c).trans (by chain_rfl)

set_option backward.isDefEq.respectTransparency.types false in
/-- THE RUN: at the compiled mesh, from any memory with zero counters, every weakly fair execution of the program on
    the TensorCores terminates, nothing faulting, and every final state has every unscoped buffer of every core at the
    last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ runV runL runLv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rideR c)) (Tₙ := lastT m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! ## Single buffers read off the run -/

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs_tc main_arg0 (by decide))).trans (W8_main_arg0 m ρ c),
     (h c _ (mem_ucRefs_tc main_arg1 (by decide))).trans (W8_main_arg1 m ρ c),
     (h c _ (mem_ucRefs_tc main_arg2 (by decide))).trans (W8_main_arg2 m ρ c),
     (h c _ (mem_ucRefs_tc main_arg3 (by decide))).trans (W8_main_arg3 m ρ c),
     (h c _ (mem_ucRefs_tc main_arg4 (by decide))).trans (W8_main_arg4 m ρ c),
     (h c _ (mem_ucRefs_tc main_arg5 (by decide))).trans (W8_main_arg5 m ρ c),
     (h c _ (mem_ucRefs_tc main_arg6 (by decide))).trans (W8_main_arg6 m ρ c),
     (h c _ (mem_ucRefs_tc main_arg7 (by decide))).trans (W8_main_arg7 m ρ c)⟩) (run_all m ρ)

/-- THE VALUE RUN: the result array ends at the second launch's last write-back fold, every argument as launched. -/
theorem value_run : θ_run defs (onTc (τ := τ) (main (F := F))) ⟨m, fun _ => 0, ρ⟩ (fun r => ∀ c : Dev nD,
      r.2.mem ((c.tc : Thread nD τ).loc main_v29) = (datR1 (E7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs_tc main_v29 (by decide))).trans (W8_main_v29 m ρ c),
     (h c _ (mem_ucRefs_tc main_arg0 (by decide))).trans (W8_main_arg0 m ρ c),
     (h c _ (mem_ucRefs_tc main_arg1 (by decide))).trans (W8_main_arg1 m ρ c),
     (h c _ (mem_ucRefs_tc main_arg2 (by decide))).trans (W8_main_arg2 m ρ c),
     (h c _ (mem_ucRefs_tc main_arg3 (by decide))).trans (W8_main_arg3 m ρ c),
     (h c _ (mem_ucRefs_tc main_arg4 (by decide))).trans (W8_main_arg4 m ρ c),
     (h c _ (mem_ucRefs_tc main_arg5 (by decide))).trans (W8_main_arg5 m ρ c),
     (h c _ (mem_ucRefs_tc main_arg6 (by decide))).trans (W8_main_arg6 m ρ c),
     (h c _ (mem_ucRefs_tc main_arg7 (by decide))).trans (W8_main_arg7 m ρ c)⟩) (run_all m ρ)

end Cert.KernelIdeal.Hand

end
-- ==== Proof.Glue.lean ====
/-
  What the host operations of the kernel's program put in the operand arrays of its two kernel launches.

  Before the first launch the program reads the two rows of the edge array (row 0 the edges' source nodes, row 1
  their destinations), clamps each row to `[0, 49999]`, counts for every node the edges that end in it (a scatter
  of ones over a zero vector), gathers the source node's feature row for every edge, and reshapes the destination
  row, the counts and the first bias. Between the two launches it gathers again, from the first launch's result
  and with the same index computation, and reshapes the second bias.

  Every statement here reads a fold of host operations at one array; none does arithmetic. The gather and the
  scatter are left as the functions the program names.
-/
import proofs.«402184_j37915971289911_2_alg».proof.Proof.Gen.KernelIdeal.Launch
import proofs.«402184_j37915971289911_2_alg».proof.Proof.Gen.KernelIdeal.Regions
import Idealize.ShloMosaic.Lib.StableHlo.Run

set_option maxRecDepth 16384

noncomputable section

namespace Cert.Sage.Glue

open Cert.KernelIdeal Cert.KernelIdeal.Gen Idealize.ShloMosaic
open Idealize.ShloMosaic.TcCoe

variable {F : FTy → Type} [FloatOps F]
variable [Cert.KernelIdeal.Facts]

/-! ## The arrays before each launch -/

/-- A core's arrays when the first kernel launch starts: the five stretches of host operations before it, in order. -/
abbrev pre0 (X : Valuation τ sig (Elt F)) : Valuation τ sig (Elt F) :=
  StableHlo.after hostOps0_4 (StableHlo.after hostOps0_3 (StableHlo.after hostOps0_2 (StableHlo.after hostOps0_1
    (StableHlo.after hostOps0 X))))

/-- A core's arrays when the second kernel launch starts, from what the first left: the stretch between the two. -/
abbrev pre1 (Y : Valuation τ sig (Elt F)) : Valuation τ sig (Elt F) := StableHlo.after hostOps1 Y

/-! ## The index computations -/

/-- Row 0 of the edge array (the source nodes), every entry clamped to `[0, 49999]`. -/
def srcClip (e1 : IVec S2x800000 32) : IVec S800000 32 :=
  minsi (broadcastInDim S800000 ![] bcast_S_S800000 (constantI S_ 32 49999#32))
    (maxsi (broadcastInDim S800000 ![] bcast_S_S800000 (constantI S_ 32 0#32))
      (shapeCast S800000 (extractStridedSlice S1x800000 ![0, 0] e1 slices_S2x800000_S1x800000_0_0)
        shapeCasts_S1x800000_S800000))

/-- Row 1 of the edge array (the destination nodes), every entry clamped to `[0, 49999]`. -/
def dstClip (e1 : IVec S2x800000 32) : IVec S800000 32 :=
  minsi (broadcastInDim S800000 ![] bcast_S_S800000 (constantI S_ 32 49999#32))
    (maxsi (broadcastInDim S800000 ![] bcast_S_S800000 (constantI S_ 32 0#32))
      (shapeCast S800000 (extractStridedSlice S1x800000 ![1, 0] e1 slices_S2x800000_S1x800000_1_0)
        shapeCasts_S1x800000_S800000))

/-- The gather's index column from a vector of node numbers: a negative number is moved up by 50000, and the vector
    is laid out as one column. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The gather's index column of the clamped source nodes. -/
def srcIdxK (e1 : IVec S2x800000 32) : IVec S800000x1 32 :=
  broadcastInDim S800000x1 ![0] bcast_S800000_S800000x1_0
    (select (cmpi .slt (srcClip e1) (broadcastInDim S800000 ![] bcast_S_S800000 (constantI S_ 32 0#32)))
      (addi (srcClip e1) (broadcastInDim S800000 ![] bcast_S_S800000 (constantI S_ 32 50000#32))) (srcClip e1))

/-- `srcIdxK` is `wrapIdx` of the clamped source nodes. -/
theorem srcIdxK_eq (e1 : IVec S2x800000 32) : srcIdxK e1 = wrapIdx (srcClip e1) := rfl

/-- The node degrees: over a zero vector, a one added at the clamped destination of every edge. -/
def cntK (e1 : IVec S2x800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dstClip e1))
    (broadcastInDim S800000 ![] bcast_S_S800000 (constant S_ .f32 0x3F800000#32))

/-! ## A stretch leaves alone what it does not write -/

section Skip
variable (V : Valuation τ sig (Elt F)) (r : Ref sig .tc)

theorem skip0 (h : r ∉ hostOps0_W) : StableHlo.after hostOps0 V (Proc.devRef .tc r : DevRef τ sig) = V (Proc.devRef .tc r : DevRef τ sig) :=
  StableHlo.after_of_writes_sub hostOps0 V hostOps0_writes h
theorem skip1 (h : r ∉ hostOps0_1_W) : StableHlo.after hostOps0_1 V (Proc.devRef .tc r : DevRef τ sig) = V (Proc.devRef .tc r : DevRef τ sig) :=
  StableHlo.after_of_writes_sub hostOps0_1 V hostOps0_1_writes h
theorem skip2 (h : r ∉ hostOps0_2_W) : StableHlo.after hostOps0_2 V (Proc.devRef .tc r : DevRef τ sig) = V (Proc.devRef .tc r : DevRef τ sig) :=
  StableHlo.after_of_writes_sub hostOps0_2 V hostOps0_2_writes h
theorem skip3 (h : r ∉ hostOps0_3_W) : StableHlo.after hostOps0_3 V (Proc.devRef .tc r : DevRef τ sig) = V (Proc.devRef .tc r : DevRef τ sig) :=
  StableHlo.after_of_writes_sub hostOps0_3 V hostOps0_3_writes h
theorem skip4 (h : r ∉ hostOps0_4_W) : StableHlo.after hostOps0_4 V (Proc.devRef .tc r : DevRef τ sig) = V (Proc.devRef .tc r : DevRef τ sig) :=
  StableHlo.after_of_writes_sub hostOps0_4 V hostOps0_4_writes h
theorem skip5 (h : r ∉ hostOps1_W) : StableHlo.after hostOps1 V (Proc.devRef .tc r : DevRef τ sig) = V (Proc.devRef .tc r : DevRef τ sig) :=
  StableHlo.after_of_writes_sub hostOps1 V hostOps1_writes h

end Skip

/-! ## Each stretch read at the arrays it writes, over any arrays it starts from -/

section Stretch
variable (V : Valuation τ sig (Elt F))

/-- Stretch 0: row 0 of the edge array as a vector. -/
theorem s0_v1 : StableHlo.after hostOps0 V (Proc.devRef .tc main_v1 : DevRef τ sig)
    = shapeCast S800000 (extractStridedSlice S1x800000 ![0, 0] (V (Proc.devRef .tc main_arg1 : DevRef τ sig)) slices_S2x800000_S1x800000_0_0)
        shapeCasts_S1x800000_S800000 := by
  after_results; rfl
/-- Stretch 0: the clamp's lower bound. -/
theorem s0_c : StableHlo.after hostOps0 V (Proc.devRef .tc main_c : DevRef τ sig) = constantI S_ 32 0#32 := by
  after_results
/-- Stretch 0: the clamp's upper bound. -/
theorem s0_c_0 : StableHlo.after hostOps0 V (Proc.devRef .tc main_c_0 : DevRef τ sig) = constantI S_ 32 49999#32 := by
  after_results

/-- Stretch 1 (the clamp, inlined): the bounds broadcast, the maximum, the minimum. -/
theorem s1_v2 : StableHlo.after hostOps0_1 V (Proc.devRef .tc main_v2 : DevRef τ sig)
    = minsi (broadcastInDim S800000 ![] bcast_S_S800000 (V (Proc.devRef .tc main_c_0 : DevRef τ sig)))
        (maxsi (broadcastInDim S800000 ![] bcast_S_S800000 (V (Proc.devRef .tc main_c : DevRef τ sig))) (V (Proc.devRef .tc main_v1 : DevRef τ sig))) := by
  after_results; rfl

/-- Stretch 2: row 1 of the edge array as a vector. -/
theorem s2_v4 : StableHlo.after hostOps0_2 V (Proc.devRef .tc main_v4 : DevRef τ sig)
    = shapeCast S800000 (extractStridedSlice S1x800000 ![1, 0] (V (Proc.devRef .tc main_arg1 : DevRef τ sig)) slices_S2x800000_S1x800000_1_0)
        shapeCasts_S1x800000_S800000 := by
  after_results; rfl
theorem s2_c_1 : StableHlo.after hostOps0_2 V (Proc.devRef .tc main_c_1 : DevRef τ sig) = constantI S_ 32 0#32 := by
  after_results
theorem s2_c_2 : StableHlo.after hostOps0_2 V (Proc.devRef .tc main_c_2 : DevRef τ sig) = constantI S_ 32 49999#32 := by
  after_results

/-- Stretch 3 (the clamp, inlined a second time). -/
theorem s3_v5 : StableHlo.after hostOps0_3 V (Proc.devRef .tc main_v5 : DevRef τ sig)
    = minsi (broadcastInDim S800000 ![] bcast_S_S800000 (V (Proc.devRef .tc main_c_2 : DevRef τ sig)))
        (maxsi (broadcastInDim S800000 ![] bcast_S_S800000 (V (Proc.devRef .tc main_c_1 : DevRef τ sig))) (V (Proc.devRef .tc main_v4 : DevRef τ sig))) := by
  after_results; rfl

/-- Stretch 4: the clamped destinations as one row. -/
theorem s4_v6 : StableHlo.after hostOps0_4 V (Proc.devRef .tc main_v6 : DevRef τ sig)
    = shapeCast S1x800000 (V (Proc.devRef .tc main_v5 : DevRef τ sig)) shapeCasts_S800000_S1x800000 := by
  after_results; rfl
/-- Stretch 4: the degrees as one column. -/
theorem s4_v11 : StableHlo.after hostOps0_4 V (Proc.devRef .tc main_v11 : DevRef τ sig)
    = shapeCast S50000x1 (Host.scatterAdd scatter_S50000_S800000x1_S800000_n_0_0_1
        (broadcastInDim S50000 ![] bcast_S_S50000 (constant (F := F) S_ .f32 0x00000000#32))
        (broadcastInDim S800000x1 ![0] bcast_S800000_S800000x1_0 (V (Proc.devRef .tc main_v5 : DevRef τ sig)))
        (broadcastInDim S800000 ![] bcast_S_S800000 (constant (F := F) S_ .f32 0x3F800000#32))) shapeCasts_S50000_S50000x1 := by
  after_results; rfl
/-- Stretch 4: the gather of the features at the clamped sources. -/
theorem s4_v18 : StableHlo.after hostOps0_4 V (Proc.devRef .tc main_v18 : DevRef τ sig)
    = Host.gather gather_S50000x64_S800000x1_S800000x64_1_0_n_n_0_1_164 (V (Proc.devRef .tc main_arg0 : DevRef τ sig)) (wrapIdx (V (Proc.devRef .tc main_v2 : DevRef τ sig))) := by
  after_results; rfl
/-- Stretch 4: the first bias as one row. -/
theorem s4_v19 : StableHlo.after hostOps0_4 V (Proc.devRef .tc main_v19 : DevRef τ sig)
    = shapeCast S1x64 (V (Proc.devRef .tc main_arg3 : DevRef τ sig)) shapeCasts_S64_S1x64 := by
  after_results; rfl

/-- The stretch between the launches: the gather from the first launch's result. -/
theorem s5_v27 : StableHlo.after hostOps1 V (Proc.devRef .tc main_v27 : DevRef τ sig)
    = Host.gather gather_S50000x64_S800000x1_S800000x64_1_0_n_n_0_1_164 (V (Proc.devRef .tc main_v20 : DevRef τ sig)) (wrapIdx (V (Proc.devRef .tc main_v2 : DevRef τ sig))) := by
  after_results; rfl
/-- The stretch between the launches: the second bias as one row. -/
theorem s5_v28 : StableHlo.after hostOps1 V (Proc.devRef .tc main_v28 : DevRef τ sig)
    = shapeCast S1x64 (V (Proc.devRef .tc main_arg6 : DevRef τ sig)) shapeCasts_S64_S1x64 := by
  after_results; rfl

end Stretch

/-! ## Before the first launch -/

section Pre0
variable (X : Valuation τ sig (Elt F))

/-- The clamped sources: written by stretch 1 from what stretch 0 left, untouched afterwards. -/
theorem pre0_v2 : pre0 X (Proc.devRef .tc main_v2 : DevRef τ sig) = srcClip (X (Proc.devRef .tc main_arg1 : DevRef τ sig)) :=
  (skip4 _ main_v2 (by decide)).trans <| (skip3 _ main_v2 (by decide)).trans <| (skip2 _ main_v2 (by decide)).trans <|
    (s1_v2 _).trans (by rw [s0_c_0, s0_c, s0_v1]; rfl)

/-- The clamped destinations before stretch 4: written by stretch 3 from what stretch 2 left; stretches 0 and 1 do
    not write the edge array. -/
theorem pre0_v5_aux : StableHlo.after hostOps0_3 (StableHlo.after hostOps0_2 (StableHlo.after hostOps0_1
      (StableHlo.after hostOps0 X))) (Proc.devRef .tc main_v5 : DevRef τ sig) = dstClip (X (Proc.devRef .tc main_arg1 : DevRef τ sig)) :=
  (s3_v5 _).trans (by
    rw [s2_c_2, s2_c_1, s2_v4, skip1 _ main_arg1 (by decide), skip0 _ main_arg1 (by decide)]; rfl)

/-- Operand 0 of both launches: the clamped destinations as one row. -/
theorem pre0_v6 : pre0 X (Proc.devRef .tc main_v6 : DevRef τ sig)
    = shapeCast S1x800000 (dstClip (X (Proc.devRef .tc main_arg1 : DevRef τ sig))) shapeCasts_S800000_S1x800000 :=
  (s4_v6 _).trans (by rw [pre0_v5_aux])

/-- Operand 2 of both launches: the degrees as one column. -/
theorem pre0_v11 : pre0 X (Proc.devRef .tc main_v11 : DevRef τ sig)
    = shapeCast S50000x1 (cntK (F := F) (X (Proc.devRef .tc main_arg1 : DevRef τ sig))) shapeCasts_S50000_S50000x1 :=
  (s4_v11 _).trans (by rw [pre0_v5_aux]; rfl)

/-- Operand 1 of the first launch: the features gathered at the clamped sources. -/
theorem pre0_v18 : pre0 X (Proc.devRef .tc main_v18 : DevRef τ sig)
    = Host.gather gather_S50000x64_S800000x1_S800000x64_1_0_n_n_0_1_164 (X (Proc.devRef .tc main_arg0 : DevRef τ sig)) (srcIdxK (X (Proc.devRef .tc main_arg1 : DevRef τ sig))) :=
  (s4_v18 _).trans (by
    rw [skip3 _ main_v2 (by decide), skip2 _ main_v2 (by decide), s1_v2, s0_c_0, s0_c, s0_v1,
      skip3 _ main_arg0 (by decide), skip2 _ main_arg0 (by decide), skip1 _ main_arg0 (by decide),
      skip0 _ main_arg0 (by decide)]; rfl)

/-- Operand 5 of the first launch: the first bias as one row. -/
theorem pre0_v19 : pre0 X (Proc.devRef .tc main_v19 : DevRef τ sig) = shapeCast S1x64 (X (Proc.devRef .tc main_arg3 : DevRef τ sig)) shapeCasts_S64_S1x64 :=
  (s4_v19 _).trans (by
    rw [skip3 _ main_arg3 (by decide), skip2 _ main_arg3 (by decide), skip1 _ main_arg3 (by decide),
      skip0 _ main_arg3 (by decide)])

/-- Every array the five stretches write. -/
abbrev pre0_W : List (Ref sig .tc) := hostOps0_W ++ hostOps0_1_W ++ hostOps0_2_W ++ hostOps0_3_W ++ hostOps0_4_W

/-- An array none of the five stretches writes is as it was. -/
theorem pre0_keep (r : Ref sig .tc) (h : r ∉ pre0_W) : pre0 X (Proc.devRef .tc r : DevRef τ sig) = X (Proc.devRef .tc r : DevRef τ sig) := by
  simp only [pre0_W, List.mem_append, not_or] at h
  obtain ⟨⟨⟨⟨h0, h1⟩, h2⟩, h3⟩, h4⟩ := h
  exact (skip4 _ r h4).trans <| (skip3 _ r h3).trans <| (skip2 _ r h2).trans <| (skip1 _ r h1).trans (skip0 _ r h0)

/-- No stretch writes argument 0. -/
theorem pre0_arg0 : pre0 X (Proc.devRef .tc main_arg0 : DevRef τ sig) = X (Proc.devRef .tc main_arg0 : DevRef τ sig) := pre0_keep X main_arg0 (by decide)
/-- No stretch writes argument 1. -/
theorem pre0_arg1 : pre0 X (Proc.devRef .tc main_arg1 : DevRef τ sig) = X (Proc.devRef .tc main_arg1 : DevRef τ sig) := pre0_keep X main_arg1 (by decide)
/-- No stretch writes argument 2. -/
theorem pre0_arg2 : pre0 X (Proc.devRef .tc main_arg2 : DevRef τ sig) = X (Proc.devRef .tc main_arg2 : DevRef τ sig) := pre0_keep X main_arg2 (by decide)
/-- No stretch writes argument 3. -/
theorem pre0_arg3 : pre0 X (Proc.devRef .tc main_arg3 : DevRef τ sig) = X (Proc.devRef .tc main_arg3 : DevRef τ sig) := pre0_keep X main_arg3 (by decide)
/-- No stretch writes argument 4. -/
theorem pre0_arg4 : pre0 X (Proc.devRef .tc main_arg4 : DevRef τ sig) = X (Proc.devRef .tc main_arg4 : DevRef τ sig) := pre0_keep X main_arg4 (by decide)
/-- No stretch writes argument 5. -/
theorem pre0_arg5 : pre0 X (Proc.devRef .tc main_arg5 : DevRef τ sig) = X (Proc.devRef .tc main_arg5 : DevRef τ sig) := pre0_keep X main_arg5 (by decide)
/-- No stretch writes argument 6. -/
theorem pre0_arg6 : pre0 X (Proc.devRef .tc main_arg6 : DevRef τ sig) = X (Proc.devRef .tc main_arg6 : DevRef τ sig) := pre0_keep X main_arg6 (by decide)
/-- No stretch writes argument 7. -/
theorem pre0_arg7 : pre0 X (Proc.devRef .tc main_arg7 : DevRef τ sig) = X (Proc.devRef .tc main_arg7 : DevRef τ sig) := pre0_keep X main_arg7 (by decide)

end Pre0

/-! ## Between the two launches -/

section Pre1
variable (Y : Valuation τ sig (Elt F))

/-- Operand 1 of the second launch: the first launch's result gathered at the sources, the index column computed
    again from the clamped sources. -/
theorem pre1_v27 : pre1 Y (Proc.devRef .tc main_v27 : DevRef τ sig)
    = Host.gather gather_S50000x64_S800000x1_S800000x64_1_0_n_n_0_1_164 (Y (Proc.devRef .tc main_v20 : DevRef τ sig))
        (broadcastInDim S800000x1 ![0] bcast_S800000_S800000x1_0
          (select (cmpi .slt (Y (Proc.devRef .tc main_v2 : DevRef τ sig)) (broadcastInDim S800000 ![] bcast_S_S800000 (constantI S_ 32 0#32)))
            (addi (Y (Proc.devRef .tc main_v2 : DevRef τ sig)) (broadcastInDim S800000 ![] bcast_S_S800000 (constantI S_ 32 50000#32))) (Y (Proc.devRef .tc main_v2 : DevRef τ sig)))) :=
  s5_v27 Y

/-- The same, the index column named. -/
theorem pre1_v27_wrap : pre1 Y (Proc.devRef .tc main_v27 : DevRef τ sig)
    = Host.gather gather_S50000x64_S800000x1_S800000x64_1_0_n_n_0_1_164 (Y (Proc.devRef .tc main_v20 : DevRef τ sig)) (wrapIdx (Y (Proc.devRef .tc main_v2 : DevRef τ sig))) :=
  s5_v27 Y

/-- Operand 5 of the second launch: the second bias as one row. -/
theorem pre1_v28 : pre1 Y (Proc.devRef .tc main_v28 : DevRef τ sig) = shapeCast S1x64 (Y (Proc.devRef .tc main_arg6 : DevRef τ sig)) shapeCasts_S64_S1x64 :=
  s5_v28 Y

/-- An array the stretch between the launches does not write is as the first launch left it. -/
theorem pre1_keep (r : Ref sig .tc) (h : r ∉ hostOps1_W) : pre1 Y (Proc.devRef .tc r : DevRef τ sig) = Y (Proc.devRef .tc r : DevRef τ sig) :=
  skip5 Y r h

theorem pre1_v2 : pre1 Y (Proc.devRef .tc main_v2 : DevRef τ sig) = Y (Proc.devRef .tc main_v2 : DevRef τ sig) := pre1_keep Y main_v2 (by decide)
theorem pre1_v6 : pre1 Y (Proc.devRef .tc main_v6 : DevRef τ sig) = Y (Proc.devRef .tc main_v6 : DevRef τ sig) := pre1_keep Y main_v6 (by decide)
theorem pre1_v11 : pre1 Y (Proc.devRef .tc main_v11 : DevRef τ sig) = Y (Proc.devRef .tc main_v11 : DevRef τ sig) := pre1_keep Y main_v11 (by decide)
theorem pre1_v20 : pre1 Y (Proc.devRef .tc main_v20 : DevRef τ sig) = Y (Proc.devRef .tc main_v20 : DevRef τ sig) := pre1_keep Y main_v20 (by decide)
theorem pre1_arg0 : pre1 Y (Proc.devRef .tc main_arg0 : DevRef τ sig) = Y (Proc.devRef .tc main_arg0 : DevRef τ sig) := pre1_keep Y main_arg0 (by decide)
theorem pre1_arg1 : pre1 Y (Proc.devRef .tc main_arg1 : DevRef τ sig) = Y (Proc.devRef .tc main_arg1 : DevRef τ sig) := pre1_keep Y main_arg1 (by decide)
theorem pre1_arg2 : pre1 Y (Proc.devRef .tc main_arg2 : DevRef τ sig) = Y (Proc.devRef .tc main_arg2 : DevRef τ sig) := pre1_keep Y main_arg2 (by decide)
theorem pre1_arg3 : pre1 Y (Proc.devRef .tc main_arg3 : DevRef τ sig) = Y (Proc.devRef .tc main_arg3 : DevRef τ sig) := pre1_keep Y main_arg3 (by decide)
theorem pre1_arg4 : pre1 Y (Proc.devRef .tc main_arg4 : DevRef τ sig) = Y (Proc.devRef .tc main_arg4 : DevRef τ sig) := pre1_keep Y main_arg4 (by decide)
theorem pre1_arg5 : pre1 Y (Proc.devRef .tc main_arg5 : DevRef τ sig) = Y (Proc.devRef .tc main_arg5 : DevRef τ sig) := pre1_keep Y main_arg5 (by decide)
theorem pre1_arg6 : pre1 Y (Proc.devRef .tc main_arg6 : DevRef τ sig) = Y (Proc.devRef .tc main_arg6 : DevRef τ sig) := pre1_keep Y main_arg6 (by decide)
theorem pre1_arg7 : pre1 Y (Proc.devRef .tc main_arg7 : DevRef τ sig) = Y (Proc.devRef .tc main_arg7 : DevRef τ sig) := pre1_keep Y main_arg7 (by decide)

end Pre1

end Cert.Sage.Glue

end
-- ==== Proof.Domain.lean ====
/-
  The index range of the edge table, decoded, and the clamp of an in-range word.

  The added precondition says every word of the edge table `edge_index : [2, 800000]`, read signed, lies in
  `[0, 50000)`: it is the last conjunct of the printed predicate, an `all` (a reduction by `and` from 1 over both axes)
  of the elementwise `and` of the two signed comparisons `edge_index ≥ 0` and `edge_index < 50000`. Here that conjunct is
  read back as a statement about each word (`edge_in_range`), and the two consequences the rest of the proof uses are
  drawn: such a word reads the same signed and unsigned (`in_range_toNat`), and clamping it into `[0, 49999]` —
  `min 49999 (max 0 v)`, the form in which the program clips its indices — returns it unchanged (`clamp_word`,
  elementwise `clamp_vec`).
-/
import proofs.«402184_j37915971289911_2_alg».proof.Pre_finite_inputs
import proofs.«402184_j37915971289911_2_alg».proof.Proof.Gen.Pre_finite_inputs
import Idealize.ShloMosaic.Lib.ReduceAll
import Idealize.ShloMosaic.Lib.StableHlo.Predicate
import Idealize.ShloMosaic.Lib.ValueIdx

namespace Cert.Sage.Domain

open Idealize.ShloMosaic Idealize.ShloMosaic.ValueIdx

/-! ## Words in `[0, 50000)` -/

/-- The signed readings of the three literals the predicate and the clamp compare against. -/
theorem toInt_zero : (0#32 : BitVec 32).toInt = 0 := by decide
theorem toInt_49999 : (49999#32 : BitVec 32).toInt = 49999 := by decide
theorem toInt_50000 : (50000#32 : BitVec 32).toInt = 50000 := by decide

/-- A word whose signed reading is in `[0, 50000)` has its top bit clear: it reads the same unsigned, below 50000. -/
theorem in_range_toNat (v : BitVec 32) (h0 : 0 ≤ v.toInt) (h1 : v.toInt < 50000) :
    v.toNat < 50000 ∧ v.toInt = v.toNat := by
  have hlt : 2 * v.toNat < 2 ^ 32 := BitVec.toInt_pos_iff.1 h0
  have he : v.toInt = v.toNat := BitVec.toInt_eq_toNat_of_lt hlt
  exact ⟨by omega, he⟩

/-- `max 0 v = v` for a word that reads nonnegative: `v < 0` is false, so the maximum takes its second operand. -/
theorem maxsi_zero_left (v : BitVec 32) (h0 : 0 ≤ v.toInt) : IntOp.maxsi (0#32) v = v := by
  unfold IntOp.maxsi
  rw [if_neg]
  rw [BitVec.slt_iff_toInt_lt, toInt_zero]
  omega

/-- `min 49999 v = v` for a word that reads below 50000: `49999 < v` is false, so the minimum takes its second operand. -/
theorem minsi_hi_left (v : BitVec 32) (h1 : v.toInt < 50000) : IntOp.minsi (49999#32) v = v := by
  unfold IntOp.minsi
  rw [if_neg]
  rw [BitVec.slt_iff_toInt_lt, toInt_49999]
  omega

/-- The clamp into `[0, 49999]`, in the operand order the program has it, is the identity on a word already there. -/
theorem clamp_word (v : BitVec 32) (h0 : 0 ≤ v.toInt) (h1 : v.toInt < 50000) :
    IntOp.minsi (49999#32) (IntOp.maxsi (0#32) v) = v := by
  rw [maxsi_zero_left v h0, minsi_hi_left v h1]

/-- The same elementwise: a vector of in-range words, clamped between the constant vectors 0 and 49999, is itself. -/
theorem clamp_vec {s : Shape} (x : IVec s 32) (hx : ∀ i, 0 ≤ (x i).toInt ∧ (x i).toInt < 50000) (lo hi : IVec s 32)
    (hlo : ∀ i, lo i = 0#32) (hhi : ∀ i, hi i = 49999#32) : minsi hi (maxsi lo x) = x := by
  funext i
  show IntOp.minsi (hi i) (IntOp.maxsi (lo i) (x i)) = x i
  rw [hlo i, hhi i]
  exact clamp_word (x i) (hx i).1 (hx i).2

/-! ## The precondition's last conjunct, read back -/

/-- The result shape of an `all` has one index. -/
instance : Subsingleton Cert.Pre_finite_inputs.S_.Idx := ⟨fun a b => funext fun d => d.elim0⟩

/-- The printed predicate being 1 makes every word of the edge table, read signed, at least 0 and below 50000.
    The predicate is a conjunction (an `and` of one-bit words) whose last operand is the `all` over the table of
    `(edge_index ≥ 0) and (edge_index < 50000)`; an `and`-reduction that came out 1 met a 1 at every index, and at an
    index the two comparison words being 1 are the two signed inequalities against the literals 0 and 50000. -/
theorem edge_in_range {F : FTy → Type} [FloatOps F] [Cert.Pre_finite_inputs.Facts]
    (a0 : FVec F Cert.Pre_finite_inputs.S50000x64 .f32) (a1 : IVec Cert.Pre_finite_inputs.S2x800000 32)
    (a2 a4 a5 a7 : FVec F Cert.Pre_finite_inputs.S64x64 .f32) (a3 a6 : FVec F Cert.Pre_finite_inputs.S64 .f32)
    (h : Cert.Pre_finite_inputs.fn (F := F) a0 a1 a2 a3 a4 a5 a6 a7 = fun _ => 1#1) :
    ∀ i : Cert.Pre_finite_inputs.S2x800000.Idx, 0 ≤ (a1 i).toInt ∧ (a1 i).toInt < 50000 := by
  intro i
  have h0 := congrFun h ix0
  dsimp only [Cert.Pre_finite_inputs.fn, Cert.Pre_finite_inputs.fn_part1, Cert.Pre_finite_inputs.fn_part2] at h0
  -- the outermost `and`: everything before, and the `all` over the edge table
  have hall := (IntOp.andi_eq_one.1 h0).2
  have hi := Host.reduce_andi_all _ _ _ _ _ hall i
  -- at index `i`: the `and` of the two comparison words
  obtain ⟨hge, hlt⟩ := IntOp.andi_eq_one.1 hi
  have hge' : (0#32 : BitVec 32).toInt ≤ (a1 i).toInt := IntOp.cmpi_sge.1 hge
  have hlt' : (a1 i).toInt < (50000#32 : BitVec 32).toInt := IntOp.cmpi_slt.1 hlt
  rw [toInt_zero] at hge'
  rw [toInt_50000] at hlt'
  exact ⟨hge', hlt'⟩

end Cert.Sage.Domain
-- ==== Proof.Spec.lean ====
/-
  What the two layers of the graph convolution compute, index by index, on the extended reals.

  A layer takes node features `feat : [N, D]`, per-edge messages `msg : [E, D]` (the features of each edge's source
  node, already gathered), the destination node of every edge `dst : [E]` (a 32-bit word per edge), the node degrees
  `cnt : [N]`, two weight matrices and a bias. Node `n` sums the messages of the edges that end in `n` (`aggr`),
  divides by `max (cnt n) 1`, multiplies the mean by the left weights, adds the bias, and adds the node's own features
  times the right weights (`layerPre`). The first layer is followed by `max · 0`.

  No program is mentioned here: both the kernel's program and the reference are shown to compute these functions.
-/
import Idealize.ShloMosaic.PureOps.Ideal
import Idealize.ShloMosaic.Lib.ValueIdx

noncomputable section

open scoped BigOperators

namespace Cert.Sage

open Idealize.ShloMosaic Idealize.ShloMosaic.ValueIdx

/-- Node features, `[50000, 64]`. -/
abbrev ShND : Shape := ⟨2, ![50000, 64]⟩
/-- Per-edge messages, `[800000, 64]`. -/
abbrev ShED : Shape := ⟨2, ![800000, 64]⟩
/-- A weight matrix, `[64, 64]`. -/
abbrev ShDD : Shape := ⟨2, ![64, 64]⟩
/-- One word or number per edge, `[800000]`. -/
abbrev ShE : Shape := ⟨1, ![800000]⟩
/-- One number per node, `[50000]`. -/
abbrev ShN : Shape := ⟨1, ![50000]⟩
/-- A bias, `[64]`. -/
abbrev ShD : Shape := ⟨1, ![64]⟩

/-- The float word of `1.0`, read at the ideal instance. -/
abbrev one : EReal := Ideal.ofBits .f32 0x3F800000#32
/-- The float word of `0.0`, read at the ideal instance. -/
abbrev zero : EReal := Ideal.ofBits .f32 0x00000000#32

/-- The sum, over the edges whose destination word is node `n`'s number, of the edge's message in column `d`. -/
def aggr (dst : ShE.Idx → BitVec 32) (msg : ShED.Idx → EReal) : ShND.Idx → EReal :=
  fun i => ∑ e : Fin 800000, if dst (ix1 e) = BitVec.ofNat 32 (i 0).val then msg (ix2 e (i 1)) else 0

/-- A layer before its activation: `(a / max cnt 1) · wl + b + feat · wr` at node `i 0`, column `i 1`. -/
def layerPre (cnt : ShN.Idx → EReal) (a feat : ShND.Idx → EReal) (wl wr : ShDD.Idx → EReal) (b : ShD.Idx → EReal) :
    ShND.Idx → EReal :=
  fun i => ((∑ j : Fin 64, Ideal.div (a (ix2 (i 0) j)) (max (cnt (ix1 (i 0))) one) * wl (ix2 j (i 1))) + b (ix1 (i 1)))
    + ∑ j : Fin 64, feat (ix2 (i 0) j) * wr (ix2 j (i 1))

/-- The first layer: the activation `max · 0` after `layerPre`. -/
def layerRelu (cnt : ShN.Idx → EReal) (a feat : ShND.Idx → EReal) (wl wr : ShDD.Idx → EReal) (b : ShD.Idx → EReal) :
    ShND.Idx → EReal :=
  fun i => max (layerPre cnt a feat wl wr b i) zero

/-- The whole network: `gat` gathers the source node's features for every edge. -/
def net (gat : (ShND.Idx → EReal) → ShED.Idx → EReal) (dst : ShE.Idx → BitVec 32) (cnt : ShN.Idx → EReal)
    (x : ShND.Idx → EReal) (w1l w1r w2l w2r : ShDD.Idx → EReal) (b1 b2 : ShD.Idx → EReal) : ShND.Idx → EReal :=
  let h := layerRelu cnt (aggr dst (gat x)) x w1l w1r b1
  layerPre cnt (aggr dst (gat h)) h w2l w2r b2

end Cert.Sage

end
-- ==== Proof.FrameIdeal.Pieces0.lean ====
/-
  Region 0: the pieces each case of the kernel body leaves, read back as values.

  Each case's stores cover the buffer they write, so what the buffer holds afterwards is one array. At a first edge
  block the scratch accumulator is cleared and then updated: it ends at the update of the zero block by the point's
  edge block. At a middle edge block it ends at the update of what it held. At a last edge block it is updated the
  same way and the output block is the combined layer computed from the updated accumulator, the degree block, the
  node-feature block, the two weight matrices and the bias.
-/
import proofs.«402184_j37915971289911_2_alg».proof.Proof.FrameIdeal.Body0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer load or store. -/
theorem hzR0 : (![0, 0] : Fin 2 → Nat) = fun _ => 0 := funext fun a => by fin_cases a <;> rfl

/-- After a first edge block the accumulator holds the update of the zero block: the clearing store is overwritten by
    the covering update, whose accumulator operand is the cleared buffer read back. -/
theorem soutR0_A_eq (c : Dev nD) (t : Fin cfg0.N) (hc0 : condR0_0 (grid0.coords t)) (hc1 : ¬condR0_1 (grid0.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    soutR0_A c t hc0 hc1 x0 x1 x2 x3 x4 x5 x6 = k0_pay2 (grid0.coords t) x0 x1 (k0_pay1 (F := F)) := by
  unfold soutR0_A
  rw [View.read_writes_eq_canon _ _ _ (scoverR0_A c t hc0 hc1 x0 x1 x2 x3 x4 x5 x6)]
  unfold runAtR0_A kernelRunR0_A
  dsimp only
  sl_unfold_words
  rw [View.canon_cons_unit_zero (S := S2000x64) hzR0, View.readCov_unit_zero (S := S2000x64) _ hzR0]
  simp only [View.readAt_eq_ld, (hsR0_0 t).read_unread, (hsR0_1 t).read_unread, (hsR0_2 t).read_unread, (hsR0_3 t).read_unread, (hsR0_4 t).read_unread, (hsR0_5 t).read_unread, (hsR0_6 t).read_unread, (Memref.isWhole_whole _).read_unread, View.ld_unit_zero (S := S1x3200) hzR0, View.ld_unit_zero (S := S3200x64) hzR0, View.ld_unit_zero (S := S2000x1) hzR0, View.ld_unit_zero (S := S2000x64) hzR0, View.ld_unit_zero (S := S64x64) hzR0, View.ld_unit_zero (S := S1x64) hzR0, View.readCov_unit_zero (S := S2000x64) _ hzR0, shapeCast_self]

/-- After a middle edge block the accumulator holds the update of what it held: one covering store, its operands the
    whole buffers. -/
theorem soutR0_B_eq (c : Dev nD) (t : Fin cfg0.N) (hc0 : ¬condR0_0 (grid0.coords t)) (hc1 : ¬condR0_1 (grid0.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    soutR0_B c t hc0 hc1 x0 x1 x2 x3 x4 x5 x6 xs = k0_pay2 (grid0.coords t) x0 x1 xs := by
  unfold soutR0_B
  rw [View.read_writes_eq_canon _ _ _ (scoverR0_B c t hc0 hc1 x0 x1 x2 x3 x4 x5 x6 xs)]
  unfold runAtR0_B kernelRunR0_B
  dsimp only
  sl_unfold_words
  rw [View.canon_unit_zero hzR0]
  simp only [View.readAt_eq_ld, (hsR0_0 t).read_unread, (hsR0_1 t).read_unread, (hsR0_2 t).read_unread, (hsR0_3 t).read_unread, (hsR0_4 t).read_unread, (hsR0_5 t).read_unread, (hsR0_6 t).read_unread, (Memref.isWhole_whole _).read_unread, View.ld_unit_zero (S := S1x3200) hzR0, View.ld_unit_zero (S := S3200x64) hzR0, View.ld_unit_zero (S := S2000x1) hzR0, View.ld_unit_zero (S := S2000x64) hzR0, View.ld_unit_zero (S := S64x64) hzR0, View.ld_unit_zero (S := S1x64) hzR0, View.readCov_unit_zero (S := S2000x64) _ hzR0, shapeCast_self]

/-- After a last edge block the accumulator holds the same update. -/
theorem soutR0_C_eq (c : Dev nD) (t : Fin cfg0.N) (hc0 : ¬condR0_0 (grid0.coords t)) (hc1 : condR0_1 (grid0.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    soutR0_C c t hc0 hc1 x0 x1 x2 x3 x4 x5 x6 xs = k0_pay2 (grid0.coords t) x0 x1 xs := by
  unfold soutR0_C
  rw [View.read_writes_eq_canon _ _ _ (scoverR0_C c t hc0 hc1 x0 x1 x2 x3 x4 x5 x6 xs)]
  unfold runAtR0_C kernelRunR0_C
  dsimp only
  sl_unfold_words
  rw [View.canon_unit_zero hzR0]
  simp only [View.readAt_eq_ld, (hsR0_0 t).read_unread, (hsR0_1 t).read_unread, (hsR0_2 t).read_unread, (hsR0_3 t).read_unread, (hsR0_4 t).read_unread, (hsR0_5 t).read_unread, (hsR0_6 t).read_unread, (Memref.isWhole_whole _).read_unread, View.ld_unit_zero (S := S1x3200) hzR0, View.ld_unit_zero (S := S3200x64) hzR0, View.ld_unit_zero (S := S2000x1) hzR0, View.ld_unit_zero (S := S2000x64) hzR0, View.ld_unit_zero (S := S64x64) hzR0, View.ld_unit_zero (S := S1x64) hzR0, View.readCov_unit_zero (S := S2000x64) _ hzR0, shapeCast_self]

/-- And the output block is the combined layer of the updated accumulator (read back after its store), the degree
    block, the node-feature block, the weights and the bias. -/
theorem outR0_C_eq (c : Dev nD) (t : Fin cfg0.N) (hc0 : ¬condR0_0 (grid0.coords t)) (hc1 : condR0_1 (grid0.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    outR0_C c t hc0 hc1 x0 x1 x2 x3 x4 x5 x6 xs = k0_pay3 x2 (k0_pay2 (grid0.coords t) x0 x1 xs) x4 x5 x3 x6 := by
  unfold outR0_C
  rw [View.read_writes_eq_canon _ _ _ (coverR0_C c t hc0 hc1 x0 x1 x2 x3 x4 x5 x6 xs)]
  unfold runAtR0_C kernelRunR0_C
  dsimp only
  sl_unfold_words
  rw [View.canon_unit_zero hzR0]
  simp only [View.readAt_eq_ld, (hsR0_0 t).read_unread, (hsR0_1 t).read_unread, (hsR0_2 t).read_unread, (hsR0_3 t).read_unread, (hsR0_4 t).read_unread, (hsR0_5 t).read_unread, (hsR0_6 t).read_unread, (Memref.isWhole_whole _).read_unread, View.ld_unit_zero (S := S1x3200) hzR0, View.ld_unit_zero (S := S3200x64) hzR0, View.ld_unit_zero (S := S2000x1) hzR0, View.ld_unit_zero (S := S2000x64) hzR0, View.ld_unit_zero (S := S64x64) hzR0, View.ld_unit_zero (S := S1x64) hzR0, View.readCov_unit_zero (S := S2000x64) _ hzR0, shapeCast_self]

end Cert.KernelIdeal.Hand

end
-- ==== Proof.PayValue.lean ====
/-
  The three values the kernel body stores, read at one index, on the extended reals.

  The body of a grid step works on a block of 2000 nodes (rows) and a block of 3200 edges. It stores
  * the zero block (first edge block of a row of the grid),
  * the accumulator plus a one-hot matrix times the edge messages: entry (r, j) of the one-hot matrix is 1 when
    edge j of the block ends in node i₀ * 2000 + r and 0 otherwise, so row r of the product is the sum of the messages
    of the block's edges that end in that node,
  * the combined layer (last edge block): the accumulated sums divided by max(degree, 1), times the left weights, plus
    the bias, plus the node features times the right weights (and, in the first layer, max · 0 of that).

  On the extended reals a change of float format and a shape cast to the same shape are the identity, and a matrix
  product into the zero block is the sum over the contracted axis of the products; 1 * x = x and 0 * x = 0 hold for
  every extended real x, so the one-hot product is a conditional sum with no finiteness condition.
-/
import proofs.«402184_j37915971289911_2_alg».proof.Proof.Gen.KernelIdeal.Skeleton
import proofs.«402184_j37915971289911_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage.Pay

open Cert.KernelIdeal Cert.KernelIdeal.Gen Idealize.ShloMosaic Idealize.ShloMosaic.ValueIdx

variable [Cert.KernelIdeal.Facts]

/-! ## Layout: one column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry

Both products contract the left operand's columns with the right operand's rows and have no batch axis: the operand
indices at output entry `(r, d)` and contracted coordinate `k` are `(r, k)` and `(k, d)`. -/

/-- Row axis of the left operand: the output's row. -/
theorem lhs_edges_0 (i : S2000x64.Idx) (q : dot_S2000x3200_S3200x64_S2000x64_1_0_0_1_n_n.contr.Idx) :
    (dot_S2000x3200_S3200x64_S2000x64_1_0_0_1_n_n.lhsIdx i q 0).val = (i 0).val := by
  unfold DotDims.lhsIdx
  rw [dif_neg (show ¬(0 : Fin S2000x3200.rank) ∈ dot_S2000x3200_S3200x64_S2000x64_1_0_0_1_n_n.lhsBatch by decide), dif_pos (show (0 : Fin S2000x3200.rank) ∈ dot_S2000x3200_S3200x64_S2000x64_1_0_0_1_n_n.lhsNonContracting by decide)]
  rfl
/-- Column axis of the left operand: the contracted coordinate. -/
theorem lhs_edges_1 (i : S2000x64.Idx) (q : dot_S2000x3200_S3200x64_S2000x64_1_0_0_1_n_n.contr.Idx) :
    (dot_S2000x3200_S3200x64_S2000x64_1_0_0_1_n_n.lhsIdx i q 1).val = (q ⟨0, by decide⟩).val :=
  dot_S2000x3200_S3200x64_S2000x64_1_0_0_1_n_n.lhsIdx_val_of_single rfl i q
/-- Row axis of the right operand: the contracted coordinate. -/
theorem rhs_edges_0 (i : S2000x64.Idx) (q : dot_S2000x3200_S3200x64_S2000x64_1_0_0_1_n_n.contr.Idx) :
    (dot_S2000x3200_S3200x64_S2000x64_1_0_0_1_n_n.rhsIdx i q 0).val = (q ⟨0, by decide⟩).val :=
  dot_S2000x3200_S3200x64_S2000x64_1_0_0_1_n_n.rhsIdx_val_of_single rfl i q
/-- Column axis of the right operand: the output's column. -/
theorem rhs_edges_1 (i : S2000x64.Idx) (q : dot_S2000x3200_S3200x64_S2000x64_1_0_0_1_n_n.contr.Idx) :
    (dot_S2000x3200_S3200x64_S2000x64_1_0_0_1_n_n.rhsIdx i q 1).val = (i 1).val := by
  unfold DotDims.rhsIdx
  rw [dif_neg (show ¬(1 : Fin S3200x64.rank) ∈ dot_S2000x3200_S3200x64_S2000x64_1_0_0_1_n_n.rhsBatch by decide), dif_pos (show (1 : Fin S3200x64.rank) ∈ dot_S2000x3200_S3200x64_S2000x64_1_0_0_1_n_n.rhsNonContracting by decide)]
  rfl

/-- The `[2000, 3200] × [3200, 64]` product into the zero block, at entry `(r, d)`: the sum over the 3200 edges of the block. -/
theorem matmul_edges_apply (L : FVec Ideal S2000x3200 .bf16) (R : FVec Ideal S3200x64 .bf16) (r : Fin 2000) (d : Fin 64) :
    matmul dot_S2000x3200_S3200x64_S2000x64_1_0_0_1_n_n none L R (constant (F := Ideal) S2000x64 .f32 0x00000000#32) (ix2 r d)
      = ∑ j : Fin 3200, L (ix2 r j) * R (ix2 j d) := by
  simp only [matmul]
  rw [Ideal.matmul_constant_zero_apply, ← Equiv.sum_comp (contrEquiv1 dot_S2000x3200_S3200x64_S2000x64_1_0_0_1_n_n 3200 rfl rfl).symm]
  refine Finset.sum_congr rfl fun k _ => ?_
  have hk := contrEquiv1_symm_val dot_S2000x3200_S3200x64_S2000x64_1_0_0_1_n_n 3200 rfl rfl k
  have el : dot_S2000x3200_S3200x64_S2000x64_1_0_0_1_n_n.lhsIdx (ix2 r d) ((contrEquiv1 dot_S2000x3200_S3200x64_S2000x64_1_0_0_1_n_n 3200 rfl rfl).symm k) = ix2 r k := funext fun a => Fin.ext (by
    match a with
    | ⟨0, _⟩ => exact lhs_edges_0 _ _
    | ⟨1, _⟩ => exact (lhs_edges_1 _ _).trans hk)
  have er : dot_S2000x3200_S3200x64_S2000x64_1_0_0_1_n_n.rhsIdx (ix2 r d) ((contrEquiv1 dot_S2000x3200_S3200x64_S2000x64_1_0_0_1_n_n 3200 rfl rfl).symm k) = ix2 k d := funext fun a => Fin.ext (by
    match a with
    | ⟨0, _⟩ => exact (rhs_edges_0 _ _).trans hk
    | ⟨1, _⟩ => exact rhs_edges_1 _ _)
  rw [el, er]

/-- Row axis of the left operand: the output's row. -/
theorem lhs_feat_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- Column axis of the left operand: the contracted coordinate. -/
theorem lhs_feat_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- Row axis of the right operand: the contracted coordinate. -/
theorem rhs_feat_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- Column axis of the right operand: the output's column. -/
theorem rhs_feat_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The `[2000, 64] × [64, 64]` product into the zero block, at entry `(r, d)`: the sum over the 64 feature columns. -/
theorem matmul_feat_apply (L : FVec Ideal S2000x64 .bf16) (R : FVec Ideal S64x64 .bf16) (r : Fin 2000) (d : Fin 64) :
    matmul dot_S2000x64_S64x64_S2000x64_1_0_0_1_n_n none L R (constant (F := Ideal) S2000x64 .f32 0x00000000#32) (ix2 r d)
      = ∑ j : Fin 64, L (ix2 r j) * R (ix2 j d) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r d) ((contrEquiv1 dot_S2000x64_S64x64_S2000x64_1_0_0_1_n_n 64 rfl rfl).symm k) = ix2 r k := funext fun a => Fin.ext (by
    match a with
    | ⟨0, _⟩ => exact lhs_feat_0 _ _
    | ⟨1, _⟩ => exact (lhs_feat_1 _ _).trans hk)
  have er : dot_S2000x64_S64x64_S2000x64_1_0_0_1_n_n.rhsIdx (ix2 r d) ((contrEquiv1 dot_S2000x64_S64x64_S2000x64_1_0_0_1_n_n 64 rfl rfl).symm k) = ix2 k d := funext fun a => Fin.ext (by
    match a with
    | ⟨0, _⟩ => exact (rhs_feat_0 _ _).trans hk
    | ⟨1, _⟩ => exact rhs_feat_1 _ _)
  rw [el, er]

/-! ## The one-hot factor and the node number -/

/-- Block row `r` of grid row `i₀` is node `i₀ * 2000 + r`: `BitVec.ofNat 32` carries sums and products of naturals to
    sums and products of words, so no range condition is needed. -/
theorem node_word (i0 r : ℕ) :
    IntOp.addi (Scalar.muli (BitVec.ofNat 32 i0) 2000#32) (BitVec.ofNat 32 r) = BitVec.ofNat 32 (i0 * 2000 + r) := by
  show BitVec.ofNat 32 i0 * BitVec.ofNat 32 2000 + BitVec.ofNat 32 r = _
  rw [← BitVec.ofNat_mul, ← BitVec.ofNat_add]

/-- The comparison bit, widened to a word and read as a signed number, is `1` or `0`; on the extended reals
    `1 * x = x` and `0 * x = 0` for every `x`, infinite ones included. -/
theorem onehot_mul (a b : BitVec 32) (x : EReal) :
    FloatOps.sitofp (F := Ideal) .f32 ((IntOp.cmpi .eq a b).setWidth 32) * x = if b = a then x else 0 := by
  by_cases h : b = a
  · subst h
    rw [if_pos rfl]
    have e : (IntOp.cmpi .eq b b).setWidth 32 = 1#32 := by simp [IntOp.cmpi]
    rw [e]
    show ((((1#32 : BitVec 32).toInt : ℝ) : EReal)) * x = x
    have e1 : (1#32 : BitVec 32).toInt = 1 := by decide
    rw [e1]
    simp
  · rw [if_neg h]
    have hne : (a == b) = false := by
      rw [beq_eq_false_iff_ne]
      exact fun e => h e.symm
    have e : (IntOp.cmpi .eq a b).setWidth 32 = 0#32 := by simp [IntOp.cmpi, hne]
    rw [e]
    show ((((0#32 : BitVec 32).toInt : ℝ) : EReal)) * x = 0
    have e0 : (0#32 : BitVec 32).toInt = 0 := by decide
    rw [e0]
    simp

/-! ## Integer vector operations at an index (definitional) -/

/-- An integer comparison at an index compares the elements. -/
theorem cmpi_apply {s : Shape} {w : ℕ} (p : CmpIPredicate) (x y : IVec s w) (i : s.Idx) :
    cmpi p x y i = IntOp.cmpi p (x i) (y i) := rfl
/-- An integer sum at an index adds the elements. -/
theorem addi_apply {s : Shape} {w : ℕ} (x y : IVec s w) (i : s.Idx) : addi x y i = IntOp.addi (x i) (y i) := rfl

/-! ## The first stored value: the zero block -/

theorem pay1_apply_0 (y : S2000x64.Idx) : (k0_pay1 (F := Ideal)) y = 0 := by
  unfold k0_pay1
  rw [shapeCast_self]
  exact Ideal.ofBits_zero_f32

theorem pay1_apply_1 (y : S2000x64.Idx) : (k1_pay1 (F := Ideal)) y = 0 := by
  unfold k1_pay1
  rw [shapeCast_self]
  exact Ideal.ofBits_zero_f32

/-! ## The second stored value: the accumulator plus the messages of the block's edges that end in the row's node -/

theorem pay2_apply_0 (i : grid0.Coords) (v7 : Vec Ideal S1x3200 .i32) (v15 : Vec Ideal S3200x64 .f32)
    (v19 : Vec Ideal S2000x64 .f32) (r : Fin 2000) (d : Fin 64) :
    k0_pay2 i v7 v15 v19 (ix2 r d) = v19 (ix2 r d) + ∑ j : Fin 3200,
      if v7 (ix2 (0 : Fin 1) j) = BitVec.ofNat 32 ((i 0).val * 2000 + r.val) then v15 (ix2 j d) else 0 := by
  unfold k0_pay2
  dsimp only
  -- the stored value is the accumulator plus the one-hot product; its entry is a sum over the block's edges
  rw [shapeCast_self, addf_apply, matmul_edges_apply]
  refine congrArg (v19 (ix2 r d) + ·) (Finset.sum_congr rfl fun j _ => ?_)
  -- the one-hot entry (r, j) compares node `i₀ * 2000 + r` with the destination of edge `j`
  rw [truncf_apply, truncf_apply, sitofp_apply, extui_apply, cmpi_apply, broadcastTo_a1_ab_apply,
    broadcastTo_1b_ab_apply, shapeCast_self, shapeCast_self, addi_apply, broadcast_apply, iota_single_apply, onehot_mul,
    node_word]

theorem pay2_apply_1 (i : grid1.Coords) (v7 : Vec Ideal S1x3200 .i32) (v15 : Vec Ideal S3200x64 .f32)
    (v19 : Vec Ideal S2000x64 .f32) (r : Fin 2000) (d : Fin 64) :
    k1_pay2 i v7 v15 v19 (ix2 r d) = v19 (ix2 r d) + ∑ j : Fin 3200,
      if v7 (ix2 (0 : Fin 1) j) = BitVec.ofNat 32 ((i 0).val * 2000 + r.val) then v15 (ix2 j d) else 0 := by
  unfold k1_pay2
  dsimp only
  -- the stored value is the accumulator plus the one-hot product; its entry is a sum over the block's edges
  rw [shapeCast_self, addf_apply, matmul_edges_apply]
  refine congrArg (v19 (ix2 r d) + ·) (Finset.sum_congr rfl fun j _ => ?_)
  -- the one-hot entry (r, j) compares node `i₀ * 2000 + r` with the destination of edge `j`
  rw [truncf_apply, truncf_apply, sitofp_apply, extui_apply, cmpi_apply, broadcastTo_a1_ab_apply,
    broadcastTo_1b_ab_apply, shapeCast_self, shapeCast_self, addi_apply, broadcast_apply, iota_single_apply, onehot_mul,
    node_word]

/-! ## The third stored value: the combined layer -/

theorem pay3_apply_0 (v27 : Vec Ideal S2000x1 .f32) (v31 : Vec Ideal S2000x64 .f32) (v35 : Vec Ideal S64x64 .f32)
    (v38 : Vec Ideal S1x64 .f32) (v42 : Vec Ideal S2000x64 .f32) (v44 : Vec Ideal S64x64 .f32) (r : Fin 2000) (d : Fin 64) :
    k0_pay3 v27 v31 v35 v38 v42 v44 (ix2 r d)
      = max (((∑ j : Fin 64, Ideal.div (v31 (ix2 r j)) (max (v27 (ix2 r (0 : Fin 1))) Cert.Sage.one) * v35 (ix2 j d))
          + v38 (ix2 (0 : Fin 1) d)) + ∑ j : Fin 64, v42 (ix2 r j) * v44 (ix2 j d)) Cert.Sage.zero := by
  unfold k0_pay3
  -- the maximum with zero of two products and the bias row, each read at entry (r, d)
  rw [maximumf_apply, broadcast_apply, addf_apply, addf_apply, matmul_feat_apply, matmul_feat_apply, broadcastTo_1b_ab_apply, shapeCast_self]
  -- inside the sums: the mean is the accumulated sum over max(degree, 1), the degree column read at row r
  simp only [truncf_apply, divf_apply, broadcastTo_a1_ab_apply, maximumf_apply, shapeCast_self, broadcast_apply]
  rfl

theorem pay3_apply_1 (v27 : Vec Ideal S2000x1 .f32) (v31 : Vec Ideal S2000x64 .f32) (v35 : Vec Ideal S64x64 .f32)
    (v38 : Vec Ideal S1x64 .f32) (v42 : Vec Ideal S2000x64 .f32) (v45 : Vec Ideal S64x64 .f32) (r : Fin 2000) (d : Fin 64) :
    k1_pay3 v27 v31 v35 v38 v42 v45 (ix2 r d)
      = ((∑ j : Fin 64, Ideal.div (v31 (ix2 r j)) (max (v27 (ix2 r (0 : Fin 1))) Cert.Sage.one) * v35 (ix2 j d))
          + v38 (ix2 (0 : Fin 1) d)) + ∑ j : Fin 64, v42 (ix2 r j) * v45 (ix2 j d) := by
  unfold k1_pay3
  -- two products and the bias row, each read at entry (r, d)
  rw [addf_apply, addf_apply, matmul_feat_apply, matmul_feat_apply, broadcastTo_1b_ab_apply, shapeCast_self]
  -- inside the sums: the mean is the accumulated sum over max(degree, 1), the degree column read at row r
  simp only [truncf_apply, divf_apply, broadcastTo_a1_ab_apply, maximumf_apply, shapeCast_self, broadcast_apply]
  rfl

end Cert.Sage.Pay

end
-- ==== Proof.SumBlocks.lean ====
/-
  A sum over consecutive blocks is the sum over the whole range: for `f` on the naturals with values in a commutative
  additive monoid, summing `f (k · B + j)` over `j < B` and then over `k < K` is summing `f e` over `e < K · B`.
  Used with `K = 250` edge blocks of `B = 3200` edges.
-/
import Idealize.ShloMosaic.PureOps.Ideal

open scoped BigOperators

namespace Cert.Sage

theorem sum_range_blocks {M : Type*} [AddCommMonoid M] (B : ℕ) (f : ℕ → M) :
    ∀ K : ℕ, ∑ k ∈ Finset.range K, ∑ j ∈ Finset.range B, f (k * B + j) = ∑ e ∈ Finset.range (K * B), f e
  | 0 => by simp
  | K + 1 => by
    rw [Finset.sum_range_succ, sum_range_blocks B f K, Nat.succ_mul, Finset.sum_range_add]

/-- The same with the inner index and the whole range as `Fin` types. -/
theorem sum_fin_blocks {M : Type*} [AddCommMonoid M] (K B N : ℕ) (hN : K * B = N) (f : ℕ → M) :
    ∑ k ∈ Finset.range K, ∑ j : Fin B, f (k * B + j.val) = ∑ e : Fin N, f e.val := by
  subst hN
  rw [Fin.sum_univ_eq_sum_range (fun e => f e) (K * B), ← sum_range_blocks B f K]
  exact Finset.sum_congr rfl fun k _ => Fin.sum_univ_eq_sum_range (fun j => f (k * B + j)) B

end Cert.Sage
-- ==== Proof.FrameIdeal.Value0.lean ====
/-
  Region 0 at the ideal instance: the launch's result array, as one function of the arrays the region finds.

  A point of the 25 × 250 grid is a node block `i = t / 250` (2000 nodes) and an edge block `k = t % 250` (3200 edges).
  After the body at point `t` the scratch accumulator holds, at node row `r` and column `d`, the sum over the edge
  blocks `0 … k` of the messages of the edges whose destination word is node `2000 i + r` (by induction on the point:
  a first edge block adds its contribution to zero, a later one to what the point before left). At `k = 249` that is
  the sum over all 800000 edges, and the body stores the finished layer for the node block; the pipeline writes that
  block back to rows `2000 i … 2000 i + 1999` of the result array. The 25 written blocks tile the array.
-/
import proofs.«402184_j37915971289911_2_alg».proof.Proof.FrameIdeal.Pieces0
import proofs.«402184_j37915971289911_2_alg».proof.Proof.PayValue
import proofs.«402184_j37915971289911_2_alg».proof.Proof.Spec
import proofs.«402184_j37915971289911_2_alg».proof.Proof.SumBlocks
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section ValueR0
variable (V : (c : Dev nD) → (b : Ref sig .tc) → Buf (Elt Ideal) ((c : Thread nD τ).loc b))

/-! ## The arrays the region finds, by name -/

/-- The destination word of edge `e` (the region's operand 0, `[1, 800000]`). -/
abbrev dstR0 (c : Dev nD) : Cert.Sage.ShE.Idx → BitVec 32 := fun i => V c (Pipeline.arrRef spec0 0) (ix2 (0 : Fin 1) (i 0))
/-- The messages (operand 1, `[800000, 64]`). -/
abbrev msgR0 (c : Dev nD) : Cert.Sage.ShED.Idx → EReal := V c (Pipeline.arrRef spec0 1)
/-- The node degrees (operand 2, `[50000, 1]`). -/
abbrev cntR0 (c : Dev nD) : Cert.Sage.ShN.Idx → EReal := fun i => V c (Pipeline.arrRef spec0 2) (ix2 (i 0) (0 : Fin 1))
/-- The node features (operand 3). -/
abbrev featR0 (c : Dev nD) : Cert.Sage.ShND.Idx → EReal := V c (Pipeline.arrRef spec0 3)
/-- The left weights (operand 4), the bias (operand 5, `[1, 64]`), the right weights (operand 6). -/
abbrev wlR0 (c : Dev nD) : Cert.Sage.ShDD.Idx → EReal := V c (Pipeline.arrRef spec0 4)
abbrev biasR0 (c : Dev nD) : Cert.Sage.ShD.Idx → EReal := fun i => V c (Pipeline.arrRef spec0 5) (ix2 (0 : Fin 1) (i 0))
abbrev wrR0 (c : Dev nD) : Cert.Sage.ShDD.Idx → EReal := V c (Pipeline.arrRef spec0 6)

/-! ## The block indices, decided once over the grid -/

theorem idxR0 : ∀ t : Fin cfg0.N,
    win0_0.index t (0 : Fin 2) = 0 ∧ win0_0.index t (1 : Fin 2) = t.val % 250 ∧
    win0_1.index t (0 : Fin 2) = t.val % 250 ∧ win0_1.index t (1 : Fin 2) = 0 ∧
    win0_2.index t (0 : Fin 2) = t.val / 250 ∧ win0_2.index t (1 : Fin 2) = 0 ∧
    win0_3.index t (0 : Fin 2) = t.val / 250 ∧ win0_3.index t (1 : Fin 2) = 0 ∧
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = t.val / 250 ∧ win0_7.index t (1 : Fin 2) = 0 ∧
    ((grid0.coords t) 0).val = t.val / 250 :=
  (by decide +kernel : ∀ t : Fin grid0.N, _)

/-! ## Total accessors: the destination word and the message of edge number `e` -/

/-- Edge `e`'s destination word (zero past the last edge: never read there). -/
def dstAtR0 (c : Dev nD) (e : ℕ) : BitVec 32 :=
  if h : e < 800000 then V c (Pipeline.arrRef spec0 0) (ix2 (0 : Fin 1) (⟨e, h⟩ : Fin 800000)) else 0
/-- Edge `e`'s message in column `d`. -/
def msgAtR0 (c : Dev nD) (e : ℕ) (d : Fin 64) : EReal :=
  if h : e < 800000 then V c (Pipeline.arrRef spec0 1) (ix2 (⟨e, h⟩ : Fin 800000) d) else 0

/-- What edge block `k` contributes to node `2000 i + r`, column `d`. -/
def contribR0 (c : Dev nD) (i k : ℕ) (r : Fin 2000) (d : Fin 64) : EReal :=
  ∑ j : Fin 3200, if dstAtR0 V c (k * 3200 + j.val) = BitVec.ofNat 32 (i * 2000 + r.val) then msgAtR0 V c (k * 3200 + j.val) d else 0

/-! ## The input blocks at their literal types, read at an index -/

abbrev b0R0 (c : Dev nD) (t : Fin cfg0.N) : Vec Ideal S1x3200 .i32 := iblkR0 V c 0 t
abbrev b1R0 (c : Dev nD) (t : Fin cfg0.N) : Vec Ideal S3200x64 .f32 := iblkR0 V c 1 t
abbrev b2R0 (c : Dev nD) (t : Fin cfg0.N) : Vec Ideal S2000x1 .f32 := iblkR0 V c 2 t
abbrev b3R0 (c : Dev nD) (t : Fin cfg0.N) : Vec Ideal S2000x64 .f32 := iblkR0 V c 3 t
abbrev b4R0 (c : Dev nD) (t : Fin cfg0.N) : Vec Ideal S64x64 .f32 := iblkR0 V c 4 t
abbrev b5R0 (c : Dev nD) (t : Fin cfg0.N) : Vec Ideal S1x64 .f32 := iblkR0 V c 5 t
abbrev b6R0 (c : Dev nD) (t : Fin cfg0.N) : Vec Ideal S64x64 .f32 := iblkR0 V c 6 t

theorem edge_ltR0 (t : ℕ) (j : Fin 3200) : (t % 250) * 3200 + j.val < 800000 := by
  have := Nat.mod_lt t (by decide : 0 < 250); have := j.isLt; omega
theorem node_ltR0 (t : Fin cfg0.N) (r : Fin 2000) : (t.val / 250) * 2000 + r.val < 50000 := by
  have hN : t.val < 6250 := lt_of_lt_of_eq t.isLt (show cfg0.N = 6250 from N_0)
  have := r.isLt; omega

theorem b0R0_apply (c : Dev nD) (t : Fin cfg0.N) (j : Fin 3200) :
    b0R0 V c t (ix2 (0 : Fin 1) j) = dstAtR0 V c ((t.val % 250) * 3200 + j.val) := by
  have hi := idxR0 t
  unfold dstAtR0; rw [dif_pos (edge_ltR0 t.val j)]
  show iblkR0 V c 0 t (ix2 (0 : Fin 1) j) = _
  unfold iblkR0
  rw [View.read_apply]
  show V c (Pipeline.arrRef spec0 0) _ = V c (Pipeline.arrRef spec0 0) _
  congr 1
  funext a
  apply Fin.ext
  match a with
  | ⟨0, _⟩ => show win0_0.index t 0 * 1 + 1 * 0 = 0; rw [hi.1]
  | ⟨1, _⟩ => show win0_0.index t 1 * 3200 + 1 * j.val = (t.val % 250) * 3200 + j.val; rw [hi.2.1]; omega

theorem b1R0_apply (c : Dev nD) (t : Fin cfg0.N) (j : Fin 3200) (d : Fin 64) :
    b1R0 V c t (ix2 j d) = msgAtR0 V c ((t.val % 250) * 3200 + j.val) d := by
  have hi := idxR0 t
  unfold msgAtR0; rw [dif_pos (edge_ltR0 t.val j)]
  show iblkR0 V c 1 t (ix2 j d) = _
  unfold iblkR0
  rw [View.read_apply]
  show V c (Pipeline.arrRef spec0 1) _ = V c (Pipeline.arrRef spec0 1) _
  congr 1
  funext a
  apply Fin.ext
  match a with
  | ⟨0, _⟩ => show win0_1.index t 0 * 3200 + 1 * j.val = (t.val % 250) * 3200 + j.val; rw [hi.2.2.1]; omega
  | ⟨1, _⟩ => show win0_1.index t 1 * 64 + 1 * d.val = d.val; rw [hi.2.2.2.1]; omega

theorem b2R0_apply (c : Dev nD) (t : Fin cfg0.N) (r : Fin 2000) :
    b2R0 V c t (ix2 r (0 : Fin 1)) = V c (Pipeline.arrRef spec0 2) (ix2 (⟨(t.val / 250) * 2000 + r.val, node_ltR0 t r⟩ : Fin 50000) (0 : Fin 1)) := by
  have hi := idxR0 t
  show iblkR0 V c 2 t (ix2 r (0 : Fin 1)) = _
  unfold iblkR0
  rw [View.read_apply]
  show V c (Pipeline.arrRef spec0 2) _ = V c (Pipeline.arrRef spec0 2) _
  congr 1
  funext a
  apply Fin.ext
  match a with
  | ⟨0, _⟩ => show win0_2.index t 0 * 2000 + 1 * r.val = (t.val / 250) * 2000 + r.val; rw [hi.2.2.2.2.1]; omega
  | ⟨1, _⟩ => show win0_2.index t 1 * 1 + 1 * 0 = 0; rw [hi.2.2.2.2.2.1]

theorem b3R0_apply (c : Dev nD) (t : Fin cfg0.N) (r : Fin 2000) (d : Fin 64) :
    b3R0 V c t (ix2 r d) = V c (Pipeline.arrRef spec0 3) (ix2 (⟨(t.val / 250) * 2000 + r.val, node_ltR0 t r⟩ : Fin 50000) d) := by
  have hi := idxR0 t
  show iblkR0 V c 3 t (ix2 r d) = _
  unfold iblkR0
  rw [View.read_apply]
  show V c (Pipeline.arrRef spec0 3) _ = V c (Pipeline.arrRef spec0 3) _
  congr 1
  funext a
  apply Fin.ext
  match a with
  | ⟨0, _⟩ => show win0_3.index t 0 * 2000 + 1 * r.val = (t.val / 250) * 2000 + r.val; rw [hi.2.2.2.2.2.2.1]; omega
  | ⟨1, _⟩ => show win0_3.index t 1 * 64 + 1 * d.val = d.val; rw [hi.2.2.2.2.2.2.2.1]; omega

theorem b4R0_apply (c : Dev nD) (t : Fin cfg0.N) (a : Fin 64) (b : Fin 64) :
    b4R0 V c t (ix2 a b) = V c (Pipeline.arrRef spec0 4) (ix2 a b) := by
  have hi := idxR0 t
  show iblkR0 V c 4 t (ix2 a b) = _
  unfold iblkR0
  rw [View.read_apply]
  show V c (Pipeline.arrRef spec0 4) _ = V c (Pipeline.arrRef spec0 4) _
  congr 1
  funext x
  apply Fin.ext
  match x with
  | ⟨0, _⟩ => show win0_4.index t 0 * 64 + 1 * a.val = a.val; rw [hi.2.2.2.2.2.2.2.2.1]; omega
  | ⟨1, _⟩ => show win0_4.index t 1 * 64 + 1 * b.val = b.val; rw [hi.2.2.2.2.2.2.2.2.2.1]; omega

theorem b5R0_apply (c : Dev nD) (t : Fin cfg0.N) (a : Fin 1) (b : Fin 64) :
    b5R0 V c t (ix2 a b) = V c (Pipeline.arrRef spec0 5) (ix2 a b) := by
  have hi := idxR0 t
  show iblkR0 V c 5 t (ix2 a b) = _
  unfold iblkR0
  rw [View.read_apply]
  show V c (Pipeline.arrRef spec0 5) _ = V c (Pipeline.arrRef spec0 5) _
  congr 1
  funext x
  apply Fin.ext
  match x with
  | ⟨0, _⟩ => show win0_5.index t 0 * 1 + 1 * a.val = a.val; rw [hi.2.2.2.2.2.2.2.2.2.2.1]; omega
  | ⟨1, _⟩ => show win0_5.index t 1 * 64 + 1 * b.val = b.val; rw [hi.2.2.2.2.2.2.2.2.2.2.2.1]; omega

theorem b6R0_apply (c : Dev nD) (t : Fin cfg0.N) (a : Fin 64) (b : Fin 64) :
    b6R0 V c t (ix2 a b) = V c (Pipeline.arrRef spec0 6) (ix2 a b) := by
  have hi := idxR0 t
  show iblkR0 V c 6 t (ix2 a b) = _
  unfold iblkR0
  rw [View.read_apply]
  show V c (Pipeline.arrRef spec0 6) _ = V c (Pipeline.arrRef spec0 6) _
  congr 1
  funext x
  apply Fin.ext
  match x with
  | ⟨0, _⟩ => show win0_6.index t 0 * 64 + 1 * a.val = a.val; rw [hi.2.2.2.2.2.2.2.2.2.2.2.2.1]; omega
  | ⟨1, _⟩ => show win0_6.index t 1 * 64 + 1 * b.val = b.val; rw [hi.2.2.2.2.2.2.2.2.2.2.2.2.2.1]; omega

/-! ## The accumulator, point by point -/

theorem coordR0 (t : Fin cfg0.N) : ((grid0.coords t) 0).val = t.val / 250 := (idxR0 t).2.2.2.2.2.2.2.2.2.2.2.2.2.2.2.2

/-- After the body at point number `n` the accumulator holds the contributions of the edge blocks `0 … n % 250` to
    the node block `n / 250`. -/
theorem accR0_eq (c : Dev nD) : ∀ (n : ℕ) (h : n < cfg0.N) (r : Fin 2000) (d : Fin 64),
    (outsAtR0 V c n h).2 (ix2 r d) = ∑ k ∈ Finset.range (n % 250 + 1), contribR0 V c (n / 250) k r d
  | 0, h, r, d => by
    rw [outsAtR0_A V c ⟨0, h⟩ (Nat.zero_mod _)]
    dsimp only
    rw [soutR0_A_eq]
    refine (Cert.Sage.Pay.pay2_apply_0 (grid0.coords ⟨0, h⟩) (b0R0 V c ⟨0, h⟩) (b1R0 V c ⟨0, h⟩) (k0_pay1 (F := Ideal)) r d).trans ?_
    rw [Cert.Sage.Pay.pay1_apply_0, zero_add, coordR0 ⟨0, h⟩]
    simp only [Nat.zero_mod, Nat.zero_div, zero_add, Finset.sum_range_one, contribR0, b0R0_apply, b1R0_apply, Nat.zero_mul]
  | n + 1, h, r, d => by
    have hN : n + 1 < 6250 := lt_of_lt_of_eq h (show cfg0.N = 6250 from N_0)
    by_cases h0 : (n + 1) % 250 = 0
    · rw [outsAtR0_A V c ⟨n + 1, h⟩ h0]
      dsimp only
      rw [soutR0_A_eq]
      refine (Cert.Sage.Pay.pay2_apply_0 (grid0.coords ⟨n + 1, h⟩) (b0R0 V c ⟨n + 1, h⟩) (b1R0 V c ⟨n + 1, h⟩) (k0_pay1 (F := Ideal)) r d).trans ?_
      rw [Cert.Sage.Pay.pay1_apply_0, zero_add, coordR0 ⟨n + 1, h⟩, h0]
      simp only [zero_add, Finset.sum_range_one, contribR0, b0R0_apply, b1R0_apply, h0]
    · have hstep : ∀ xs : Vec Ideal S2000x64 .f32, (∀ r d, xs (ix2 r d) = ∑ k ∈ Finset.range (n % 250 + 1), contribR0 V c (n / 250) k r d) →
          k0_pay2 (grid0.coords ⟨n + 1, h⟩) (b0R0 V c ⟨n + 1, h⟩) (b1R0 V c ⟨n + 1, h⟩) xs (ix2 r d)
            = ∑ k ∈ Finset.range ((n + 1) % 250 + 1), contribR0 V c ((n + 1) / 250) k r d := by
        intro xs hxs
        have hdiv : (n + 1) / 250 = n / 250 := by omega
        have hmod : (n + 1) % 250 = n % 250 + 1 := by omega
        refine (Cert.Sage.Pay.pay2_apply_0 (grid0.coords ⟨n + 1, h⟩) (b0R0 V c ⟨n + 1, h⟩) (b1R0 V c ⟨n + 1, h⟩) xs r d).trans ?_
        rw [hxs, coordR0 ⟨n + 1, h⟩, Finset.sum_range_succ (fun k => contribR0 V c ((n + 1) / 250) k r d) ((n + 1) % 250), hdiv, hmod]
        simp only [contribR0, b0R0_apply, b1R0_apply, hmod]
      by_cases h1 : (n + 1) % 250 = 249
      · rw [outsAtR0_C V c ⟨n + 1, h⟩ h0 h1]
        dsimp only
        rw [soutR0_C_eq]
        exact hstep _ (accR0_eq c n (Nat.lt_of_succ_lt h))
      · rw [outsAtR0_B V c ⟨n + 1, h⟩ h0 h1]
        dsimp only
        rw [soutR0_B_eq]
        exact hstep _ (accR0_eq c n (Nat.lt_of_succ_lt h))

/-! ## The finished node block -/

/-- All 250 edge blocks' contributions to a node are the sum over all edges that end in it. -/
theorem acc_fullR0 (c : Dev nD) (t : Fin cfg0.N) (r : Fin 2000) (d : Fin 64) :
    ∑ k ∈ Finset.range 250, contribR0 V c (t.val / 250) k r d
      = Cert.Sage.aggr (dstR0 V c) (msgR0 V c) (ix2 (⟨(t.val / 250) * 2000 + r.val, node_ltR0 t r⟩ : Fin 50000) d) := by
  unfold contribR0 Cert.Sage.aggr
  rw [Cert.Sage.sum_fin_blocks 250 3200 800000 rfl (fun e => if dstAtR0 V c e = BitVec.ofNat 32 ((t.val / 250) * 2000 + r.val) then msgAtR0 V c e d else 0)]
  refine Finset.sum_congr rfl fun e _ => ?_
  unfold dstAtR0 msgAtR0
  rw [dif_pos e.isLt, dif_pos e.isLt]

/-- The function the launch computes of the arrays it finds. -/
abbrev GR0 (c : Dev nD) : Cert.Sage.ShND.Idx → EReal :=
  Cert.Sage.layerRelu (cntR0 V c) (Cert.Sage.aggr (dstR0 V c) (msgR0 V c)) (featR0 V c) (wlR0 V c) (wrR0 V c) (biasR0 V c)

/-- At a last edge block the body stores the finished layer of the node block. -/
theorem outR0_eq (c : Dev nD) (t : Fin cfg0.N) (h0 : ¬t.val % 250 = 0) (h1 : t.val % 250 = 249) (r : Fin 2000) (d : Fin 64) :
    (outsAtR0 V c t.val t.isLt).1 (ix2 r d) = GR0 V c (ix2 (⟨(t.val / 250) * 2000 + r.val, node_ltR0 t r⟩ : Fin 50000) d) := by
  have hacc : ∀ j : Fin 64, k0_pay2 (grid0.coords t) (b0R0 V c t) (b1R0 V c t) (outsAtR0 V c (t.val - 1) (Nat.lt_of_le_of_lt (Nat.sub_le _ _) t.isLt)).2 (ix2 r j)
      = Cert.Sage.aggr (dstR0 V c) (msgR0 V c) (ix2 (⟨(t.val / 250) * 2000 + r.val, node_ltR0 t r⟩ : Fin 50000) j) := by
    intro j
    have e := accR0_eq V c t.val t.isLt r j
    rw [outsAtR0_C V c t h0 h1] at e
    dsimp only at e
    rw [soutR0_C_eq] at e
    have hr250 : t.val % 250 + 1 = 250 := by omega
    rw [hr250] at e
    exact e.trans (acc_fullR0 V c t r j)
  rw [outsAtR0_C V c t h0 h1]
  dsimp only
  rw [outR0_C_eq]
  refine (Cert.Sage.Pay.pay3_apply_0 (b2R0 V c t) (k0_pay2 (grid0.coords t) (b0R0 V c t) (b1R0 V c t) (outsAtR0 V c (t.val - 1) (Nat.lt_of_le_of_lt (Nat.sub_le _ _) t.isLt)).2) (b4R0 V c t) (b5R0 V c t) (b3R0 V c t) (b6R0 V c t) r d).trans ?_
  simp only [hacc, b2R0_apply, b3R0_apply, b4R0_apply, b5R0_apply, b6R0_apply, Cert.Sage.layerRelu, Cert.Sage.layerPre]

/-! ## The result array -/

/-- What a writing point writes back is its block of `GR0`. -/
theorem flushedR0_eq (c : Dev nD) (t : Fin cfg0.N) (hf : (cfg0.win 7).flush t = true) :
    (datR0 V c).flushed 7 t = ((cfg0.win 7).blk t).view.read (Elt Ideal) (GR0 V c) := by
  have h1 : t.val % 250 = 249 := (flush0_7 t).mp hf
  have h0 : ¬t.val % 250 = 0 := by omega
  have hi := idxR0 t
  show (cfg0.win 7).cut (grid0.coords t) ((datR0 V c).after 7 t) = _
  rw [afterR0_7]
  funext y
  obtain ⟨r, d, rfl⟩ : ∃ (r : Fin 2000) (d : Fin 64), y = ix2 r d := ⟨y 0, y 1, eq_ix2 y⟩
  rw [View.read_apply]
  show (outsAtR0 V c t.val t.isLt).1 (ix2 r d) = GR0 V c (((cfg0.win 7).blk t).view.emb (ix2 r d))
  rw [outR0_eq V c t h0 h1 r d]
  congr 1
  funext a
  apply Fin.ext
  match a with
  | ⟨0, _⟩ => show (t.val / 250) * 2000 + r.val = win0_7.index t 0 * 2000 + 1 * r.val; rw [hi.2.2.2.2.2.2.2.2.2.2.2.2.2.2.1]; omega
  | ⟨1, _⟩ => show d.val = win0_7.index t 1 * 64 + 1 * d.val; rw [hi.2.2.2.2.2.2.2.2.2.2.2.2.2.2.2.1]; omega

theorem mem_blkR0 (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v20).slice (win0_7.rect t)).set ↔ _
  rw [View.set_slice_whole, Rect.mem_set_unit]
  exact Iff.rfl

/-- Every row of the result array is in the block some last-edge-block point writes back. -/
theorem coverR0 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hlt : ((i 0).val / 2000) * 250 + 249 < cfg0.N := by rw [show cfg0.N = 6250 from N_0]; omega
  refine ⟨⟨((i 0).val / 2000) * 250 + 249, hlt⟩, (flush0_7 _).mpr (by show (((i 0).val / 2000) * 250 + 249) % 250 = 249; omega), ?_⟩
  have hi := idxR0 ⟨((i 0).val / 2000) * 250 + 249, hlt⟩
  rw [mem_blkR0]
  intro a
  match a with
  | ⟨0, _⟩ =>
    show win0_7.index _ 0 * 2000 ≤ (i 0).val ∧ (i 0).val < win0_7.index _ 0 * 2000 + 2000
    rw [hi.2.2.2.2.2.2.2.2.2.2.2.2.2.2.1]
    show (((i 0).val / 2000) * 250 + 249) / 250 * 2000 ≤ (i 0).val ∧ (i 0).val < (((i 0).val / 2000) * 250 + 249) / 250 * 2000 + 2000
    omega
  | ⟨1, _⟩ =>
    show win0_7.index _ 1 * 64 ≤ (i 1).val ∧ (i 1).val < win0_7.index _ 1 * 64 + 64
    rw [hi.2.2.2.2.2.2.2.2.2.2.2.2.2.2.2.1]
    omega

/-- THE RESULT ARRAY of the launch: the layer of the arrays the region finds. -/
theorem arrAtR0_eq (c : Dev nD) : (datR0 V c).arrAt 7 cfg0.N = GR0 V c :=
  (datR0 V c).arrAt_eq_of_cover 7 (GR0 V c) (flushedR0_eq V c) coverR0

end ValueR0

end Cert.KernelIdeal.Hand

end
-- ==== Proof.FrameIdeal.Pieces1.lean ====
/-
  Region 1: the pieces each case of the kernel body leaves, read back as values.

  Each case's stores cover the buffer they write, so what the buffer holds afterwards is one array. At a first edge
  block the scratch accumulator is cleared and then updated: it ends at the update of the zero block by the point's
  edge block. At a middle edge block it ends at the update of what it held. At a last edge block it is updated the
  same way and the output block is the combined layer computed from the updated accumulator, the degree block, the
  node-feature block, the two weight matrices and the bias.
-/
import proofs.«402184_j37915971289911_2_alg».proof.Proof.FrameIdeal.Body1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer load or store. -/
theorem hzR1 : (![0, 0] : Fin 2 → Nat) = fun _ => 0 := funext fun a => by fin_cases a <;> rfl

/-- After a first edge block the accumulator holds the update of the zero block: the clearing store is overwritten by
    the covering update, whose accumulator operand is the cleared buffer read back. -/
theorem soutR1_A_eq (c : Dev nD) (t : Fin cfg1.N) (hc0 : condR1_0 (grid1.coords t)) (hc1 : ¬condR1_1 (grid1.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) :
    soutR1_A c t hc0 hc1 x0 x1 x2 x3 x4 x5 x6 = k1_pay2 (grid1.coords t) x0 x1 (k1_pay1 (F := F)) := by
  unfold soutR1_A
  rw [View.read_writes_eq_canon _ _ _ (scoverR1_A c t hc0 hc1 x0 x1 x2 x3 x4 x5 x6)]
  unfold runAtR1_A kernelRunR1_A
  dsimp only
  sl_unfold_words
  rw [View.canon_cons_unit_zero (S := S2000x64) hzR1, View.readCov_unit_zero (S := S2000x64) _ hzR1]
  simp only [View.readAt_eq_ld, (hsR1_0 t).read_unread, (hsR1_1 t).read_unread, (hsR1_2 t).read_unread, (hsR1_3 t).read_unread, (hsR1_4 t).read_unread, (hsR1_5 t).read_unread, (hsR1_6 t).read_unread, (Memref.isWhole_whole _).read_unread, View.ld_unit_zero (S := S1x3200) hzR1, View.ld_unit_zero (S := S3200x64) hzR1, View.ld_unit_zero (S := S2000x1) hzR1, View.ld_unit_zero (S := S2000x64) hzR1, View.ld_unit_zero (S := S64x64) hzR1, View.ld_unit_zero (S := S1x64) hzR1, View.readCov_unit_zero (S := S2000x64) _ hzR1, shapeCast_self]

/-- After a middle edge block the accumulator holds the update of what it held: one covering store, its operands the
    whole buffers. -/
theorem soutR1_B_eq (c : Dev nD) (t : Fin cfg1.N) (hc0 : ¬condR1_0 (grid1.coords t)) (hc1 : ¬condR1_1 (grid1.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    soutR1_B c t hc0 hc1 x0 x1 x2 x3 x4 x5 x6 xs = k1_pay2 (grid1.coords t) x0 x1 xs := by
  unfold soutR1_B
  rw [View.read_writes_eq_canon _ _ _ (scoverR1_B c t hc0 hc1 x0 x1 x2 x3 x4 x5 x6 xs)]
  unfold runAtR1_B kernelRunR1_B
  dsimp only
  sl_unfold_words
  rw [View.canon_unit_zero hzR1]
  simp only [View.readAt_eq_ld, (hsR1_0 t).read_unread, (hsR1_1 t).read_unread, (hsR1_2 t).read_unread, (hsR1_3 t).read_unread, (hsR1_4 t).read_unread, (hsR1_5 t).read_unread, (hsR1_6 t).read_unread, (Memref.isWhole_whole _).read_unread, View.ld_unit_zero (S := S1x3200) hzR1, View.ld_unit_zero (S := S3200x64) hzR1, View.ld_unit_zero (S := S2000x1) hzR1, View.ld_unit_zero (S := S2000x64) hzR1, View.ld_unit_zero (S := S64x64) hzR1, View.ld_unit_zero (S := S1x64) hzR1, View.readCov_unit_zero (S := S2000x64) _ hzR1, shapeCast_self]

/-- After a last edge block the accumulator holds the same update. -/
theorem soutR1_C_eq (c : Dev nD) (t : Fin cfg1.N) (hc0 : ¬condR1_0 (grid1.coords t)) (hc1 : condR1_1 (grid1.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    soutR1_C c t hc0 hc1 x0 x1 x2 x3 x4 x5 x6 xs = k1_pay2 (grid1.coords t) x0 x1 xs := by
  unfold soutR1_C
  rw [View.read_writes_eq_canon _ _ _ (scoverR1_C c t hc0 hc1 x0 x1 x2 x3 x4 x5 x6 xs)]
  unfold runAtR1_C kernelRunR1_C
  dsimp only
  sl_unfold_words
  rw [View.canon_unit_zero hzR1]
  simp only [View.readAt_eq_ld, (hsR1_0 t).read_unread, (hsR1_1 t).read_unread, (hsR1_2 t).read_unread, (hsR1_3 t).read_unread, (hsR1_4 t).read_unread, (hsR1_5 t).read_unread, (hsR1_6 t).read_unread, (Memref.isWhole_whole _).read_unread, View.ld_unit_zero (S := S1x3200) hzR1, View.ld_unit_zero (S := S3200x64) hzR1, View.ld_unit_zero (S := S2000x1) hzR1, View.ld_unit_zero (S := S2000x64) hzR1, View.ld_unit_zero (S := S64x64) hzR1, View.ld_unit_zero (S := S1x64) hzR1, View.readCov_unit_zero (S := S2000x64) _ hzR1, shapeCast_self]

/-- And the output block is the combined layer of the updated accumulator (read back after its store), the degree
    block, the node-feature block, the weights and the bias. -/
theorem outR1_C_eq (c : Dev nD) (t : Fin cfg1.N) (hc0 : ¬condR1_0 (grid1.coords t)) (hc1 : condR1_1 (grid1.coords t))
    (x0 : Vec F S1x3200 .i32) (x1 : Vec F S3200x64 .f32) (x2 : Vec F S2000x1 .f32) (x3 : Vec F S2000x64 .f32) (x4 : Vec F S64x64 .f32) (x5 : Vec F S1x64 .f32) (x6 : Vec F S64x64 .f32) (xs : Vec F S2000x64 .f32) :
    outR1_C c t hc0 hc1 x0 x1 x2 x3 x4 x5 x6 xs = k1_pay3 x2 (k1_pay2 (grid1.coords t) x0 x1 xs) x4 x5 x3 x6 := by
  unfold outR1_C
  rw [View.read_writes_eq_canon _ _ _ (coverR1_C c t hc0 hc1 x0 x1 x2 x3 x4 x5 x6 xs)]
  unfold runAtR1_C kernelRunR1_C
  dsimp only
  sl_unfold_words
  rw [View.canon_unit_zero hzR1]
  simp only [View.readAt_eq_ld, (hsR1_0 t).read_unread, (hsR1_1 t).read_unread, (hsR1_2 t).read_unread, (hsR1_3 t).read_unread, (hsR1_4 t).read_unread, (hsR1_5 t).read_unread, (hsR1_6 t).read_unread, (Memref.isWhole_whole _).read_unread, View.ld_unit_zero (S := S1x3200) hzR1, View.ld_unit_zero (S := S3200x64) hzR1, View.ld_unit_zero (S := S2000x1) hzR1, View.ld_unit_zero (S := S2000x64) hzR1, View.ld_unit_zero (S := S64x64) hzR1, View.ld_unit_zero (S := S1x64) hzR1, View.readCov_unit_zero (S := S2000x64) _ hzR1, shapeCast_self]

end Cert.KernelIdeal.Hand

end
-- ==== Proof.FrameIdeal.Value1.lean ====
/-
  Region 1 at the ideal instance: the launch's result array, as one function of the arrays the region finds.

  A point of the 25 × 250 grid is a node block `i = t / 250` (2000 nodes) and an edge block `k = t % 250` (3200 edges).
  After the body at point `t` the scratch accumulator holds, at node row `r` and column `d`, the sum over the edge
  blocks `0 … k` of the messages of the edges whose destination word is node `2000 i + r` (by induction on the point:
  a first edge block adds its contribution to zero, a later one to what the point before left). At `k = 249` that is
  the sum over all 800000 edges, and the body stores the finished layer for the node block; the pipeline writes that
  block back to rows `2000 i … 2000 i + 1999` of the result array. The 25 written blocks tile the array.
-/
import proofs.«402184_j37915971289911_2_alg».proof.Proof.FrameIdeal.Pieces1
import proofs.«402184_j37915971289911_2_alg».proof.Proof.PayValue
import proofs.«402184_j37915971289911_2_alg».proof.Proof.Spec
import proofs.«402184_j37915971289911_2_alg».proof.Proof.SumBlocks
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section ValueR1
variable (V : (c : Dev nD) → (b : Ref sig .tc) → Buf (Elt Ideal) ((c : Thread nD τ).loc b))

/-! ## The arrays the region finds, by name -/

/-- The destination word of edge `e` (the region's operand 0, `[1, 800000]`). -/
abbrev dstR1 (c : Dev nD) : Cert.Sage.ShE.Idx → BitVec 32 := fun i => V c (Pipeline.arrRef spec1 0) (ix2 (0 : Fin 1) (i 0))
/-- The messages (operand 1, `[800000, 64]`). -/
abbrev msgR1 (c : Dev nD) : Cert.Sage.ShED.Idx → EReal := V c (Pipeline.arrRef spec1 1)
/-- The node degrees (operand 2, `[50000, 1]`). -/
abbrev cntR1 (c : Dev nD) : Cert.Sage.ShN.Idx → EReal := fun i => V c (Pipeline.arrRef spec1 2) (ix2 (i 0) (0 : Fin 1))
/-- The node features (operand 3). -/
abbrev featR1 (c : Dev nD) : Cert.Sage.ShND.Idx → EReal := V c (Pipeline.arrRef spec1 3)
/-- The left weights (operand 4), the bias (operand 5, `[1, 64]`), the right weights (operand 6). -/
abbrev wlR1 (c : Dev nD) : Cert.Sage.ShDD.Idx → EReal := V c (Pipeline.arrRef spec1 4)
abbrev biasR1 (c : Dev nD) : Cert.Sage.ShD.Idx → EReal := fun i => V c (Pipeline.arrRef spec1 5) (ix2 (0 : Fin 1) (i 0))
abbrev wrR1 (c : Dev nD) : Cert.Sage.ShDD.Idx → EReal := V c (Pipeline.arrRef spec1 6)

/-! ## The block indices, decided once over the grid -/

theorem idxR1 : ∀ t : Fin cfg1.N,
    win1_0.index t (0 : Fin 2) = 0 ∧ win1_0.index t (1 : Fin 2) = t.val % 250 ∧
    win1_1.index t (0 : Fin 2) = t.val % 250 ∧ win1_1.index t (1 : Fin 2) = 0 ∧
    win1_2.index t (0 : Fin 2) = t.val / 250 ∧ win1_2.index t (1 : Fin 2) = 0 ∧
    win1_3.index t (0 : Fin 2) = t.val / 250 ∧ win1_3.index t (1 : Fin 2) = 0 ∧
    win1_4.index t (0 : Fin 2) = 0 ∧ win1_4.index t (1 : Fin 2) = 0 ∧
    win1_5.index t (0 : Fin 2) = 0 ∧ win1_5.index t (1 : Fin 2) = 0 ∧
    win1_6.index t (0 : Fin 2) = 0 ∧ win1_6.index t (1 : Fin 2) = 0 ∧
    win1_7.index t (0 : Fin 2) = t.val / 250 ∧ win1_7.index t (1 : Fin 2) = 0 ∧
    ((grid1.coords t) 0).val = t.val / 250 :=
  (by decide +kernel : ∀ t : Fin grid1.N, _)

/-! ## Total accessors: the destination word and the message of edge number `e` -/

/-- Edge `e`'s destination word (zero past the last edge: never read there). -/
def dstAtR1 (c : Dev nD) (e : ℕ) : BitVec 32 :=
  if h : e < 800000 then V c (Pipeline.arrRef spec1 0) (ix2 (0 : Fin 1) (⟨e, h⟩ : Fin 800000)) else 0
/-- Edge `e`'s message in column `d`. -/
def msgAtR1 (c : Dev nD) (e : ℕ) (d : Fin 64) : EReal :=
  if h : e < 800000 then V c (Pipeline.arrRef spec1 1) (ix2 (⟨e, h⟩ : Fin 800000) d) else 0

/-- What edge block `k` contributes to node `2000 i + r`, column `d`. -/
def contribR1 (c : Dev nD) (i k : ℕ) (r : Fin 2000) (d : Fin 64) : EReal :=
  ∑ j : Fin 3200, if dstAtR1 V c (k * 3200 + j.val) = BitVec.ofNat 32 (i * 2000 + r.val) then msgAtR1 V c (k * 3200 + j.val) d else 0

/-! ## The input blocks at their literal types, read at an index -/

abbrev b0R1 (c : Dev nD) (t : Fin cfg1.N) : Vec Ideal S1x3200 .i32 := iblkR1 V c 0 t
abbrev b1R1 (c : Dev nD) (t : Fin cfg1.N) : Vec Ideal S3200x64 .f32 := iblkR1 V c 1 t
abbrev b2R1 (c : Dev nD) (t : Fin cfg1.N) : Vec Ideal S2000x1 .f32 := iblkR1 V c 2 t
abbrev b3R1 (c : Dev nD) (t : Fin cfg1.N) : Vec Ideal S2000x64 .f32 := iblkR1 V c 3 t
abbrev b4R1 (c : Dev nD) (t : Fin cfg1.N) : Vec Ideal S64x64 .f32 := iblkR1 V c 4 t
abbrev b5R1 (c : Dev nD) (t : Fin cfg1.N) : Vec Ideal S1x64 .f32 := iblkR1 V c 5 t
abbrev b6R1 (c : Dev nD) (t : Fin cfg1.N) : Vec Ideal S64x64 .f32 := iblkR1 V c 6 t

theorem edge_ltR1 (t : ℕ) (j : Fin 3200) : (t % 250) * 3200 + j.val < 800000 := by
  have := Nat.mod_lt t (by decide : 0 < 250); have := j.isLt; omega
theorem node_ltR1 (t : Fin cfg1.N) (r : Fin 2000) : (t.val / 250) * 2000 + r.val < 50000 := by
  have hN : t.val < 6250 := lt_of_lt_of_eq t.isLt (show cfg1.N = 6250 from N_1)
  have := r.isLt; omega

theorem b0R1_apply (c : Dev nD) (t : Fin cfg1.N) (j : Fin 3200) :
    b0R1 V c t (ix2 (0 : Fin 1) j) = dstAtR1 V c ((t.val % 250) * 3200 + j.val) := by
  have hi := idxR1 t
  unfold dstAtR1; rw [dif_pos (edge_ltR1 t.val j)]
  show iblkR1 V c 0 t (ix2 (0 : Fin 1) j) = _
  unfold iblkR1
  rw [View.read_apply]
  show V c (Pipeline.arrRef spec1 0) _ = V c (Pipeline.arrRef spec1 0) _
  congr 1
  funext a
  apply Fin.ext
  match a with
  | ⟨0, _⟩ => show win1_0.index t 0 * 1 + 1 * 0 = 0; rw [hi.1]
  | ⟨1, _⟩ => show win1_0.index t 1 * 3200 + 1 * j.val = (t.val % 250) * 3200 + j.val; rw [hi.2.1]; omega

theorem b1R1_apply (c : Dev nD) (t : Fin cfg1.N) (j : Fin 3200) (d : Fin 64) :
    b1R1 V c t (ix2 j d) = msgAtR1 V c ((t.val % 250) * 3200 + j.val) d := by
  have hi := idxR1 t
  unfold msgAtR1; rw [dif_pos (edge_ltR1 t.val j)]
  show iblkR1 V c 1 t (ix2 j d) = _
  unfold iblkR1
  rw [View.read_apply]
  show V c (Pipeline.arrRef spec1 1) _ = V c (Pipeline.arrRef spec1 1) _
  congr 1
  funext a
  apply Fin.ext
  match a with
  | ⟨0, _⟩ => show win1_1.index t 0 * 3200 + 1 * j.val = (t.val % 250) * 3200 + j.val; rw [hi.2.2.1]; omega
  | ⟨1, _⟩ => show win1_1.index t 1 * 64 + 1 * d.val = d.val; rw [hi.2.2.2.1]; omega

theorem b2R1_apply (c : Dev nD) (t : Fin cfg1.N) (r : Fin 2000) :
    b2R1 V c t (ix2 r (0 : Fin 1)) = V c (Pipeline.arrRef spec1 2) (ix2 (⟨(t.val / 250) * 2000 + r.val, node_ltR1 t r⟩ : Fin 50000) (0 : Fin 1)) := by
  have hi := idxR1 t
  show iblkR1 V c 2 t (ix2 r (0 : Fin 1)) = _
  unfold iblkR1
  rw [View.read_apply]
  show V c (Pipeline.arrRef spec1 2) _ = V c (Pipeline.arrRef spec1 2) _
  congr 1
  funext a
  apply Fin.ext
  match a with
  | ⟨0, _⟩ => show win1_2.index t 0 * 2000 + 1 * r.val = (t.val / 250) * 2000 + r.val; rw [hi.2.2.2.2.1]; omega
  | ⟨1, _⟩ => show win1_2.index t 1 * 1 + 1 * 0 = 0; rw [hi.2.2.2.2.2.1]

theorem b3R1_apply (c : Dev nD) (t : Fin cfg1.N) (r : Fin 2000) (d : Fin 64) :
    b3R1 V c t (ix2 r d) = V c (Pipeline.arrRef spec1 3) (ix2 (⟨(t.val / 250) * 2000 + r.val, node_ltR1 t r⟩ : Fin 50000) d) := by
  have hi := idxR1 t
  show iblkR1 V c 3 t (ix2 r d) = _
  unfold iblkR1
  rw [View.read_apply]
  show V c (Pipeline.arrRef spec1 3) _ = V c (Pipeline.arrRef spec1 3) _
  congr 1
  funext a
  apply Fin.ext
  match a with
  | ⟨0, _⟩ => show win1_3.index t 0 * 2000 + 1 * r.val = (t.val / 250) * 2000 + r.val; rw [hi.2.2.2.2.2.2.1]; omega
  | ⟨1, _⟩ => show win1_3.index t 1 * 64 + 1 * d.val = d.val; rw [hi.2.2.2.2.2.2.2.1]; omega

theorem b4R1_apply (c : Dev nD) (t : Fin cfg1.N) (a : Fin 64) (b : Fin 64) :
    b4R1 V c t (ix2 a b) = V c (Pipeline.arrRef spec1 4) (ix2 a b) := by
  have hi := idxR1 t
  show iblkR1 V c 4 t (ix2 a b) = _
  unfold iblkR1
  rw [View.read_apply]
  show V c (Pipeline.arrRef spec1 4) _ = V c (Pipeline.arrRef spec1 4) _
  congr 1
  funext x
  apply Fin.ext
  match x with
  | ⟨0, _⟩ => show win1_4.index t 0 * 64 + 1 * a.val = a.val; rw [hi.2.2.2.2.2.2.2.2.1]; omega
  | ⟨1, _⟩ => show win1_4.index t 1 * 64 + 1 * b.val = b.val; rw [hi.2.2.2.2.2.2.2.2.2.1]; omega

theorem b5R1_apply (c : Dev nD) (t : Fin cfg1.N) (a : Fin 1) (b : Fin 64) :
    b5R1 V c t (ix2 a b) = V c (Pipeline.arrRef spec1 5) (ix2 a b) := by
  have hi := idxR1 t
  show iblkR1 V c 5 t (ix2 a b) = _
  unfold iblkR1
  rw [View.read_apply]
  show V c (Pipeline.arrRef spec1 5) _ = V c (Pipeline.arrRef spec1 5) _
  congr 1
  funext x
  apply Fin.ext
  match x with
  | ⟨0, _⟩ => show win1_5.index t 0 * 1 + 1 * a.val = a.val; rw [hi.2.2.2.2.2.2.2.2.2.2.1]; omega
  | ⟨1, _⟩ => show win1_5.index t 1 * 64 + 1 * b.val = b.val; rw [hi.2.2.2.2.2.2.2.2.2.2.2.1]; omega

theorem b6R1_apply (c : Dev nD) (t : Fin cfg1.N) (a : Fin 64) (b : Fin 64) :
    b6R1 V c t (ix2 a b) = V c (Pipeline.arrRef spec1 6) (ix2 a b) := by
  have hi := idxR1 t
  show iblkR1 V c 6 t (ix2 a b) = _
  unfold iblkR1
  rw [View.read_apply]
  show V c (Pipeline.arrRef spec1 6) _ = V c (Pipeline.arrRef spec1 6) _
  congr 1
  funext x
  apply Fin.ext
  match x with
  | ⟨0, _⟩ => show win1_6.index t 0 * 64 + 1 * a.val = a.val; rw [hi.2.2.2.2.2.2.2.2.2.2.2.2.1]; omega
  | ⟨1, _⟩ => show win1_6.index t 1 * 64 + 1 * b.val = b.val; rw [hi.2.2.2.2.2.2.2.2.2.2.2.2.2.1]; omega

/-! ## The accumulator, point by point -/

theorem coordR1 (t : Fin cfg1.N) : ((grid1.coords t) 0).val = t.val / 250 := (idxR1 t).2.2.2.2.2.2.2.2.2.2.2.2.2.2.2.2

/-- After the body at point number `n` the accumulator holds the contributions of the edge blocks `0 … n % 250` to
    the node block `n / 250`. -/
theorem accR1_eq (c : Dev nD) : ∀ (n : ℕ) (h : n < cfg1.N) (r : Fin 2000) (d : Fin 64),
    (outsAtR1 V c n h).2 (ix2 r d) = ∑ k ∈ Finset.range (n % 250 + 1), contribR1 V c (n / 250) k r d
  | 0, h, r, d => by
    rw [outsAtR1_A V c ⟨0, h⟩ (Nat.zero_mod _)]
    dsimp only
    rw [soutR1_A_eq]
    refine (Cert.Sage.Pay.pay2_apply_1 (grid1.coords ⟨0, h⟩) (b0R1 V c ⟨0, h⟩) (b1R1 V c ⟨0, h⟩) (k1_pay1 (F := Ideal)) r d).trans ?_
    rw [Cert.Sage.Pay.pay1_apply_1, zero_add, coordR1 ⟨0, h⟩]
    simp only [Nat.zero_mod, Nat.zero_div, zero_add, Finset.sum_range_one, contribR1, b0R1_apply, b1R1_apply, Nat.zero_mul]
  | n + 1, h, r, d => by
    have hN : n + 1 < 6250 := lt_of_lt_of_eq h (show cfg1.N = 6250 from N_1)
    by_cases h0 : (n + 1) % 250 = 0
    · rw [outsAtR1_A V c ⟨n + 1, h⟩ h0]
      dsimp only
      rw [soutR1_A_eq]
      refine (Cert.Sage.Pay.pay2_apply_1 (grid1.coords ⟨n + 1, h⟩) (b0R1 V c ⟨n + 1, h⟩) (b1R1 V c ⟨n + 1, h⟩) (k1_pay1 (F := Ideal)) r d).trans ?_
      rw [Cert.Sage.Pay.pay1_apply_1, zero_add, coordR1 ⟨n + 1, h⟩, h0]
      simp only [zero_add, Finset.sum_range_one, contribR1, b0R1_apply, b1R1_apply, h0]
    · have hstep : ∀ xs : Vec Ideal S2000x64 .f32, (∀ r d, xs (ix2 r d) = ∑ k ∈ Finset.range (n % 250 + 1), contribR1 V c (n / 250) k r d) →
          k1_pay2 (grid1.coords ⟨n + 1, h⟩) (b0R1 V c ⟨n + 1, h⟩) (b1R1 V c ⟨n + 1, h⟩) xs (ix2 r d)
            = ∑ k ∈ Finset.range ((n + 1) % 250 + 1), contribR1 V c ((n + 1) / 250) k r d := by
        intro xs hxs
        have hdiv : (n + 1) / 250 = n / 250 := by omega
        have hmod : (n + 1) % 250 = n % 250 + 1 := by omega
        refine (Cert.Sage.Pay.pay2_apply_1 (grid1.coords ⟨n + 1, h⟩) (b0R1 V c ⟨n + 1, h⟩) (b1R1 V c ⟨n + 1, h⟩) xs r d).trans ?_
        rw [hxs, coordR1 ⟨n + 1, h⟩, Finset.sum_range_succ (fun k => contribR1 V c ((n + 1) / 250) k r d) ((n + 1) % 250), hdiv, hmod]
        simp only [contribR1, b0R1_apply, b1R1_apply, hmod]
      by_cases h1 : (n + 1) % 250 = 249
      · rw [outsAtR1_C V c ⟨n + 1, h⟩ h0 h1]
        dsimp only
        rw [soutR1_C_eq]
        exact hstep _ (accR1_eq c n (Nat.lt_of_succ_lt h))
      · rw [outsAtR1_B V c ⟨n + 1, h⟩ h0 h1]
        dsimp only
        rw [soutR1_B_eq]
        exact hstep _ (accR1_eq c n (Nat.lt_of_succ_lt h))

/-! ## The finished node block -/

/-- All 250 edge blocks' contributions to a node are the sum over all edges that end in it. -/
theorem acc_fullR1 (c : Dev nD) (t : Fin cfg1.N) (r : Fin 2000) (d : Fin 64) :
    ∑ k ∈ Finset.range 250, contribR1 V c (t.val / 250) k r d
      = Cert.Sage.aggr (dstR1 V c) (msgR1 V c) (ix2 (⟨(t.val / 250) * 2000 + r.val, node_ltR1 t r⟩ : Fin 50000) d) := by
  unfold contribR1 Cert.Sage.aggr
  rw [Cert.Sage.sum_fin_blocks 250 3200 800000 rfl (fun e => if dstAtR1 V c e = BitVec.ofNat 32 ((t.val / 250) * 2000 + r.val) then msgAtR1 V c e d else 0)]
  refine Finset.sum_congr rfl fun e _ => ?_
  unfold dstAtR1 msgAtR1
  rw [dif_pos e.isLt, dif_pos e.isLt]

/-- The function the launch computes of the arrays it finds. -/
abbrev GR1 (c : Dev nD) : Cert.Sage.ShND.Idx → EReal :=
  Cert.Sage.layerPre (cntR1 V c) (Cert.Sage.aggr (dstR1 V c) (msgR1 V c)) (featR1 V c) (wlR1 V c) (wrR1 V c) (biasR1 V c)

/-- At a last edge block the body stores the finished layer of the node block. -/
theorem outR1_eq (c : Dev nD) (t : Fin cfg1.N) (h0 : ¬t.val % 250 = 0) (h1 : t.val % 250 = 249) (r : Fin 2000) (d : Fin 64) :
    (outsAtR1 V c t.val t.isLt).1 (ix2 r d) = GR1 V c (ix2 (⟨(t.val / 250) * 2000 + r.val, node_ltR1 t r⟩ : Fin 50000) d) := by
  have hacc : ∀ j : Fin 64, k1_pay2 (grid1.coords t) (b0R1 V c t) (b1R1 V c t) (outsAtR1 V c (t.val - 1) (Nat.lt_of_le_of_lt (Nat.sub_le _ _) t.isLt)).2 (ix2 r j)
      = Cert.Sage.aggr (dstR1 V c) (msgR1 V c) (ix2 (⟨(t.val / 250) * 2000 + r.val, node_ltR1 t r⟩ : Fin 50000) j) := by
    intro j
    have e := accR1_eq V c t.val t.isLt r j
    rw [outsAtR1_C V c t h0 h1] at e
    dsimp only at e
    rw [soutR1_C_eq] at e
    have hr250 : t.val % 250 + 1 = 250 := by omega
    rw [hr250] at e
    exact e.trans (acc_fullR1 V c t r j)
  rw [outsAtR1_C V c t h0 h1]
  dsimp only
  rw [outR1_C_eq]
  refine (Cert.Sage.Pay.pay3_apply_1 (b2R1 V c t) (k1_pay2 (grid1.coords t) (b0R1 V c t) (b1R1 V c t) (outsAtR1 V c (t.val - 1) (Nat.lt_of_le_of_lt (Nat.sub_le _ _) t.isLt)).2) (b4R1 V c t) (b5R1 V c t) (b3R1 V c t) (b6R1 V c t) r d).trans ?_
  simp only [hacc, b2R1_apply, b3R1_apply, b4R1_apply, b5R1_apply, b6R1_apply, Cert.Sage.layerPre, Cert.Sage.layerPre]

/-! ## The result array -/

/-- What a writing point writes back is its block of `GR1`. -/
theorem flushedR1_eq (c : Dev nD) (t : Fin cfg1.N) (hf : (cfg1.win 7).flush t = true) :
    (datR1 V c).flushed 7 t = ((cfg1.win 7).blk t).view.read (Elt Ideal) (GR1 V c) := by
  have h1 : t.val % 250 = 249 := (flush1_7 t).mp hf
  have h0 : ¬t.val % 250 = 0 := by omega
  have hi := idxR1 t
  show (cfg1.win 7).cut (grid1.coords t) ((datR1 V c).after 7 t) = _
  rw [afterR1_7]
  funext y
  obtain ⟨r, d, rfl⟩ : ∃ (r : Fin 2000) (d : Fin 64), y = ix2 r d := ⟨y 0, y 1, eq_ix2 y⟩
  rw [View.read_apply]
  show (outsAtR1 V c t.val t.isLt).1 (ix2 r d) = GR1 V c (((cfg1.win 7).blk t).view.emb (ix2 r d))
  rw [outR1_eq V c t h0 h1 r d]
  congr 1
  funext a
  apply Fin.ext
  match a with
  | ⟨0, _⟩ => show (t.val / 250) * 2000 + r.val = win1_7.index t 0 * 2000 + 1 * r.val; rw [hi.2.2.2.2.2.2.2.2.2.2.2.2.2.2.1]; omega
  | ⟨1, _⟩ => show d.val = win1_7.index t 1 * 64 + 1 * d.val; rw [hi.2.2.2.2.2.2.2.2.2.2.2.2.2.2.2.1]; omega

theorem mem_blkR1 (t : Fin cfg1.N) (i : S50000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v29).slice (win1_7.rect t)).set ↔ _
  rw [View.set_slice_whole, Rect.mem_set_unit]
  exact Iff.rfl

/-- Every row of the result array is in the block some last-edge-block point writes back. -/
theorem coverR1 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hlt : ((i 0).val / 2000) * 250 + 249 < cfg1.N := by rw [show cfg1.N = 6250 from N_1]; omega
  refine ⟨⟨((i 0).val / 2000) * 250 + 249, hlt⟩, (flush1_7 _).mpr (by show (((i 0).val / 2000) * 250 + 249) % 250 = 249; omega), ?_⟩
  have hi := idxR1 ⟨((i 0).val / 2000) * 250 + 249, hlt⟩
  rw [mem_blkR1]
  intro a
  match a with
  | ⟨0, _⟩ =>
    show win1_7.index _ 0 * 2000 ≤ (i 0).val ∧ (i 0).val < win1_7.index _ 0 * 2000 + 2000
    rw [hi.2.2.2.2.2.2.2.2.2.2.2.2.2.2.1]
    show (((i 0).val / 2000) * 250 + 249) / 250 * 2000 ≤ (i 0).val ∧ (i 0).val < (((i 0).val / 2000) * 250 + 249) / 250 * 2000 + 2000
    omega
  | ⟨1, _⟩ =>
    show win1_7.index _ 1 * 64 ≤ (i 1).val ∧ (i 1).val < win1_7.index _ 1 * 64 + 64
    rw [hi.2.2.2.2.2.2.2.2.2.2.2.2.2.2.2.1]
    omega

/-- THE RESULT ARRAY of the launch: the layer of the arrays the region finds. -/
theorem arrAtR1_eq (c : Dev nD) : (datR1 V c).arrAt 7 cfg1.N = GR1 V c :=
  (datR1 V c).arrAt_eq_of_cover 7 (GR1 V c) (flushedR1_eq V c) coverR1

end ValueR1

end Cert.KernelIdeal.Hand

end
-- ==== Proof.KernelValue.lean ====
/-
  The kernel program's result, at the ideal instance, is the two-layer network of the specification applied to the
  rows of the edge array as they are, with no clamp.

  The program clamps each row of the edge array into `[0, 49999]` before it uses it. Under the range hypothesis
  (every word of the edge array, read signed, is in `[0, 50000)`) the clamp returns its operand, so the vectors the
  launches are given are the reshaped rows themselves. The arrays each launch finds are read back, one by one, as the
  specification's arguments: the destinations, the degrees and the biases through their reshapes to one row or one
  column, the messages as the gather at the sources, the weights as launched. The first launch's result is the first
  layer; the second launch gathers from it and its result is the network.
-/
import proofs.«402184_j37915971289911_2_alg».proof.Proof.Glue
import proofs.«402184_j37915971289911_2_alg».proof.Proof.Domain
import proofs.«402184_j37915971289911_2_alg».proof.Proof.Spec
import proofs.«402184_j37915971289911_2_alg».proof.Proof.FrameIdeal.Launch
import proofs.«402184_j37915971289911_2_alg».proof.Proof.FrameIdeal.Value0
import proofs.«402184_j37915971289911_2_alg».proof.Proof.FrameIdeal.Value1
import Idealize.ShloMosaic.Lib.ValueLayout

set_option maxRecDepth 16384

noncomputable section

namespace Cert.Sage.KVal

open Cert.KernelIdeal Cert.KernelIdeal.Gen Cert.KernelIdeal.Hand Idealize.ShloMosaic Idealize.ShloMosaic.ValueIdx
open Idealize.ShloMosaic.TcCoe

variable [Cert.KernelIdeal.Facts]

/-! ## The unclamped index vectors -/

/-- Row 0 of the edge array (the source nodes) as a vector. -/
def srcRaw (e1 : IVec S2x800000 32) : IVec S800000 32 :=
  shapeCast S800000 (extractStridedSlice S1x800000 ![0, 0] e1 slices_S2x800000_S1x800000_0_0) shapeCasts_S1x800000_S800000

/-- Row 1 of the edge array (the destination nodes) as a vector. -/
def dstRaw (e1 : IVec S2x800000 32) : IVec S800000 32 :=
  shapeCast S800000 (extractStridedSlice S1x800000 ![1, 0] e1 slices_S2x800000_S1x800000_1_0) shapeCasts_S1x800000_S800000

/-- The gather of a feature array at the source nodes. -/
def gatK (e1 : IVec S2x800000 32) (x : FVec Ideal S50000x64 .f32) : FVec Ideal S800000x64 .f32 :=
  Host.gather gather_S50000x64_S800000x1_S800000x64_1_0_n_n_0_1_164 x (Glue.wrapIdx (srcRaw e1))

/-- The node degrees: over a zero vector, a one added at the destination of every edge. -/
def cntRaw (e1 : IVec S2x800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 (dstRaw e1))
    (broadcastInDim S800000 ![] bcast_S_S800000 (constant (F := Ideal) S_ .f32 0x3F800000#32))

/-! ## In range, the clamp does nothing -/

section Range
variable (e1 : IVec S2x800000 32) (hr : ∀ i : S2x800000.Idx, 0 ≤ (e1 i).toInt ∧ (e1 i).toInt < 50000)
include hr

/-- Every entry of a row of the edge array is an entry of the array. -/
theorem srcRaw_range (i : S800000.Idx) : 0 ≤ (srcRaw e1 i).toInt ∧ (srcRaw e1 i).toInt < 50000 := by
  unfold srcRaw shapeCast extractStridedSlice
  exact hr _

theorem dstRaw_range (i : S800000.Idx) : 0 ≤ (dstRaw e1 i).toInt ∧ (dstRaw e1 i).toInt < 50000 := by
  unfold dstRaw shapeCast extractStridedSlice
  exact hr _

/-- The same at an edge's number. -/
theorem srcRaw_in_range (e : Fin 800000) : 0 ≤ (srcRaw e1 (ix1 e)).toInt ∧ (srcRaw e1 (ix1 e)).toInt < 50000 :=
  srcRaw_range e1 hr (ix1 e)

theorem dstRaw_in_range (e : Fin 800000) : 0 ≤ (dstRaw e1 (ix1 e)).toInt ∧ (dstRaw e1 (ix1 e)).toInt < 50000 :=
  dstRaw_range e1 hr (ix1 e)

theorem srcClip_eq : Glue.srcClip e1 = srcRaw e1 :=
  Domain.clamp_vec (srcRaw e1) (srcRaw_range e1 hr) _ _ (fun _ => rfl) (fun _ => rfl)

theorem dstClip_eq : Glue.dstClip e1 = dstRaw e1 :=
  Domain.clamp_vec (dstRaw e1) (dstRaw_range e1 hr) _ _ (fun _ => rfl) (fun _ => rfl)

theorem srcIdxK_eq : Glue.srcIdxK e1 = Glue.wrapIdx (srcRaw e1) := by
  rw [Glue.srcIdxK_eq, srcClip_eq e1 hr]

theorem cntK_eq : Glue.cntK (F := Ideal) e1 = cntRaw e1 := by
  unfold Glue.cntK cntRaw
  rw [dstClip_eq e1 hr]

end Range

/-! ## A vector read through a reshape to one row or one column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector laid out as one row, read along the row, is the vector. -/
theorem row_read {α : Type} {a : ℕ} (x : (⟨1, ![a]⟩ : Shape).Idx → α) (h : (⟨1, ![a]⟩ : Shape).ShapeCasts ⟨2, ![1, a]⟩) :
    (fun i : (⟨1, ![a]⟩ : Shape).Idx => shapeCast ⟨2, ![1, a]⟩ x h (ix2 (0 : Fin 1) (i 0))) = x :=
  funext fun i => (shapeCast_a_1a_apply x h 0 (i 0)).trans (congrArg x (eq_ix1 i).symm)

/-- A vector laid out as one column, read down the column, is the vector. -/
theorem col_read {α : Type} {a : ℕ} (x : (⟨1, ![a]⟩ : Shape).Idx → α) (h : (⟨1, ![a]⟩ : Shape).ShapeCasts ⟨2, ![a, 1]⟩) :
    (fun i : (⟨1, ![a]⟩ : Shape).Idx => shapeCast ⟨2, ![a, 1]⟩ x h (ix2 (i 0) (0 : Fin 1))) = x :=
  funext fun i => (shapeCast_a_a1_apply x h (i 0) 0).trans (congrArg x (eq_ix1 i).symm)

/-! ## The two layers over the arrays their launches find -/

section Layers
variable (X W6 : Valuation τ sig (Elt Ideal))
variable (hr : ∀ i : S2x800000.Idx, 0 ≤ ((X (Proc.devRef .tc main_arg1 : DevRef τ sig)) i).toInt ∧ ((X (Proc.devRef .tc main_arg1 : DevRef τ sig)) i).toInt < 50000)

/-- The first layer, over what the host operations before the first launch make of the arrays `X`. -/
abbrev hid0 : Cert.Sage.ShND.Idx → EReal :=
  Cert.Sage.layerRelu (fun i : Cert.Sage.ShN.Idx => Glue.pre0 X (Proc.devRef .tc main_v11 : DevRef τ sig) (ix2 (i 0) (0 : Fin 1)))
    (Cert.Sage.aggr (fun i : Cert.Sage.ShE.Idx => Glue.pre0 X (Proc.devRef .tc main_v6 : DevRef τ sig) (ix2 (0 : Fin 1) (i 0))) (Glue.pre0 X (Proc.devRef .tc main_v18 : DevRef τ sig)))
    (Glue.pre0 X (Proc.devRef .tc main_arg0 : DevRef τ sig)) (Glue.pre0 X (Proc.devRef .tc main_arg2 : DevRef τ sig)) (Glue.pre0 X (Proc.devRef .tc main_arg4 : DevRef τ sig))
    (fun i : Cert.Sage.ShD.Idx => Glue.pre0 X (Proc.devRef .tc main_v19 : DevRef τ sig) (ix2 (0 : Fin 1) (i 0)))

/-- The first layer's value over the launch's own arrays. -/
abbrev hidRaw : Cert.Sage.ShND.Idx → EReal :=
  Cert.Sage.layerRelu (cntRaw (X (Proc.devRef .tc main_arg1 : DevRef τ sig))) (Cert.Sage.aggr (dstRaw (X (Proc.devRef .tc main_arg1 : DevRef τ sig))) (gatK (X (Proc.devRef .tc main_arg1 : DevRef τ sig)) (X (Proc.devRef .tc main_arg0 : DevRef τ sig))))
    (X (Proc.devRef .tc main_arg0 : DevRef τ sig)) (X (Proc.devRef .tc main_arg2 : DevRef τ sig)) (X (Proc.devRef .tc main_arg4 : DevRef τ sig)) (X (Proc.devRef .tc main_arg3 : DevRef τ sig))

include hr in
/-- The first launch's operands are the specification's: the degrees and the destinations read back through their
    reshapes with the clamp gone, the gathered messages, the untouched arguments, the bias through its reshape. -/
theorem hid0_eq : hid0 X = hidRaw X := by
  have hcnt : (fun i : Cert.Sage.ShN.Idx => Glue.pre0 X (Proc.devRef .tc main_v11 : DevRef τ sig) (ix2 (i 0) (0 : Fin 1))) = cntRaw (X (Proc.devRef .tc main_arg1 : DevRef τ sig)) := by
    rw [Glue.pre0_v11, cntK_eq _ hr]; exact col_read _ _
  have hdst : (fun i : Cert.Sage.ShE.Idx => Glue.pre0 X (Proc.devRef .tc main_v6 : DevRef τ sig) (ix2 (0 : Fin 1) (i 0))) = dstRaw (X (Proc.devRef .tc main_arg1 : DevRef τ sig)) := by
    rw [Glue.pre0_v6, dstClip_eq _ hr]; exact row_read _ _
  have hmsg : Glue.pre0 X (Proc.devRef .tc main_v18 : DevRef τ sig) = gatK (X (Proc.devRef .tc main_arg1 : DevRef τ sig)) (X (Proc.devRef .tc main_arg0 : DevRef τ sig)) := by
    rw [Glue.pre0_v18, srcIdxK_eq _ hr]; rfl
  have hb : (fun i : Cert.Sage.ShD.Idx => Glue.pre0 X (Proc.devRef .tc main_v19 : DevRef τ sig) (ix2 (0 : Fin 1) (i 0))) = X (Proc.devRef .tc main_arg3 : DevRef τ sig) := by
    rw [Glue.pre0_v19]; exact row_read _ _
  unfold hid0 hidRaw
  rw [hcnt, hdst, hmsg, hb, Glue.pre0_arg0, Glue.pre0_arg2, Glue.pre0_arg4]

/-- The second layer, over what the host operations between the launches make of the arrays `W6`. -/
abbrev out1 : Cert.Sage.ShND.Idx → EReal :=
  Cert.Sage.layerPre (fun i : Cert.Sage.ShN.Idx => Glue.pre1 W6 (Proc.devRef .tc main_v11 : DevRef τ sig) (ix2 (i 0) (0 : Fin 1)))
    (Cert.Sage.aggr (fun i : Cert.Sage.ShE.Idx => Glue.pre1 W6 (Proc.devRef .tc main_v6 : DevRef τ sig) (ix2 (0 : Fin 1) (i 0))) (Glue.pre1 W6 (Proc.devRef .tc main_v27 : DevRef τ sig)))
    (Glue.pre1 W6 (Proc.devRef .tc main_v20 : DevRef τ sig)) (Glue.pre1 W6 (Proc.devRef .tc main_arg5 : DevRef τ sig)) (Glue.pre1 W6 (Proc.devRef .tc main_arg7 : DevRef τ sig))
    (fun i : Cert.Sage.ShD.Idx => Glue.pre1 W6 (Proc.devRef .tc main_v28 : DevRef τ sig) (ix2 (0 : Fin 1) (i 0)))

include hr in
/-- When the first launch leaves its result in `main_v20` and every other array as it found it, the second layer over
    the second launch's operands is the whole network over the program's arguments. -/
theorem out1_eq (h20 : W6 (Proc.devRef .tc main_v20 : DevRef τ sig) = hid0 X)
    (h_v11 : W6 (Proc.devRef .tc main_v11 : DevRef τ sig) = Glue.pre0 X (Proc.devRef .tc main_v11 : DevRef τ sig))
    (h_v6 : W6 (Proc.devRef .tc main_v6 : DevRef τ sig) = Glue.pre0 X (Proc.devRef .tc main_v6 : DevRef τ sig))
    (h_v2 : W6 (Proc.devRef .tc main_v2 : DevRef τ sig) = Glue.pre0 X (Proc.devRef .tc main_v2 : DevRef τ sig))
    (h_arg5 : W6 (Proc.devRef .tc main_arg5 : DevRef τ sig) = Glue.pre0 X (Proc.devRef .tc main_arg5 : DevRef τ sig))
    (h_arg6 : W6 (Proc.devRef .tc main_arg6 : DevRef τ sig) = Glue.pre0 X (Proc.devRef .tc main_arg6 : DevRef τ sig))
    (h_arg7 : W6 (Proc.devRef .tc main_arg7 : DevRef τ sig) = Glue.pre0 X (Proc.devRef .tc main_arg7 : DevRef τ sig)) :
    out1 W6 = Cert.Sage.net (gatK (X (Proc.devRef .tc main_arg1 : DevRef τ sig))) (dstRaw (X (Proc.devRef .tc main_arg1 : DevRef τ sig))) (cntRaw (X (Proc.devRef .tc main_arg1 : DevRef τ sig))) (X (Proc.devRef .tc main_arg0 : DevRef τ sig))
      (X (Proc.devRef .tc main_arg2 : DevRef τ sig)) (X (Proc.devRef .tc main_arg4 : DevRef τ sig)) (X (Proc.devRef .tc main_arg5 : DevRef τ sig)) (X (Proc.devRef .tc main_arg7 : DevRef τ sig))
      (X (Proc.devRef .tc main_arg3 : DevRef τ sig)) (X (Proc.devRef .tc main_arg6 : DevRef τ sig)) := by
  have h20' : W6 (Proc.devRef .tc main_v20 : DevRef τ sig) = hidRaw X := h20.trans (hid0_eq X hr)
  have hcnt : (fun i : Cert.Sage.ShN.Idx => Glue.pre1 W6 (Proc.devRef .tc main_v11 : DevRef τ sig) (ix2 (i 0) (0 : Fin 1))) = cntRaw (X (Proc.devRef .tc main_arg1 : DevRef τ sig)) := by
    rw [Glue.pre1_v11, h_v11, Glue.pre0_v11, cntK_eq _ hr]; exact col_read _ _
  have hdst : (fun i : Cert.Sage.ShE.Idx => Glue.pre1 W6 (Proc.devRef .tc main_v6 : DevRef τ sig) (ix2 (0 : Fin 1) (i 0))) = dstRaw (X (Proc.devRef .tc main_arg1 : DevRef τ sig)) := by
    rw [Glue.pre1_v6, h_v6, Glue.pre0_v6, dstClip_eq _ hr]; exact row_read _ _
  have hmsg : Glue.pre1 W6 (Proc.devRef .tc main_v27 : DevRef τ sig) = gatK (X (Proc.devRef .tc main_arg1 : DevRef τ sig)) (hidRaw X) := by
    rw [Glue.pre1_v27_wrap, h20', h_v2, Glue.pre0_v2, srcClip_eq _ hr]; rfl
  have hb : (fun i : Cert.Sage.ShD.Idx => Glue.pre1 W6 (Proc.devRef .tc main_v28 : DevRef τ sig) (ix2 (0 : Fin 1) (i 0))) = X (Proc.devRef .tc main_arg6 : DevRef τ sig) := by
    rw [Glue.pre1_v28, h_arg6, Glue.pre0_arg6]; exact row_read _ _
  unfold out1 Cert.Sage.net
  rw [hcnt, hdst, hmsg, hb, Glue.pre1_v20, h20', Glue.pre1_arg5, h_arg5, Glue.pre0_arg5,
    Glue.pre1_arg7, h_arg7, Glue.pre0_arg7]

end Layers

/-! ## The program's result -/

section Final
variable (m : (ℓ : Loc nD τ sig) → Buf (Elt Ideal) ℓ) (ρ : Dev nD → PrngReg) (c : Dev nD)

/-- The first launch leaves the first layer in its result array: its last write-back fold, over the arrays it was
    entered with, which are the five stretches' fold of the launch memory. -/
theorem hid_value : W6 m ρ c (Proc.devRef .tc main_v20 : DevRef τ sig) = hid0 (W0 m ρ c) :=
  (W6_main_v20 m ρ c).trans (arrAtR0_eq (E5 m ρ) c)

/-- The second launch's result is the network of the specification over the program's arguments, the index vectors
    the unclamped rows of the edge array. -/
theorem kernel_value
    (hr : ∀ i : S2x800000.Idx, 0 ≤ ((m ((c : Thread nD τ).loc main_arg1)) i).toInt ∧ ((m ((c : Thread nD τ).loc main_arg1)) i).toInt < 50000) :
    (datR1 (E7 m ρ) c).arrAt 7 cfg1.N
      = Cert.Sage.net (gatK (m ((c : Thread nD τ).loc main_arg1))) (dstRaw (m ((c : Thread nD τ).loc main_arg1))) (cntRaw (m ((c : Thread nD τ).loc main_arg1)))
          (m ((c : Thread nD τ).loc main_arg0)) (m ((c : Thread nD τ).loc main_arg2)) (m ((c : Thread nD τ).loc main_arg4)) (m ((c : Thread nD τ).loc main_arg5))
          (m ((c : Thread nD τ).loc main_arg7)) (m ((c : Thread nD τ).loc main_arg3)) (m ((c : Thread nD τ).loc main_arg6)) :=
  (arrAtR1_eq (E7 m ρ) c).trans
    (out1_eq (W0 m ρ c) (W6 m ρ c) hr (hid_value m ρ c)
      (W6_in m ρ c 2 rfl) (W6_in m ρ c 0 rfl) (W6_of_ne m ρ c main_v2 (by decide))
      (W6_of_ne m ρ c main_arg5 (by decide)) (W6_of_ne m ρ c main_arg6 (by decide))
      (W6_of_ne m ρ c main_arg7 (by decide)))

end Final

end Cert.Sage.KVal

end
-- ==== Proof.RefValue.lean ====
/-
  The reference program's result, as the two-layer graph convolution of `Spec`.

  The reference slices the edge array into its source row and destination row, wraps negative source numbers,
  gathers the source nodes' features, sums them into the destination rows with an accumulating scatter, counts
  the degrees with a second scatter of ones, and then applies, per layer, the mean, the two products and the bias.
  Here the scatter is read as the sum over the edges that end in a node (under the hypothesis that every
  destination word is a node number), and the composed result of the reference's run is shown to be `Sage.net`.
-/
import proofs.«402184_j37915971289911_2_alg».proof.Defs
import proofs.«402184_j37915971289911_2_alg».proof.Proof.Gen.ReferenceIdeal.Run
import proofs.«402184_j37915971289911_2_alg».proof.Proof.Gen.ReferenceIdeal.Read
import proofs.«402184_j37915971289911_2_alg».proof.Proof.Spec

noncomputable section

open scoped BigOperators

namespace Cert.Sage.Ref

open Cert.ReferenceIdeal Idealize.ShloMosaic Idealize.ShloMosaic.ValueIdx
open Cert.ReferenceIdeal.Facts₀

variable [Cert.ReferenceIdeal.Facts]

/-- The source node of every edge, as the gather's start indices `[800000, 1]`: row 0 of the edge array, a negative
    number wrapped by adding the node count. -/
def srcIdx (e1 : IVec S2x800000 32) : IVec S800000x1 32 :=
  broadcastInDim S800000x1 ![0] bcast_S800000_S800000x1_0 (select (cmpi .slt (shapeCast _ (extractStridedSlice S1x800000 ![0, 0] e1 slices_S2x800000_S1x800000_0_0) shapeCasts_S1x800000_S800000) (broadcastInDim S800000 ![] bcast_S_S800000 (constantI S_ 32 0#32))) (addi (shapeCast _ (extractStridedSlice S1x800000 ![0, 0] e1 slices_S2x800000_S1x800000_0_0) shapeCasts_S1x800000_S800000) (broadcastInDim S800000 ![] bcast_S_S800000 (constantI S_ 32 50000#32))) (shapeCast _ (extractStridedSlice S1x800000 ![0, 0] e1 slices_S2x800000_S1x800000_0_0) shapeCasts_S1x800000_S800000))

/-- The destination node of every edge: row 1 of the edge array. -/
def dstVec (e1 : IVec S2x800000 32) : IVec S800000 32 :=
  shapeCast _ (extractStridedSlice S1x800000 ![1, 0] e1 slices_S2x800000_S1x800000_1_0) shapeCasts_S1x800000_S800000

/-- The destinations as scatter indices `[800000, 1]`. -/
def dstIdx (e1 : IVec S2x800000 32) : IVec S800000x1 32 :=
  broadcastInDim S800000x1 ![0] bcast_S800000_S800000x1_0 (dstVec e1)

/-- The node degrees: ones scattered onto zeros at the destinations. -/
def cntVec (e1 : IVec S2x800000 32) : FVec Ideal S50000 .f32 :=
  Host.scatterAdd scatter_S50000_S800000x1_S800000_n_0_0_1 (broadcastInDim S50000 ![] bcast_S_S50000 (constant S_ .f32 0x00000000#32)) (dstIdx e1) (broadcastInDim S800000 ![] bcast_S_S800000 (constant S_ .f32 0x3F800000#32))

/-- The features of every edge's source node. -/
def gat (e1 : IVec S2x800000 32) (x : FVec Ideal S50000x64 .f32) : FVec Ideal S800000x64 .f32 :=
  Host.gather gather_S50000x64_S800000x1_S800000x64_1_0_n_n_0_1_164 x (srcIdx e1)

/-! ## The accumulating scatter's dimension numbers, read at update `(e, d)` -/

theorem start_row (e : Fin 800000) (d : Fin 64) (idx : IVec S800000x1 32) :
    scatter_S50000x64_S800000x1_S800000x64_1_0_0_1.start (ix2 e d) idx 0 = (idx (ix2 e 0)).toInt := by
  unfold ScatterDims.start
  rw [dif_pos (show (0 : Fin S50000x64.rank) ∈ scatter_S50000x64_S800000x1_S800000x64_1_0_0_1.scatterDimsToOperandDims by decide)]
  refine congrArg (fun k => (idx k).toInt) (funext fun b => ?_)
  match b with
  | ⟨0, _⟩ => rfl
  | ⟨1, _⟩ => rfl

theorem start_col (e : Fin 800000) (d : Fin 64) (idx : IVec S800000x1 32) :
    scatter_S50000x64_S800000x1_S800000x64_1_0_0_1.start (ix2 e d) idx 1 = 0 := by
  unfold ScatterDims.start
  rw [dif_neg (show ¬(1 : Fin S50000x64.rank) ∈ scatter_S50000x64_S800000x1_S800000x64_1_0_0_1.scatterDimsToOperandDims by decide)]

theorem window_row (e : Fin 800000) (d : Fin 64) : scatter_S50000x64_S800000x1_S800000x64_1_0_0_1.window (ix2 e d) 0 = 0 := by
  unfold ScatterDims.window
  rw [dif_neg (show ¬(0 : Fin S50000x64.rank) ∈ scatter_S50000x64_S800000x1_S800000x64_1_0_0_1.sKept by decide)]

theorem window_col (e : Fin 800000) (d : Fin 64) : scatter_S50000x64_S800000x1_S800000x64_1_0_0_1.window (ix2 e d) 1 = d.val := by
  unfold ScatterDims.window
  rw [dif_pos (show (1 : Fin S50000x64.rank) ∈ scatter_S50000x64_S800000x1_S800000x64_1_0_0_1.sKept by decide)]
  rfl

/-- The destinations as scatter indices, read at an edge. -/
theorem dstIdx_apply (e1 : IVec S2x800000 32) (e : Fin 800000) (z : Fin 1) : dstIdx e1 (ix2 e z) = dstVec e1 (ix1 e) := by
  unfold dstIdx
  exact broadcastInDim_apply _ bcast_S800000_S800000x1_0 (dstVec e1) (ix2 e z) (ix1 e) (fun a => match a with
    | ⟨0, _⟩ => by show e.val = if (800000 : Nat) = 1 then 0 else e.val; rw [if_neg (by decide)])

/-- A non-negative 32-bit word, read signed, is the number `n` exactly when it is `n`'s word. -/
theorem word_eq_iff (w : BitVec 32) (n : Nat) (hw0 : 0 ≤ w.toInt) (hn : n < 50000) :
    w.toInt.toNat = n ↔ w = BitVec.ofNat 32 n := by
  have hlt : w.toNat < 2 ^ 32 := w.isLt
  have hiff : w = BitVec.ofNat 32 n ↔ w.toNat = n := by
    rw [← BitVec.toNat_inj, BitVec.toNat_ofNat, Nat.mod_eq_of_lt (by omega)]
  rw [hiff]
  rw [BitVec.toInt_eq_toNat_cond] at hw0 ⊢
  by_cases hc : 2 * w.toNat < 2 ^ 32
  · rw [if_pos hc] at hw0 ⊢; omega
  · rw [if_neg hc] at hw0 ⊢; omega

/-- Under the range hypothesis every update lands in the operand: update `(e, d)` at row `dst e`, column `d`. -/
theorem resultIdx_rows (e1 : IVec S2x800000 32)
    (hdst : ∀ e : Fin 800000, 0 ≤ (dstVec e1 (ix1 e)).toInt ∧ (dstVec e1 (ix1 e)).toInt < 50000)
    (e : Fin 800000) (d : Fin 64) (i : S50000x64.Idx) :
    scatter_S50000x64_S800000x1_S800000x64_1_0_0_1.resultIdx? (ix2 e d) (dstIdx e1) = some i ↔
      (dstVec e1 (ix1 e) = BitVec.ofNat 32 (i 0).val ∧ d = i 1) := by
  have hd := hdst e
  have hj1 : d.val < 64 := d.isLt
  have hi0 : (i 0).val < 50000 := (i 0).isLt
  have hr : scatter_S50000x64_S800000x1_S800000x64_1_0_0_1.start (ix2 e d) (dstIdx e1) 0 + scatter_S50000x64_S800000x1_S800000x64_1_0_0_1.window (ix2 e d) 0 = (dstVec e1 (ix1 e)).toInt := by
    rw [start_row, window_row, dstIdx_apply]; simp
  have hc : scatter_S50000x64_S800000x1_S800000x64_1_0_0_1.start (ix2 e d) (dstIdx e1) 1 + scatter_S50000x64_S800000x1_S800000x64_1_0_0_1.window (ix2 e d) 1 = (d.val : Int) := by
    rw [start_col, window_col]; simp
  have h : ∀ a, 0 ≤ scatter_S50000x64_S800000x1_S800000x64_1_0_0_1.start (ix2 e d) (dstIdx e1) a + scatter_S50000x64_S800000x1_S800000x64_1_0_0_1.window (ix2 e d) a ∧
      scatter_S50000x64_S800000x1_S800000x64_1_0_0_1.start (ix2 e d) (dstIdx e1) a + scatter_S50000x64_S800000x1_S800000x64_1_0_0_1.window (ix2 e d) a < S50000x64.size a := by
    intro a
    match a with
    | ⟨0, _⟩ =>
      show 0 ≤ scatter_S50000x64_S800000x1_S800000x64_1_0_0_1.start (ix2 e d) (dstIdx e1) 0 + scatter_S50000x64_S800000x1_S800000x64_1_0_0_1.window (ix2 e d) 0 ∧
        scatter_S50000x64_S800000x1_S800000x64_1_0_0_1.start (ix2 e d) (dstIdx e1) 0 + scatter_S50000x64_S800000x1_S800000x64_1_0_0_1.window (ix2 e d) 0 < ((50000 : Nat) : Int)
      rw [hr]; exact ⟨hd.1, by exact_mod_cast hd.2⟩
    | ⟨1, _⟩ =>
      show 0 ≤ scatter_S50000x64_S800000x1_S800000x64_1_0_0_1.start (ix2 e d) (dstIdx e1) 1 + scatter_S50000x64_S800000x1_S800000x64_1_0_0_1.window (ix2 e d) 1 ∧
        scatter_S50000x64_S800000x1_S800000x64_1_0_0_1.start (ix2 e d) (dstIdx e1) 1 + scatter_S50000x64_S800000x1_S800000x64_1_0_0_1.window (ix2 e d) 1 < ((64 : Nat) : Int)
      rw [hc]; omega
  unfold ScatterDims.resultIdx?
  rw [dif_pos h, Option.some.injEq]
  constructor
  · intro hEq
    have h0 := congrArg Fin.val (congrFun hEq 0)
    have h1 := congrArg Fin.val (congrFun hEq 1)
    simp only [hr, hc] at h0 h1
    exact ⟨(word_eq_iff _ _ hd.1 hi0).mp h0, Fin.ext (by omega)⟩
  · rintro ⟨hw, hcol⟩
    funext a
    refine Fin.ext ?_
    match a with
    | ⟨0, _⟩ =>
      show (scatter_S50000x64_S800000x1_S800000x64_1_0_0_1.start (ix2 e d) (dstIdx e1) 0 + scatter_S50000x64_S800000x1_S800000x64_1_0_0_1.window (ix2 e d) 0).toNat = (i 0).val
      rw [hr]; exact (word_eq_iff _ _ hd.1 hi0).mpr hw
    | ⟨1, _⟩ =>
      show (scatter_S50000x64_S800000x1_S800000x64_1_0_0_1.start (ix2 e d) (dstIdx e1) 1 + scatter_S50000x64_S800000x1_S800000x64_1_0_0_1.window (ix2 e d) 1).toNat = (i 1).val
      rw [hc, ← hcol]; omega

/-- The host's accumulating scatter read at one index, with the landing condition restated: the operand's element
    plus the updates that land there. -/
theorem hostScatterAdd_apply_of {s si su : Shape} (d : ScatterDims s si su) {w : Nat} (x : FVec Ideal s .f32)
    (idx : IVec si w) (upd : FVec Ideal su .f32) (i : s.Idx) (q : su.Idx → Prop) [DecidablePred q]
    (h : ∀ j, d.resultIdx? j idx = some i ↔ q j) :
    Host.scatterAdd (F := Ideal) d x idx upd i = x i + ∑ j, if q j then upd j else 0 := by
  unfold Host.scatterAdd
  rw [Ideal.hostScatterAdd_def]
  unfold Ideal.hostScatterAdd
  rw [Finset.filter_congr (fun j _ => h j), Finset.sum_filter]

/-- A sum over a column index that keeps one column. -/
theorem sum_col_ite {n : Nat} (A : Prop) [Decidable A] (c : Fin n) (f : Fin n → EReal) :
    (∑ b : Fin n, if (A ∧ b.val = c.val) then f b else 0) = if A then f c else 0 := by
  simp only [← Fin.ext_iff]
  by_cases hA : A
  · simp only [hA, true_and, if_true]
    rw [Finset.sum_ite_eq' Finset.univ c f]
    simp
  · simp only [hA, false_and, if_false, Finset.sum_const_zero]

/-- THE SCATTER AS A SUM OVER EDGES: onto zeros, row `n` of the accumulating scatter is the sum of the messages of the
    edges whose destination word is `n`'s. -/
theorem scatter_rows (e1 : IVec S2x800000 32)
    (hdst : ∀ e : Fin 800000, 0 ≤ (dstVec e1 (ix1 e)).toInt ∧ (dstVec e1 (ix1 e)).toInt < 50000)
    (msg : FVec Ideal S800000x64 .f32) :
    Host.scatterAdd (F := Ideal) scatter_S50000x64_S800000x1_S800000x64_1_0_0_1 (broadcastInDim S50000x64 ![] bcast_S_S50000x64 (constant S_ .f32 0x00000000#32)) (dstIdx e1) msg
      = Cert.Sage.aggr (dstVec e1) msg := by
  funext i
  have hz : broadcastInDim S50000x64 ![] bcast_S_S50000x64 (constant (F := Ideal) S_ .f32 0x00000000#32) i = 0 := by
    rw [broadcastInDim_apply _ bcast_S_S50000x64 _ i ix0 (fun a => a.elim0), constant_apply, Ideal.ofBits_zero_f32]
  refine (hostScatterAdd_apply_of scatter_S50000x64_S800000x1_S800000x64_1_0_0_1 _ (dstIdx e1) msg i
    (fun j : S800000x64.Idx => dstVec e1 (ix1 (j 0)) = BitVec.ofNat 32 (i 0).val ∧ (j 1).val = (i 1).val) (fun j => ?_)).trans ?_
  · obtain ⟨e, d, rfl⟩ : ∃ (e : Fin 800000) (d : Fin 64), j = ix2 e d := ⟨j 0, j 1, eq_ix2 j⟩
    exact (resultIdx_rows e1 hdst e d i).trans (and_congr_right fun _ => Fin.ext_iff)
  refine (congrArg (· + _) hz).trans ((zero_add _).trans ?_)
  refine (sum_idx2 _).trans ?_
  unfold Cert.Sage.aggr
  refine Finset.sum_congr rfl fun e _ => ?_
  exact sum_col_ite (dstVec e1 (ix1 e) = BitVec.ofNat 32 (i 0).val) (i 1) (fun b => msg (ix2 e b))

/-! ## The specification's layer at node `n`, column `d` -/

theorem layerPre_ix2 (cnt : Cert.Sage.ShN.Idx → EReal) (a feat : Cert.Sage.ShND.Idx → EReal)
    (wl wr : Cert.Sage.ShDD.Idx → EReal) (b : Cert.Sage.ShD.Idx → EReal) (n : Fin 50000) (d : Fin 64) :
    Cert.Sage.layerPre cnt a feat wl wr b (ix2 n d)
      = ((∑ j : Fin 64, Ideal.div (a (ix2 n j)) (max (cnt (ix1 n)) (Ideal.ofBits .f32 0x3F800000#32)) * wl (ix2 j d))
          + b (ix1 d)) + ∑ j : Fin 64, feat (ix2 n j) * wr (ix2 j d) := rfl

theorem layerRelu_ix2 (cnt : Cert.Sage.ShN.Idx → EReal) (a feat : Cert.Sage.ShND.Idx → EReal)
    (wl wr : Cert.Sage.ShDD.Idx → EReal) (b : Cert.Sage.ShD.Idx → EReal) (n : Fin 50000) (d : Fin 64) :
    Cert.Sage.layerRelu cnt a feat wl wr b (ix2 n d)
      = max (Cert.Sage.layerPre cnt a feat wl wr b (ix2 n d)) (Ideal.ofBits .f32 0x00000000#32) := rfl

/-! ## The reference's stages as the specification's functions -/

section Stages
variable (x0 : FVec Ideal S50000x64 .f32) (e1 : IVec S2x800000 32) (x2 x4 x5 x7 : FVec Ideal S64x64 .f32)
  (x3 x6 : FVec Ideal S64 .f32)

/-- The degrees' stage is the degree vector (both layers recompute it). -/
theorem v17_eq : Read.val_main_v17 (F := Ideal) e1 = cntVec e1 := rfl
theorem v43_eq : Read.val_main_v43 (F := Ideal) e1 = cntVec e1 := rfl

/-- The first layer's aggregate: the scatter of the gathered input features. -/
theorem v13_eq (hdst : ∀ e : Fin 800000, 0 ≤ (dstVec e1 (ix1 e)).toInt ∧ (dstVec e1 (ix1 e)).toInt < 50000) :
    Read.val_main_v13 (F := Ideal) x0 e1 = Cert.Sage.aggr (dstVec e1) (gat e1 x0) :=
  scatter_rows e1 hdst (gat e1 x0)

/-- The second layer's aggregate: the scatter of the gathered hidden features. -/
theorem v39_eq (hdst : ∀ e : Fin 800000, 0 ≤ (dstVec e1 (ix1 e)).toInt ∧ (dstVec e1 (ix1 e)).toInt < 50000) :
    Read.val_main_v39 (F := Ideal) x0 e1 x2 x3 x4
      = Cert.Sage.aggr (dstVec e1) (gat e1 (Read.val_main_v29 (F := Ideal) x0 e1 x2 x3 x4)) :=
  scatter_rows e1 hdst (gat e1 (Read.val_main_v29 (F := Ideal) x0 e1 x2 x3 x4))

/-- The first layer before its activation, at node `n`, column `d`. -/
theorem layer1_apply (hdst : ∀ e : Fin 800000, 0 ≤ (dstVec e1 (ix1 e)).toInt ∧ (dstVec e1 (ix1 e)).toInt < 50000)
    (n : Fin 50000) (d : Fin 64) :
    Read.val_main_v28 (F := Ideal) x0 e1 x2 x3 x4 (ix2 n d)
      = Cert.Sage.layerPre (cntVec e1) (Cert.Sage.aggr (dstVec e1) (gat e1 x0)) x0 x2 x4 x3 (ix2 n d) := by
  have hl : ∀ k : Fin 64, Read.lidx_main_v23 (ix2 n d) k = ix2 n k := fun k =>
    funext fun a => Fin.ext (by match a with | ⟨0, _⟩ => rfl | ⟨1, _⟩ => rfl)
  have hr : ∀ k : Fin 64, Read.ridx_main_v23 (ix2 n d) k = ix2 k d := fun k =>
    funext fun a => Fin.ext (by match a with | ⟨0, _⟩ => rfl | ⟨1, _⟩ => rfl)
  have hl' : ∀ k : Fin 64, Read.lidx_main_v27 (ix2 n d) k = ix2 n k := fun k =>
    funext fun a => Fin.ext (by match a with | ⟨0, _⟩ => rfl | ⟨1, _⟩ => rfl)
  have hr' : ∀ k : Fin 64, Read.ridx_main_v27 (ix2 n d) k = ix2 k d := fun k =>
    funext fun a => Fin.ext (by match a with | ⟨0, _⟩ => rfl | ⟨1, _⟩ => rfl)
  have hc : ∀ k : Fin 64, Read.idx_main_v20 (Read.idx_main_v21 (ix2 n k)) = ix1 n := fun k =>
    funext fun a => Fin.ext (by match a with | ⟨0, _⟩ => rfl)
  have hb : Read.idx_main_v24 (Read.idx_main_v25 (ix2 n d)) = ix1 d :=
    funext fun a => Fin.ext (by match a with | ⟨0, _⟩ => rfl)
  rw [Read.val_main_v28_apply, Read.val_main_v26_apply, Read.val_main_v23_apply, Read.val_main_v27_apply,
    Read.val_main_v25_apply, Read.val_main_v24_apply, hb, Ideal.addf_def, Ideal.addf_def, layerPre_ix2]
  refine congrArg₂ (· + ·) (congrArg₂ (· + ·) (Finset.sum_congr rfl fun k _ => ?_) rfl) (Finset.sum_congr rfl fun k _ => ?_)
  · rw [hl k, hr k, Read.val_main_v22_apply, Read.val_main_v21_apply, Read.val_main_v20_apply, hc k,
      Read.val_main_v19_apply, Read.val_main_v18_apply, Read.val_main_cst_3_apply, v13_eq x0 e1 hdst, v17_eq,
      Ideal.hostDivf_def, Ideal.maximumf_def, Ideal.ofBits_def]
  · rw [hl' k, hr' k]

/-- The hidden features: the first layer with its activation. -/
theorem hidden_eq (hdst : ∀ e : Fin 800000, 0 ≤ (dstVec e1 (ix1 e)).toInt ∧ (dstVec e1 (ix1 e)).toInt < 50000) :
    Read.val_main_v29 (F := Ideal) x0 e1 x2 x3 x4
      = Cert.Sage.layerRelu (cntVec e1) (Cert.Sage.aggr (dstVec e1) (gat e1 x0)) x0 x2 x4 x3 := by
  funext i
  obtain ⟨n, d, rfl⟩ : ∃ (n : Fin 50000) (d : Fin 64), i = ix2 n d := ⟨i 0, i 1, eq_ix2 i⟩
  rw [Read.val_main_v29_apply, Read.val_main_call0_v0_apply, Read.val_main_call0_cst_apply,
    layer1_apply x0 e1 x2 x4 x3 hdst n d, Ideal.maximumf_def, Ideal.ofBits_def, layerRelu_ix2]

/-- The second layer over the hidden features (kept as the stage that computes them), at node `n`, column `d`. -/
theorem layer2_apply (hdst : ∀ e : Fin 800000, 0 ≤ (dstVec e1 (ix1 e)).toInt ∧ (dstVec e1 (ix1 e)).toInt < 50000)
    (n : Fin 50000) (d : Fin 64) :
    Read.val_main_v54 (F := Ideal) x0 e1 x2 x3 x4 x5 x6 x7 (ix2 n d)
      = Cert.Sage.layerPre (cntVec e1)
          (Cert.Sage.aggr (dstVec e1) (gat e1 (Read.val_main_v29 (F := Ideal) x0 e1 x2 x3 x4)))
          (Read.val_main_v29 (F := Ideal) x0 e1 x2 x3 x4) x5 x7 x6 (ix2 n d) := by
  have hl : ∀ k : Fin 64, Read.lidx_main_v49 (ix2 n d) k = ix2 n k := fun k =>
    funext fun a => Fin.ext (by match a with | ⟨0, _⟩ => rfl | ⟨1, _⟩ => rfl)
  have hr : ∀ k : Fin 64, Read.ridx_main_v49 (ix2 n d) k = ix2 k d := fun k =>
    funext fun a => Fin.ext (by match a with | ⟨0, _⟩ => rfl | ⟨1, _⟩ => rfl)
  have hl' : ∀ k : Fin 64, Read.lidx_main_v53 (ix2 n d) k = ix2 n k := fun k =>
    funext fun a => Fin.ext (by match a with | ⟨0, _⟩ => rfl | ⟨1, _⟩ => rfl)
  have hr' : ∀ k : Fin 64, Read.ridx_main_v53 (ix2 n d) k = ix2 k d := fun k =>
    funext fun a => Fin.ext (by match a with | ⟨0, _⟩ => rfl | ⟨1, _⟩ => rfl)
  have hc : ∀ k : Fin 64, Read.idx_main_v46 (Read.idx_main_v47 (ix2 n k)) = ix1 n := fun k =>
    funext fun a => Fin.ext (by match a with | ⟨0, _⟩ => rfl)
  have hb : Read.idx_main_v50 (Read.idx_main_v51 (ix2 n d)) = ix1 d :=
    funext fun a => Fin.ext (by match a with | ⟨0, _⟩ => rfl)
  rw [Read.val_main_v54_apply, Read.val_main_v52_apply, Read.val_main_v49_apply, Read.val_main_v53_apply,
    Read.val_main_v51_apply, Read.val_main_v50_apply, hb, Ideal.addf_def, Ideal.addf_def, layerPre_ix2]
  refine congrArg₂ (· + ·) (congrArg₂ (· + ·) (Finset.sum_congr rfl fun k _ => ?_) rfl) (Finset.sum_congr rfl fun k _ => ?_)
  · rw [hl k, hr k, Read.val_main_v48_apply, Read.val_main_v47_apply, Read.val_main_v46_apply, hc k,
      Read.val_main_v45_apply, Read.val_main_v44_apply, Read.val_main_cst_9_apply, v39_eq x0 e1 x2 x4 x3 hdst, v43_eq,
      Ideal.hostDivf_def, Ideal.maximumf_def, Ideal.ofBits_def]
  · rw [hl' k, hr' k]

end Stages

/-! ## The run's result -/

theorem net_ix2 (g : (Cert.Sage.ShND.Idx → EReal) → Cert.Sage.ShED.Idx → EReal) (dst : Cert.Sage.ShE.Idx → BitVec 32)
    (cnt : Cert.Sage.ShN.Idx → EReal) (x : Cert.Sage.ShND.Idx → EReal) (w1l w1r w2l w2r : Cert.Sage.ShDD.Idx → EReal)
    (b1 b2 : Cert.Sage.ShD.Idx → EReal) :
    Cert.Sage.net g dst cnt x w1l w1r w2l w2r b1 b2
      = Cert.Sage.layerPre cnt (Cert.Sage.aggr dst (g (Cert.Sage.layerRelu cnt (Cert.Sage.aggr dst (g x)) x w1l w1r b1)))
          (Cert.Sage.layerRelu cnt (Cert.Sage.aggr dst (g x)) x w1l w1r b1) w2l w2r b2 := rfl

open Idealize.ShloMosaic.TcCoe Idealize.SL.Sem in
/-- THE REFERENCE'S RESULT IS THE NETWORK: the composed term the reference's run ends with is `Sage.net` over the
    gather, the destination words and the degrees of the edge array, at the launch's features, weights and biases. -/
theorem ref_value (m : (ℓ : Loc nD τ sig) → Buf (Elt Ideal) ℓ) (c : Dev nD)
    (hdst : ∀ e : Fin 800000, 0 ≤ (dstVec (m ((c.tc : Thread nD τ).loc main_arg1)) (ix1 e)).toInt ∧
      (dstVec (m ((c.tc : Thread nD τ).loc main_arg1)) (ix1 e)).toInt < 50000) :
    Cert.ReferenceIdeal.Value.res_main_v54 (F := Ideal) m c =
      Cert.Sage.net (gat (m ((c.tc : Thread nD τ).loc main_arg1))) (dstVec (m ((c.tc : Thread nD τ).loc main_arg1)))
        (cntVec (m ((c.tc : Thread nD τ).loc main_arg1))) (m ((c.tc : Thread nD τ).loc main_arg0))
        (m ((c.tc : Thread nD τ).loc main_arg2)) (m ((c.tc : Thread nD τ).loc main_arg4))
        (m ((c.tc : Thread nD τ).loc main_arg5)) (m ((c.tc : Thread nD τ).loc main_arg7))
        (m ((c.tc : Thread nD τ).loc main_arg3)) (m ((c.tc : Thread nD τ).loc main_arg6)) := by
  rw [Read.val_main_v54_eq, net_ix2]
  funext i
  obtain ⟨n, d, rfl⟩ : ∃ (n : Fin 50000) (d : Fin 64), i = ix2 n d := ⟨i 0, i 1, eq_ix2 i⟩
  rw [layer2_apply _ _ _ _ _ _ _ _ hdst n d, hidden_eq _ _ _ _ _ hdst]

end Cert.Sage.Ref

end
-- ==== Proof.lean ====
/-
  Two layers of a mean-aggregating graph convolution (50000 nodes, 800000 edges, 64 features): the kernel's program
  against the reference, over the extended reals, for edge indices in `[0, 50000)`.

  Each layer sends every edge's source-node features to the edge's destination node, averages what arrives
  (`sum / max (count, 1)`), multiplies the mean by one weight matrix, adds a bias, and adds the node's own features
  times a second matrix; the first layer ends in `max (·, 0)`. The reference scatters the gathered messages with a
  scatter-add; the kernel walks a 25 × 250 grid of (node block, edge block) pairs, adds to a scratch accumulator the
  product of a 0/1 matrix `[node = destination]` with the edge block's messages, and at the last edge block of a node
  block computes the rest of the layer and stores the block. On the extended reals `0 · x = 0` and `1 · x = x` for
  every `x`, so the 0/1 product is the sum of the messages of the edges that end in the node, and the 250 partial sums
  are one sum over all edges: the scatter-add's sum (`Cert.Sage.aggr`). Everything after the aggregate is the same
  expression on both sides. The kernel's program clamps the edge indices into `[0, 49999]` first; on indices already in
  range the clamp is the identity, which is where the precondition is used (and only there).

  The frames: every launch's body is run once per control case (first, middle, last edge block of a node block) and the
  launch's invariant carries the accumulator from point to point; @main is five host stretches, a launch, a host
  stretch, a launch.
-/
import proofs.«402184_j37915971289911_2_alg».proof.Defs
import proofs.«402184_j37915971289911_2_alg».proof.Proof.Gen.Kernel
import proofs.«402184_j37915971289911_2_alg».proof.Proof.Gen.KernelIdeal
import proofs.«402184_j37915971289911_2_alg».proof.Proof.Gen.ReferenceIdeal
import proofs.«402184_j37915971289911_2_alg».proof.Proof.Gen.Pre_finite_inputs
import proofs.«402184_j37915971289911_2_alg».proof.Proof.FrameBits.Launch
import proofs.«402184_j37915971289911_2_alg».proof.Proof.FrameIdeal.Launch
import proofs.«402184_j37915971289911_2_alg».proof.Proof.KernelValue
import proofs.«402184_j37915971289911_2_alg».proof.Proof.RefValue
import proofs.«402184_j37915971289911_2_alg».proof.Proof.Domain
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end, faults nowhere, and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The edge indices the two programs read are the same array, and the two programs' index vectors, degree counts and
    gathers are the same terms of it: the dimension records of the two printed programs have the same fields. -/
theorem same_terms (e1 : IVec Cert.KernelIdeal.S2x800000 32) :
    Cert.Sage.Ref.gat e1 = Cert.Sage.KVal.gatK e1 ∧ Cert.Sage.Ref.dstVec e1 = Cert.Sage.KVal.dstRaw e1
      ∧ Cert.Sage.Ref.cntVec e1 = Cert.Sage.KVal.cntRaw e1 := ⟨rfl, rfl, rfl⟩

/-- Both programs end with the network of `Cert.Sage.net` applied to the same arguments. -/
theorem algebraic : Cert.algebraic_KernelIdeal_ReferenceIdeal := by
  intro m ρ m' ρ' hpre hagree
  have hr : ∀ c : Dev Cert.KernelIdeal.nD, ∀ i, 0 ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 50000 := fun c =>
    Cert.Sage.Domain.edge_in_range (F := Ideal) _ _ _ _ _ _ _ _ (hpre c)
  refine ⟨fun c => Cert.Sage.net (Cert.Sage.KVal.gatK (m ((c.tc : Thread Cert.KernelIdeal.nD Cert.KernelIdeal.τ).loc Cert.KernelIdeal.main_arg1))) (Cert.Sage.KVal.dstRaw (m ((c.tc : Thread Cert.KernelIdeal.nD Cert.KernelIdeal.τ).loc Cert.KernelIdeal.main_arg1))) (Cert.Sage.KVal.cntRaw (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.Sage.KVal.kernel_value m ρ c (hr c)), (h c).2⟩)
      (Cert.KernelIdeal.Hand.value_run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    have hdst : ∀ e : Fin 800000, 0 ≤ (Cert.Sage.Ref.dstVec (m' ((c.tc : Thread Cert.ReferenceIdeal.nD Cert.ReferenceIdeal.τ).loc Cert.ReferenceIdeal.main_arg1)) (ValueIdx.ix1 e)).toInt
        ∧ (Cert.Sage.Ref.dstVec (m' ((c.tc : Thread Cert.ReferenceIdeal.nD Cert.ReferenceIdeal.τ).loc Cert.ReferenceIdeal.main_arg1)) (ValueIdx.ix1 e)).toInt < 50000 := by
      intro e
      rw [a1]
      exact Cert.Sage.KVal.dstRaw_in_range (m ((c.tc : Thread Cert.KernelIdeal.nD Cert.KernelIdeal.τ).loc Cert.KernelIdeal.main_arg1)) (hr c) e
    rw [Cert.Sage.Ref.ref_value m' c hdst, a0, a1, a2, a3, a4, a5, a6, a7,
      (same_terms (m ((c.tc : Thread Cert.KernelIdeal.nD Cert.KernelIdeal.τ).loc Cert.KernelIdeal.main_arg1))).1, (same_terms (m ((c.tc : Thread Cert.KernelIdeal.nD Cert.KernelIdeal.τ).loc Cert.KernelIdeal.main_arg1))).2.1, (same_terms (m ((c.tc : Thread Cert.KernelIdeal.nD Cert.KernelIdeal.τ).loc Cert.KernelIdeal.main_arg1))).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
